-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v118)) (v1 : (c : Dev Cert.KernelIdeal.nD) → Buf (Elt Ideal) ((c.tc : Thread Cert.KernelIdeal.nD Cert.KernelIdeal.τ).loc Cert.KernelIdeal.main_v124)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v118) = v0 c
          ∧ r.2.mem ((c.tc : Thread Cert.KernelIdeal.nD Cert.KernelIdeal.τ).loc Cert.KernelIdeal.main_v124) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S1600 : Shape := ⟨1, ![1600]⟩
abbrev S1000000 : Shape := ⟨1, ![1000000]⟩
abbrev S200000 : Shape := ⟨1, ![200000]⟩
abbrev S32 : Shape := ⟨1, ![32]⟩
abbrev S15000x128 : Shape := ⟨2, ![15000, 128]⟩
abbrev S50x128 : Shape := ⟨2, ![50, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel
  bcast_S_S15000x128 : S_.BroadcastsInDim S15000x128 (![] : Fin 0 → Fin S15000x128.rank)
  reducesTo_S15000x128_S_d0_1 : S15000x128.ReducesTo [0, 1] S_
  bcast_S_S50x128 : S_.BroadcastsInDim S50x128 (![] : Fin 0 → Fin S50x128.rank)
  reducesTo_S50x128_S_d0_1 : S50x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S100000 : S_.BroadcastsInDim S100000 (![] : Fin 0 → Fin S100000.rank)
  reducesTo_S100000_S_d0 : S100000.ReducesTo [0] S_
  bcast_S_S1600 : S_.BroadcastsInDim S1600 (![] : Fin 0 → Fin S1600.rank)
  reducesTo_S1600_S_d0 : S1600.ReducesTo [0] S_
  bcast_S_S1000000 : S_.BroadcastsInDim S1000000 (![] : Fin 0 → Fin S1000000.rank)
  reducesTo_S1000000_S_d0 : S1000000.ReducesTo [0] S_
  bcast_S_S200000 : S_.BroadcastsInDim S200000 (![] : Fin 0 → Fin S200000.rank)
  reducesTo_S200000_S_d0 : S200000.ReducesTo [0] S_

variable [Facts]

def fn_part4 {F : FTy → Type} [FloatOps F] (main_arg5 : IVec S200000 32) (main_v64 : IVec S_ 1) (main_v66 : IVec S200000 1) (main_c_26 : IVec S_ 32) : IVec S_ 1 :=
  let main_v67 : IVec S200000 32 := broadcastInDim S200000 ![] bcast_S_S200000 main_c_26
  let main_v68 : IVec S200000 1 := cmpi .slt main_arg5 main_v67
  let main_v69 : IVec S200000 1 := andi main_v66 main_v68
  let main_c_27 : IVec S_ 1 := constantI S_ 1 1#1
  let main_v70 : IVec S_ 1 := (fun x v => Host.reduce IntOp.andi x v reducesTo_S200000_S_d0 h_S_) main_v69 main_c_27
  let main_v71 : IVec S_ 1 := andi main_v64 main_v70
  main_v71

def fn_part3 {F : FTy → Type} [FloatOps F] (main_arg1 : IVec S1600 32) (main_arg3 : IVec S1000000 32) (main_arg5 : IVec S200000 32) (main_v50 : IVec S_ 1) : IVec S_ 1 :=
  let main_c_19 : IVec S_ 32 := constantI S_ 32 0#32
  let main_v51 : IVec S1600 32 := broadcastInDim S1600 ![] bcast_S_S1600 main_c_19
  let main_v52 : IVec S1600 1 := cmpi .sge main_arg1 main_v51
  let main_c_20 : IVec S_ 32 := constantI S_ 32 50#32
  let main_v53 : IVec S1600 32 := broadcastInDim S1600 ![] bcast_S_S1600 main_c_20
  let main_v54 : IVec S1600 1 := cmpi .slt main_arg1 main_v53
  let main_v55 : IVec S1600 1 := andi main_v52 main_v54
  let main_c_21 : IVec S_ 1 := constantI S_ 1 1#1
  let main_v56 : IVec S_ 1 := (fun x v => Host.reduce IntOp.andi x v reducesTo_S1600_S_d0 h_S_) main_v55 main_c_21
  let main_v57 : IVec S_ 1 := andi main_v50 main_v56
  let main_c_22 : IVec S_ 32 := constantI S_ 32 0#32
  let main_v58 : IVec S1000000 32 := broadcastInDim S1000000 ![] bcast_S_S1000000 main_c_22
  let main_v59 : IVec S1000000 1 := cmpi .sge main_arg3 main_v58
  let main_c_23 : IVec S_ 32 := constantI S_ 32 16384#32
  let main_v60 : IVec S1000000 32 := broadcastInDim S1000000 ![] bcast_S_S1000000 main_c_23
  let main_v61 : IVec S1000000 1 := cmpi .slt main_arg3 main_v60
  let main_v62 : IVec S1000000 1 := andi main_v59 main_v61
  let main_c_24 : IVec S_ 1 := constantI S_ 1 1#1
  let main_v63 : IVec S_ 1 := (fun x v => Host.reduce IntOp.andi x v reducesTo_S1000000_S_d0 h_S_) main_v62 main_c_24
  let main_v64 : IVec S_ 1 := andi main_v57 main_v63
  let main_c_25 : IVec S_ 32 := constantI S_ 32 0#32
  let main_v65 : IVec S200000 32 := broadcastInDim S200000 ![] bcast_S_S200000 main_c_25
  let main_v66 : IVec S200000 1 := cmpi .sge main_arg5 main_v65
  let main_c_26 : IVec S_ 32 := constantI S_ 32 16384#32
  fn_part4 (F := F) main_arg5 main_v64 main_v66 main_c_26

def fn_part2 {F : FTy → Type} [FloatOps F] (main_arg0 : IVec S100000 32) (main_arg1 : IVec S1600 32) (main_arg3 : IVec S1000000 32) (main_arg5 : IVec S200000 32) (main_arg13 : FVec F S128x1 .f32) (main_arg14 : FVec F S1 .f32) (main_v33 : IVec S_ 1) : IVec S_ 1 :=
  let main_v34 : FVec F S128x1 .f32 := Host.absf main_arg13
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg14
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_c_16 : IVec S_ 32 := constantI S_ 32 0#32
  let main_v44 : IVec S100000 32 := broadcastInDim S100000 ![] bcast_S_S100000 main_c_16
  let main_v45 : IVec S100000 1 := cmpi .sge main_arg0 main_v44
  let main_c_17 : IVec S_ 32 := constantI S_ 32 15000#32
  let main_v46 : IVec S100000 32 := broadcastInDim S100000 ![] bcast_S_S100000 main_c_17
  let main_v47 : IVec S100000 1 := cmpi .slt main_arg0 main_v46
  let main_v48 : IVec S100000 1 := andi main_v45 main_v47
  let main_c_18 : IVec S_ 1 := constantI S_ 1 1#1
  let main_v49 : IVec S_ 1 := (fun x v => Host.reduce IntOp.andi x v reducesTo_S100000_S_d0 h_S_) main_v48 main_c_18
  let main_v50 : IVec S_ 1 := andi main_v43 main_v49
  fn_part3 (F := F) main_arg1 main_arg3 main_arg5 main_v50

def fn_part1 {F : FTy → Type} [FloatOps F] (main_arg0 : IVec S100000 32) (main_arg1 : IVec S1600 32) (main_arg3 : IVec S1000000 32) (main_arg5 : IVec S200000 32) (main_arg10 : FVec F S128 .f32) (main_arg11 : FVec F S128x128 .f32) (main_arg12 : FVec F S128 .f32) (main_arg13 : FVec F S128x1 .f32) (main_arg14 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg10
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg11
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg12
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg0 main_arg1 main_arg3 main_arg5 main_arg13 main_arg14 main_v33

def fn {F : FTy → Type} [FloatOps F] (main_arg0 : IVec S100000 32) (main_arg1 : IVec S1600 32) (main_arg2 : IVec S1000000 32) (main_arg3 : IVec S1000000 32) (main_arg4 : IVec S200000 32) (main_arg5 : IVec S200000 32) (main_arg6 : FVec F S32 .f32) (main_arg7 : FVec F S15000x128 .f32) (main_arg8 : FVec F S50x128 .f32) (main_arg9 : FVec F S128x128 .f32) (main_arg10 : FVec F S128 .f32) (main_arg11 : FVec F S128x128 .f32) (main_arg12 : FVec F S128 .f32) (main_arg13 : FVec F S128x1 .f32) (main_arg14 : FVec F S1 .f32) : IVec S_ 1 :=
  let main_v0 : FVec F S32 .f32 := Host.absf main_arg6
  let main_cst : FVec F S_ .f32 := constant S_ .f32 0x7F800000#32
  let main_v1 : FVec F S32 .f32 := broadcastInDim S32 ![] bcast_S_S32 main_cst
  let main_v2 : IVec S32 1 := cmpf .olt main_v0 main_v1
  let main_c : IVec S_ 1 := constantI S_ 1 1#1
  let main_v3 : IVec S_ 1 := (fun x v => Host.reduce IntOp.andi x v reducesTo_S32_S_d0 h_S_) main_v2 main_c
  let main_v4 : FVec F S15000x128 .f32 := Host.absf main_arg7
  let main_cst_0 : FVec F S_ .f32 := constant S_ .f32 0x7F800000#32
  let main_v5 : FVec F S15000x128 .f32 := broadcastInDim S15000x128 ![] bcast_S_S15000x128 main_cst_0
  let main_v6 : IVec S15000x128 1 := cmpf .olt main_v4 main_v5
  let main_c_1 : IVec S_ 1 := constantI S_ 1 1#1
  let main_v7 : IVec S_ 1 := (fun x v => Host.reduce IntOp.andi x v reducesTo_S15000x128_S_d0_1 h_S_) main_v6 main_c_1
  let main_v8 : IVec S_ 1 := andi main_v3 main_v7
  let main_v9 : FVec F S50x128 .f32 := Host.absf main_arg8
  let main_cst_2 : FVec F S_ .f32 := constant S_ .f32 0x7F800000#32
  let main_v10 : FVec F S50x128 .f32 := broadcastInDim S50x128 ![] bcast_S_S50x128 main_cst_2
  let main_v11 : IVec S50x128 1 := cmpf .olt main_v9 main_v10
  let main_c_3 : IVec S_ 1 := constantI S_ 1 1#1
  let main_v12 : IVec S_ 1 := (fun x v => Host.reduce IntOp.andi x v reducesTo_S50x128_S_d0_1 h_S_) main_v11 main_c_3
  let main_v13 : IVec S_ 1 := andi main_v8 main_v12
  let main_v14 : FVec F S128x128 .f32 := Host.absf main_arg9
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg0 main_arg1 main_arg3 main_arg5 main_arg10 main_arg11 main_arg12 main_arg13 main_arg14 main_v13 main_v16
-- ==== Kernel.lean ====
abbrev S100000 : Shape := ⟨1, ![100000]⟩
abbrev S1600 : Shape := ⟨1, ![1600]⟩
abbrev S1000000 : Shape := ⟨1, ![1000000]⟩
abbrev S200000 : Shape := ⟨1, ![200000]⟩
abbrev S32 : Shape := ⟨1, ![32]⟩
abbrev S15000x128 : Shape := ⟨2, ![15000, 128]⟩
abbrev S50x128 : Shape := ⟨2, ![50, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S1000000x1 : Shape := ⟨2, ![1000000, 1]⟩
abbrev S16384 : Shape := ⟨1, ![16384]⟩
abbrev S200000x1 : Shape := ⟨2, ![200000, 1]⟩
abbrev S480000 : Shape := ⟨1, ![480000]⟩
abbrev S32x15000 : Shape := ⟨2, ![32, 15000]⟩
abbrev S32x15104 : Shape := ⟨2, ![32, 15104]⟩
abbrev S15104x128 : Shape := ⟨2, ![15104, 128]⟩
abbrev S32x128 : Shape := ⟨2, ![32, 128]⟩
abbrev S1x128 : Shape := ⟨2, ![1, 128]⟩
abbrev S32x50 : Shape := ⟨2, ![32, 50]⟩
abbrev S32x1 : Shape := ⟨2, ![32, 1]⟩
abbrev S1x1 : Shape := ⟨2, ![1, 1]⟩

abbrev nBuf : Space → Nat
  | .hbm => 221
  | .vmem => 3
  | .smem => 0
  | _ => 0

abbrev hbmTy0_0 (i : Nat) : BufTy := match i % 128 with
  | 0 => ⟨S100000, .i32⟩
  | 1 => ⟨S1600, .i32⟩
  | 2 => ⟨S1000000, .i32⟩
  | 3 => ⟨S1000000, .i32⟩
  | 4 => ⟨S200000, .i32⟩
  | 5 => ⟨S200000, .i32⟩
  | 6 => ⟨S32, .f32⟩
  | 7 => ⟨S15000x128, .f32⟩
  | 8 => ⟨S50x128, .f32⟩
  | 9 => ⟨S128x128, .f32⟩
  | 10 => ⟨S128, .f32⟩
  | 11 => ⟨S128x128, .f32⟩
  | 12 => ⟨S128, .f32⟩
  | 13 => ⟨S128x1, .f32⟩
  | 14 => ⟨S1, .f32⟩
  | 15 => ⟨S_, .f32⟩
  | 16 => ⟨S1000000, .f32⟩
  | 17 => ⟨S_, .f32⟩
  | 18 => ⟨S100000, .f32⟩
  | 19 => ⟨S1000000x1, .i32⟩
  | 20 => ⟨S100000, .f32⟩
  | 21 => ⟨S_, .f32⟩
  | 22 => ⟨S_, .f32⟩
  | 23 => ⟨S100000, .f32⟩
  | 24 => ⟨S100000, .f32⟩
  | 25 => ⟨S_, .f32⟩
  | 26 => ⟨S1000000, .f32⟩
  | 27 => ⟨S_, .f32⟩
  | 28 => ⟨S16384, .f32⟩
  | 29 => ⟨S1000000x1, .i32⟩
  | 30 => ⟨S16384, .f32⟩
  | 31 => ⟨S_, .f32⟩
  | 32 => ⟨S_, .f32⟩
  | 33 => ⟨S16384, .f32⟩
  | 34 => ⟨S16384, .f32⟩
  | 35 => ⟨S_, .f32⟩
  | 36 => ⟨S200000, .f32⟩
  | 37 => ⟨S_, .f32⟩
  | 38 => ⟨S1600, .f32⟩
  | 39 => ⟨S200000x1, .i32⟩
  | 40 => ⟨S1600, .f32⟩
  | 41 => ⟨S_, .f32⟩
  | 42 => ⟨S_, .f32⟩
  | 43 => ⟨S1600, .f32⟩
  | 44 => ⟨S1600, .f32⟩
  | 45 => ⟨S_, .f32⟩
  | 46 => ⟨S200000, .f32⟩
  | 47 => ⟨S_, .f32⟩
  | 48 => ⟨S16384, .f32⟩
  | 49 => ⟨S200000x1, .i32⟩
  | 50 => ⟨S16384, .f32⟩
  | 51 => ⟨S_, .f32⟩
  | 52 => ⟨S_, .f32⟩
  | 53 => ⟨S16384, .f32⟩
  | 54 => ⟨S16384, .f32⟩
  | 55 => ⟨S_, .i32⟩
  | 56 => ⟨S1000000, .i32⟩
  | 57 => ⟨S1000000, .i1⟩
  | 58 => ⟨S_, .i32⟩
  | 59 => ⟨S1000000, .i32⟩
  | 60 => ⟨S1000000, .i32⟩
  | 61 => ⟨S1000000, .i32⟩
  | 62 => ⟨S1000000x1, .i32⟩
  | 63 => ⟨S1000000, .i32⟩
  | 64 => ⟨S_, .i32⟩
  | 65 => ⟨S_, .i32⟩
  | 66 => ⟨S1000000, .i32⟩
  | 67 => ⟨S1000000, .i32⟩
  | 68 => ⟨S1000000, .i32⟩
  | 69 => ⟨S_, .i32⟩
  | 70 => ⟨S1000000, .i32⟩
  | 71 => ⟨S1000000, .i1⟩
  | 72 => ⟨S1000000, .i32⟩
  | 73 => ⟨S1000000, .i32⟩
  | 74 => ⟨S_, .i32⟩
  | 75 => ⟨S1000000, .i32⟩
  | 76 => ⟨S1000000, .i1⟩
  | 77 => ⟨S1000000, .i1⟩
  | 78 => ⟨S_, .i32⟩
  | 79 => ⟨S1000000, .i32⟩
  | 80 => ⟨S1000000, .i32⟩
  | 81 => ⟨S1000000, .i32⟩
  | 82 => ⟨S100000, .f32⟩
  | 83 => ⟨S_, .i32⟩
  | 84 => ⟨S1000000, .i32⟩
  | 85 => ⟨S1000000, .i1⟩
  | 86 => ⟨S_, .i32⟩
  | 87 => ⟨S1000000, .i32⟩
  | 88 => ⟨S1000000, .i32⟩
  | 89 => ⟨S1000000, .i32⟩
  | 90 => ⟨S1000000x1, .i32⟩
  | 91 => ⟨S1000000, .f32⟩
  | 92 => ⟨S16384, .f32⟩
  | 93 => ⟨S_, .i32⟩
  | 94 => ⟨S1000000, .i32⟩
  | 95 => ⟨S1000000, .i1⟩
  | 96 => ⟨S_, .i32⟩
  | 97 => ⟨S1000000, .i32⟩
  | 98 => ⟨S1000000, .i32⟩
  | 99 => ⟨S1000000, .i32⟩
  | 100 => ⟨S1000000x1, .i32⟩
  | 101 => ⟨S1000000, .f32⟩
  | 102 => ⟨S1000000, .f32⟩
  | 103 => ⟨S_, .i32⟩
  | 104 => ⟨S1000000, .i32⟩
  | 105 => ⟨S1000000, .i32⟩
  | 106 => ⟨S1000000, .i32⟩
  | 107 => ⟨S_, .f32⟩
  | 108 => ⟨S480000, .f32⟩
  | 109 => ⟨S1000000x1, .i32⟩
  | 110 => ⟨S480000, .f32⟩
  | 111 => ⟨S32x15000, .f32⟩
  | 112 => ⟨S_, .i32⟩
  | 113 => ⟨S_, .f32⟩
  | 114 => ⟨S32x15104, .f32⟩
  | 115 => ⟨S32x15104, .bf16⟩
  | 116 => ⟨S_, .i32⟩
  | 117 => ⟨S_, .f32⟩
  | 118 => ⟨S15104x128, .f32⟩
  | 119 => ⟨S15104x128, .bf16⟩
  | 120 => ⟨S32x128, .f32⟩
  | 121 => ⟨S_, .f32⟩
  | 122 => ⟨S32x128, .f32⟩
  | 123 => ⟨S32x128, .f32⟩
  | 124 => ⟨S32x128, .f32⟩
  | 125 => ⟨S1x128, .f32⟩
  | 126 => ⟨S32x128, .f32⟩
  | 127 => ⟨S32x128, .f32⟩
  | _ => ⟨S100000, .i32⟩

abbrev hbmTy0_1 (i : Nat) : BufTy := match i % 128 with
  | 0 => ⟨S_, .i32⟩
  | 1 => ⟨S200000, .i32⟩
  | 2 => ⟨S200000, .i1⟩
  | 3 => ⟨S_, .i32⟩
  | 4 => ⟨S200000, .i32⟩
  | 5 => ⟨S200000, .i32⟩
  | 6 => ⟨S200000, .i32⟩
  | 7 => ⟨S200000x1, .i32⟩
  | 8 => ⟨S200000, .i32⟩
  | 9 => ⟨S_, .i32⟩
  | 10 => ⟨S_, .i32⟩
  | 11 => ⟨S200000, .i32⟩
  | 12 => ⟨S200000, .i32⟩
  | 13 => ⟨S200000, .i32⟩
  | 14 => ⟨S_, .i32⟩
  | 15 => ⟨S200000, .i32⟩
  | 16 => ⟨S200000, .i1⟩
  | 17 => ⟨S200000, .i32⟩
  | 18 => ⟨S200000, .i32⟩
  | 19 => ⟨S_, .i32⟩
  | 20 => ⟨S200000, .i32⟩
  | 21 => ⟨S200000, .i1⟩
  | 22 => ⟨S200000, .i1⟩
  | 23 => ⟨S_, .i32⟩
  | 24 => ⟨S200000, .i32⟩
  | 25 => ⟨S200000, .i32⟩
  | 26 => ⟨S200000, .i32⟩
  | 27 => ⟨S1600, .f32⟩
  | 28 => ⟨S_, .i32⟩
  | 29 => ⟨S200000, .i32⟩
  | 30 => ⟨S200000, .i1⟩
  | 31 => ⟨S_, .i32⟩
  | 32 => ⟨S200000, .i32⟩
  | 33 => ⟨S200000, .i32⟩
  | 34 => ⟨S200000, .i32⟩
  | 35 => ⟨S200000x1, .i32⟩
  | 36 => ⟨S200000, .f32⟩
  | 37 => ⟨S16384, .f32⟩
  | 38 => ⟨S_, .i32⟩
  | 39 => ⟨S200000, .i32⟩
  | 40 => ⟨S200000, .i1⟩
  | 41 => ⟨S_, .i32⟩
  | 42 => ⟨S200000, .i32⟩
  | 43 => ⟨S200000, .i32⟩
  | 44 => ⟨S200000, .i32⟩
  | 45 => ⟨S200000x1, .i32⟩
  | 46 => ⟨S200000, .f32⟩
  | 47 => ⟨S200000, .f32⟩
  | 48 => ⟨S_, .i32⟩
  | 49 => ⟨S200000, .i32⟩
  | 50 => ⟨S200000, .i32⟩
  | 51 => ⟨S200000, .i32⟩
  | 52 => ⟨S_, .f32⟩
  | 53 => ⟨S1600, .f32⟩
  | 54 => ⟨S200000x1, .i32⟩
  | 55 => ⟨S1600, .f32⟩
  | 56 => ⟨S32x50, .f32⟩
  | 57 => ⟨S32x128, .f32⟩
  | 58 => ⟨S_, .f32⟩
  | 59 => ⟨S32x128, .f32⟩
  | 60 => ⟨S32x128, .f32⟩
  | 61 => ⟨S32x128, .f32⟩
  | 62 => ⟨S1x128, .f32⟩
  | 63 => ⟨S32x128, .f32⟩
  | 64 => ⟨S32x128, .f32⟩
  | 65 => ⟨S32x128, .f32⟩
  | 66 => ⟨S32x1, .f32⟩
  | 67 => ⟨S1x1, .f32⟩
  | 68 => ⟨S32x1, .f32⟩
  | 69 => ⟨S32x1, .f32⟩
  | 70 => ⟨S32, .f32⟩
  | 71 => ⟨S_, .f32⟩
  | 72 => ⟨S32, .f32⟩
  | 73 => ⟨S32, .f32⟩
  | 74 => ⟨S32, .f32⟩
  | 75 => ⟨S32, .f32⟩
  | 76 => ⟨S32, .f32⟩
  | 77 => ⟨S32, .f32⟩
  | 78 => ⟨S32, .f32⟩
  | 79 => ⟨S32, .f32⟩
  | 80 => ⟨S32, .f32⟩
  | 81 => ⟨S_, .f32⟩
  | 82 => ⟨S_, .f32⟩
  | 83 => ⟨S_, .f32⟩
  | 84 => ⟨S_, .f32⟩
  | 85 => ⟨S32x1, .f32⟩
  | 86 => ⟨S32x1, .f32⟩
  | 87 => ⟨S_, .f32⟩
  | 88 => ⟨S32x1, .f32⟩
  | 89 => ⟨S32x1, .f32⟩
  | 90 => ⟨S_, .f32⟩
  | 91 => ⟨S32x1, .f32⟩
  | 92 => ⟨S32x1, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | .local _ .vmem, ⟨0, _⟩ => ⟨S32x15104, .bf16⟩
  | .local _ .vmem, ⟨1, _⟩ => ⟨S15104x128, .bf16⟩
  | .local _ .vmem, ⟨2, _⟩ => ⟨S32x128, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v4 : Ref sig .tc := ⟨.hbm, 24, rfl⟩
abbrev main_cst_2 : Ref sig .tc := ⟨.hbm, 25, rfl⟩
abbrev main_v5 : Ref sig .tc := ⟨.hbm, 26, rfl⟩
abbrev main_cst_3 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst_4 : Ref sig .tc := ⟨.hbm, 31, rfl⟩
abbrev main_call1_v0 : Ref sig .tc := ⟨.hbm, 32, rfl⟩
abbrev main_call1_v1 : Ref sig .tc := ⟨.hbm, 33, rfl⟩
abbrev main_v9 : Ref sig .tc := ⟨.hbm, 34, rfl⟩
abbrev main_cst_5 : Ref sig .tc := ⟨.hbm, 35, rfl⟩
abbrev main_v10 : Ref sig .tc := ⟨.hbm, 36, rfl⟩
abbrev main_cst_6 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_7 : Ref sig .tc := ⟨.hbm, 41, rfl⟩
abbrev main_call2_v0 : Ref sig .tc := ⟨.hbm, 42, rfl⟩
abbrev main_call2_v1 : Ref sig .tc := ⟨.hbm, 43, rfl⟩
abbrev main_v14 : Ref sig .tc := ⟨.hbm, 44, rfl⟩
abbrev main_cst_8 : Ref sig .tc := ⟨.hbm, 45, rfl⟩
abbrev main_v15 : Ref sig .tc := ⟨.hbm, 46, rfl⟩
abbrev main_cst_9 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_cst_10 : Ref sig .tc := ⟨.hbm, 51, rfl⟩
abbrev main_call3_v0 : Ref sig .tc := ⟨.hbm, 52, rfl⟩
abbrev main_call3_v1 : Ref sig .tc := ⟨.hbm, 53, rfl⟩
abbrev main_v19 : Ref sig .tc := ⟨.hbm, 54, rfl⟩
abbrev main_c : Ref sig .tc := ⟨.hbm, 55, rfl⟩
abbrev main_v20 : Ref sig .tc := ⟨.hbm, 56, rfl⟩
abbrev main_v21 : Ref sig .tc := ⟨.hbm, 57, rfl⟩
abbrev main_c_11 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_c_12 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_call4_v3 : Ref sig .tc := ⟨.hbm, 68, rfl⟩
abbrev main_call4_v4 : Ref sig .tc := ⟨.hbm, 69, rfl⟩
abbrev main_call4_v5 : Ref sig .tc := ⟨.hbm, 70, rfl⟩
abbrev main_call4_v6 : Ref sig .tc := ⟨.hbm, 71, rfl⟩
abbrev main_call4_v7 : Ref sig .tc := ⟨.hbm, 72, rfl⟩
abbrev main_call4_v8 : Ref sig .tc := ⟨.hbm, 73, rfl⟩
abbrev main_call4_c : Ref sig .tc := ⟨.hbm, 74, rfl⟩
abbrev main_call4_v9 : Ref sig .tc := ⟨.hbm, 75, rfl⟩
abbrev main_call4_v10 : Ref sig .tc := ⟨.hbm, 76, rfl⟩
abbrev main_call4_v11 : Ref sig .tc := ⟨.hbm, 77, rfl⟩
abbrev main_call4_c_0 : Ref sig .tc := ⟨.hbm, 78, rfl⟩
abbrev main_call4_v12 : Ref sig .tc := ⟨.hbm, 79, rfl⟩
abbrev main_call4_v13 : Ref sig .tc := ⟨.hbm, 80, rfl⟩
abbrev main_v27 : Ref sig .tc := ⟨.hbm, 81, rfl⟩
abbrev main_v28 : Ref sig .tc := ⟨.hbm, 82, rfl⟩
abbrev main_c_13 : Ref sig .tc := ⟨.hbm, 83, rfl⟩
abbrev main_v29 : Ref sig .tc := ⟨.hbm, 84, rfl⟩
abbrev main_v30 : Ref sig .tc := ⟨.hbm, 85, rfl⟩
abbrev main_c_14 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_c_15 : Ref sig .tc := ⟨.hbm, 93, rfl⟩
abbrev main_v37 : Ref sig .tc := ⟨.hbm, 94, rfl⟩
abbrev main_v38 : Ref sig .tc := ⟨.hbm, 95, rfl⟩
abbrev main_c_16 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_c_17 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_cst_18 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_c_19 : Ref sig .tc := ⟨.hbm, 112, rfl⟩
abbrev main_call5_v0 : Ref sig .tc := ⟨.hbm, 113, rfl⟩
abbrev main_v52 : Ref sig .tc := ⟨.hbm, 114, rfl⟩
abbrev main_v53 : Ref sig .tc := ⟨.hbm, 115, rfl⟩
abbrev main_c_20 : Ref sig .tc := ⟨.hbm, 116, rfl⟩
abbrev main_call6_v0 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_cst_21 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_c_22 : Ref sig .tc := ⟨.hbm, 128, rfl⟩
abbrev main_v63 : Ref sig .tc := ⟨.hbm, 129, rfl⟩
abbrev main_v64 : Ref sig .tc := ⟨.hbm, 130, rfl⟩
abbrev main_c_23 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_c_24 : Ref sig .tc := ⟨.hbm, 137, rfl⟩
abbrev main_call7_v0 : Ref sig .tc := ⟨.hbm, 138, rfl⟩
abbrev main_call7_v1 : Ref sig .tc := ⟨.hbm, 139, rfl⟩
abbrev main_call7_v2 : Ref sig .tc := ⟨.hbm, 140, rfl⟩
abbrev main_call7_v3 : Ref sig .tc := ⟨.hbm, 141, rfl⟩
abbrev main_call7_v4 : Ref sig .tc := ⟨.hbm, 142, rfl⟩
abbrev main_call7_v5 : Ref sig .tc := ⟨.hbm, 143, rfl⟩
abbrev main_call7_v6 : Ref sig .tc := ⟨.hbm, 144, rfl⟩
abbrev main_call7_v7 : Ref sig .tc := ⟨.hbm, 145, rfl⟩
abbrev main_call7_v8 : Ref sig .tc := ⟨.hbm, 146, rfl⟩
abbrev main_call7_c : Ref sig .tc := ⟨.hbm, 147, rfl⟩
abbrev main_call7_v9 : Ref sig .tc := ⟨.hbm, 148, rfl⟩
abbrev main_call7_v10 : Ref sig .tc := ⟨.hbm, 149, rfl⟩
abbrev main_call7_v11 : Ref sig .tc := ⟨.hbm, 150, rfl⟩
abbrev main_call7_c_0 : Ref sig .tc := ⟨.hbm, 151, rfl⟩
abbrev main_call7_v12 : Ref sig .tc := ⟨.hbm, 152, rfl⟩
abbrev main_call7_v13 : Ref sig .tc := ⟨.hbm, 153, rfl⟩
abbrev main_v70 : Ref sig .tc := ⟨.hbm, 154, rfl⟩
abbrev main_v71 : Ref sig .tc := ⟨.hbm, 155, rfl⟩
abbrev main_c_25 : Ref sig .tc := ⟨.hbm, 156, rfl⟩
abbrev main_v72 : Ref sig .tc := ⟨.hbm, 157, rfl⟩
abbrev main_v73 : Ref sig .tc := ⟨.hbm, 158, rfl⟩
abbrev main_c_26 : Ref sig .tc := ⟨.hbm, 159, rfl⟩
abbrev main_v74 : Ref sig .tc := ⟨.hbm, 160, rfl⟩
abbrev main_v75 : Ref sig .tc := ⟨.hbm, 161, rfl⟩
abbrev main_v76 : Ref sig .tc := ⟨.hbm, 162, rfl⟩
abbrev main_v77 : Ref sig .tc := ⟨.hbm, 163, rfl⟩
abbrev main_v78 : Ref sig .tc := ⟨.hbm, 164, rfl⟩
abbrev main_v79 : Ref sig .tc := ⟨.hbm, 165, rfl⟩
abbrev main_c_27 : Ref sig .tc := ⟨.hbm, 166, rfl⟩
abbrev main_v80 : Ref sig .tc := ⟨.hbm, 167, rfl⟩
abbrev main_v81 : Ref sig .tc := ⟨.hbm, 168, rfl⟩
abbrev main_c_28 : Ref sig .tc := ⟨.hbm, 169, rfl⟩
abbrev main_v82 : Ref sig .tc := ⟨.hbm, 170, rfl⟩
abbrev main_v83 : Ref sig .tc := ⟨.hbm, 171, rfl⟩
abbrev main_v84 : Ref sig .tc := ⟨.hbm, 172, rfl⟩
abbrev main_v85 : Ref sig .tc := ⟨.hbm, 173, rfl⟩
abbrev main_v86 : Ref sig .tc := ⟨.hbm, 174, rfl⟩
abbrev main_v87 : Ref sig .tc := ⟨.hbm, 175, rfl⟩
abbrev main_c_29 : Ref sig .tc := ⟨.hbm, 176, rfl⟩
abbrev main_v88 : Ref sig .tc := ⟨.hbm, 177, rfl⟩
abbrev main_v89 : Ref sig .tc := ⟨.hbm, 178, rfl⟩
abbrev main_v90 : Ref sig .tc := ⟨.hbm, 179, rfl⟩
abbrev main_cst_30 : Ref sig .tc := ⟨.hbm, 180, rfl⟩
abbrev main_v91 : Ref sig .tc := ⟨.hbm, 181, rfl⟩
abbrev main_v92 : Ref sig .tc := ⟨.hbm, 182, rfl⟩
abbrev main_v93 : Ref sig .tc := ⟨.hbm, 183, rfl⟩
abbrev main_v94 : Ref sig .tc := ⟨.hbm, 184, rfl⟩
abbrev main_v95 : Ref sig .tc := ⟨.hbm, 185, rfl⟩
abbrev main_cst_31 : Ref sig .tc := ⟨.hbm, 186, rfl⟩
abbrev main_v96 : Ref sig .tc := ⟨.hbm, 187, rfl⟩
abbrev main_v97 : Ref sig .tc := ⟨.hbm, 188, rfl⟩
abbrev main_v98 : Ref sig .tc := ⟨.hbm, 189, rfl⟩
abbrev main_v99 : Ref sig .tc := ⟨.hbm, 190, rfl⟩
abbrev main_v100 : Ref sig .tc := ⟨.hbm, 191, rfl⟩
abbrev main_v101 : Ref sig .tc := ⟨.hbm, 192, rfl⟩
abbrev main_v102 : Ref sig .tc := ⟨.hbm, 193, rfl⟩
abbrev main_v103 : Ref sig .tc := ⟨.hbm, 194, rfl⟩
abbrev main_v104 : Ref sig .tc := ⟨.hbm, 195, rfl⟩
abbrev main_v105 : Ref sig .tc := ⟨.hbm, 196, rfl⟩
abbrev main_v106 : Ref sig .tc := ⟨.hbm, 197, rfl⟩
abbrev main_v107 : Ref sig .tc := ⟨.hbm, 198, rfl⟩
abbrev main_cst_32 : Ref sig .tc := ⟨.hbm, 199, rfl⟩
abbrev main_v108 : Ref sig .tc := ⟨.hbm, 200, rfl⟩
abbrev main_v109 : Ref sig .tc := ⟨.hbm, 201, rfl⟩
abbrev main_v110 : Ref sig .tc := ⟨.hbm, 202, rfl⟩
abbrev main_v111 : Ref sig .tc := ⟨.hbm, 203, rfl⟩
abbrev main_v112 : Ref sig .tc := ⟨.hbm, 204, rfl⟩
abbrev main_v113 : Ref sig .tc := ⟨.hbm, 205, rfl⟩
abbrev main_v114 : Ref sig .tc := ⟨.hbm, 206, rfl⟩
abbrev main_v115 : Ref sig .tc := ⟨.hbm, 207, rfl⟩
abbrev main_v116 : Ref sig .tc := ⟨.hbm, 208, rfl⟩
abbrev main_cst_33 : Ref sig .tc := ⟨.hbm, 209, rfl⟩
abbrev main_v117 : Ref sig .tc := ⟨.hbm, 210, rfl⟩
abbrev main_cst_34 : Ref sig .tc := ⟨.hbm, 211, rfl⟩
abbrev main_v118 : Ref sig .tc := ⟨.hbm, 212, rfl⟩
abbrev main_v119 : Ref sig .tc := ⟨.hbm, 213, rfl⟩
abbrev main_v120 : Ref sig .tc := ⟨.hbm, 214, rfl⟩
abbrev main_cst_35 : Ref sig .tc := ⟨.hbm, 215, rfl⟩
abbrev main_v121 : Ref sig .tc := ⟨.hbm, 216, rfl⟩
abbrev main_v122 : Ref sig .tc := ⟨.hbm, 217, rfl⟩
abbrev main_cst_36 : Ref sig .tc := ⟨.hbm, 218, rfl⟩
abbrev main_v123 : Ref sig .tc := ⟨.hbm, 219, rfl⟩
abbrev main_v124 : Ref sig .tc := ⟨.hbm, 220, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x15104 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S15104x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S_S16384 : S_.BroadcastsInDim S16384 (![] : Fin 0 → Fin S16384.rank)
  bcast_S_S200000 : S_.BroadcastsInDim S200000 (![] : Fin 0 → Fin S200000.rank)
  bcast_S_S1600 : S_.BroadcastsInDim S1600 (![] : Fin 0 → Fin S1600.rank)
  bcast_S200000_S200000x1_0 : S200000.BroadcastsInDim S200000x1 (![0] : Fin 1 → Fin S200000x1.rank)
  bcast_S_S480000 : S_.BroadcastsInDim S480000 (![] : Fin 0 → Fin S480000.rank)
  shapeCasts_S480000_S32x15000 : S480000.ShapeCasts S32x15000
  pads_S32x15000_S32x15104_000_01040 : S32x15000.Pads (![0, 0] : Fin 2 → Nat) ![0, 104] ![0, 0] S32x15104
  h_S_ : 0 < S_.numel
  bitsLt_bf16_f32 : FTy.bits .bf16 < FTy.bits .f32
  pads_S15000x128_S15104x128_01040_000 : S15000x128.Pads (![0, 0] : Fin 2 → Nat) ![104, 0] ![0, 0] S15104x128
  inb_S32x15104_S32x15104_0_0 : ∀ a, (![0, 0] : Fin 2 → Nat) a + S32x15104.size a ≤ S32x15104.size a
  h_S32x15104 : 0 < S32x15104.numel
  shapeCasts_S32x15104_S32x15104 : S32x15104.ShapeCasts S32x15104
  inb_S15104x128_S15104x128_0_0 : ∀ a, (![0, 0] : Fin 2 → Nat) a + S15104x128.size a ≤ S15104x128.size a
  h_S15104x128 : 0 < S15104x128.numel
  shapeCasts_S15104x128_S15104x128 : S15104x128.ShapeCasts S15104x128
  inb_S32x128_S32x128_0_0 : ∀ a, (![0, 0] : Fin 2 → Nat) a + S32x128.size a ≤ S32x128.size a
  h_S32x128 : 0 < S32x128.numel
  bcast_S_S32x128 : S_.BroadcastsInDim S32x128 (![] : Fin 0 → Fin S32x128.rank)
  bcast_S128_S1x128_1 : S128.BroadcastsInDim S1x128 (![1] : Fin 1 → Fin S1x128.rank)
  bcast_S1x128_S32x128_0_1 : S1x128.BroadcastsInDim S32x128 (![0, 1] : Fin 2 → Fin S32x128.rank)
  shapeCasts_S1600_S32x50 : S1600.ShapeCasts S32x50
  bcast_S1_S1x1_1 : S1.BroadcastsInDim S1x1 (![1] : Fin 1 → Fin S1x1.rank)
  bcast_S1x1_S32x1_0_1 : S1x1.BroadcastsInDim S32x1 (![0, 1] : Fin 2 → Fin S32x1.rank)
  shapeCasts_S32x1_S32 : S32x1.ShapeCasts S32
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  scatter_S100000_S1000000x1_S1000000_n_0_0_1_wf : ScatterDims.WF S100000 S1000000x1 S1000000 [] [0] [0] 1
  scatter_S16384_S1000000x1_S1000000_n_0_0_1_wf : ScatterDims.WF S16384 S1000000x1 S1000000 [] [0] [0] 1
  scatter_S1600_S200000x1_S200000_n_0_0_1_wf : ScatterDims.WF S1600 S200000x1 S200000 [] [0] [0] 1
  scatter_S16384_S200000x1_S200000_n_0_0_1_wf : ScatterDims.WF S16384 S200000x1 S200000 [] [0] [0] 1
  gather_S100000_S1000000x1_S1000000_n_0_n_n_0_1_1_wf : GatherDims.WF S100000 S1000000x1 S1000000 [] [0] [] [0] [] 1 ![1]
  gather_S16384_S1000000x1_S1000000_n_0_n_n_0_1_1_wf : GatherDims.WF S16384 S1000000x1 S1000000 [] [0] [] [0] [] 1 ![1]
  scatter_S480000_S1000000x1_S1000000_n_0_0_1_wf : ScatterDims.WF S480000 S1000000x1 S1000000 [] [0] [0] 1
  dot_S32x15104_S15104x128_S32x128_1_0_0_1_n_n_wf : DotDims.WF S32x15104 S15104x128 S32x128 [1] [0] [0] [1] [] []
  dot_S32x128_S128x128_S32x128_1_0_0_1_n_n_wf : DotDims.WF S32x128 S128x128 S32x128 [1] [0] [0] [1] [] []
  gather_S1600_S200000x1_S200000_n_0_n_n_0_1_1_wf : GatherDims.WF S1600 S200000x1 S200000 [] [0] [] [0] [] 1 ![1]
  gather_S16384_S200000x1_S200000_n_0_n_n_0_1_1_wf : GatherDims.WF S16384 S200000x1 S200000 [] [0] [] [0] [] 1 ![1]
  dot_S32x50_S50x128_S32x128_1_0_0_1_n_n_wf : DotDims.WF S32x50 S50x128 S32x128 [1] [0] [0] [1] [] []
  dot_S32x128_S128x1_S32x1_1_0_0_1_n_n_wf : DotDims.WF S32x128 S128x1 S32x1 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x15104.size a ≤ S32x15104.size a
  hwx0_0 : ∀ i : grid0.Coords, EltTy.bits .bf16 = 32 ∨ (Rect.block (s := S32x15104) S32x15104.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S15104x128.size a ≤ S15104x128.size a
  hwx0_1 : ∀ i : grid0.Coords, EltTy.bits .bf16 = 32 ∨ (Rect.block (s := S15104x128) S15104x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .f32 = 32 ∨ (Rect.block (s := S32x128) S32x128.size (cc0_transform_2 i) (hinb0_2 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def scatter_S16384_S1000000x1_S1000000_n_0_0_1 : ScatterDims S16384 S1000000x1 S1000000 where
  updateWindowDims := []
  insertedWindowDims := [0]
  scatterDimsToOperandDims := [0]
  indexVectorDim := 1
  wf := scatter_S16384_S1000000x1_S1000000_n_0_0_1_wf
def scatter_S1600_S200000x1_S200000_n_0_0_1 : ScatterDims S1600 S200000x1 S200000 where
  updateWindowDims := []
  insertedWindowDims := [0]
  scatterDimsToOperandDims := [0]
  indexVectorDim := 1
  wf := scatter_S1600_S200000x1_S200000_n_0_0_1_wf
def scatter_S16384_S200000x1_S200000_n_0_0_1 : ScatterDims S16384 S200000x1 S200000 where
  updateWindowDims := []
  insertedWindowDims := [0]
  scatterDimsToOperandDims := [0]
  indexVectorDim := 1
  wf := scatter_S16384_S200000x1_S200000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S16384_S1000000x1_S1000000_n_0_n_n_0_1_1 : GatherDims S16384 S1000000x1 S1000000 where
  offsetDims := []
  collapsedSliceDims := [0]
  operandBatchingDims := []
  startIndicesBatchingDims := []
  startIndexMap := [0]
  indexVectorDim := 1
  sliceSizes := ![1]
  wf := gather_S16384_S1000000x1_S1000000_n_0_n_n_0_1_1_wf
def scatter_S480000_S1000000x1_S1000000_n_0_0_1 : ScatterDims S480000 S1000000x1 S1000000 where
  updateWindowDims := []
  insertedWindowDims := [0]
  scatterDimsToOperandDims := [0]
  indexVectorDim := 1
  wf := scatter_S480000_S1000000x1_S1000000_n_0_0_1_wf
def dot_S32x15104_S15104x128_S32x128_1_0_0_1_n_n : DotDims S32x15104 S15104x128 S32x128 where
  lhsContracting := [1]
  rhsContracting := [0]
  lhsNonContracting := [0]
  rhsNonContracting := [1]
  lhsBatch := []
  rhsBatch := []
  wf := dot_S32x15104_S15104x128_S32x128_1_0_0_1_n_n_wf
def dot_S32x128_S128x128_S32x128_1_0_0_1_n_n : DotDims S32x128 S128x128 S32x128 where
  lhsContracting := [1]
  rhsContracting := [0]
  lhsNonContracting := [0]
  rhsNonContracting := [1]
  lhsBatch := []
  rhsBatch := []
  wf := dot_S32x128_S128x128_S32x128_1_0_0_1_n_n_wf
def gather_S1600_S200000x1_S200000_n_0_n_n_0_1_1 : GatherDims S1600 S200000x1 S200000 where
  offsetDims := []
  collapsedSliceDims := [0]
  operandBatchingDims := []
  startIndicesBatchingDims := []
  startIndexMap := [0]
  indexVectorDim := 1
  sliceSizes := ![1]
  wf := gather_S1600_S200000x1_S200000_n_0_n_n_0_1_1_wf
def gather_S16384_S200000x1_S200000_n_0_n_n_0_1_1 : GatherDims S16384 S200000x1 S200000 where
  offsetDims := []
  collapsedSliceDims := [0]
  operandBatchingDims := []
  startIndicesBatchingDims := []
  startIndexMap := [0]
  indexVectorDim := 1
  sliceSizes := ![1]
  wf := gather_S16384_S200000x1_S200000_n_0_n_n_0_1_1_wf
def dot_S32x50_S50x128_S32x128_1_0_0_1_n_n : DotDims S32x50 S50x128 S32x128 where
  lhsContracting := [1]
  rhsContracting := [0]
  lhsNonContracting := [0]
  rhsNonContracting := [1]
  lhsBatch := []
  rhsBatch := []
  wf := dot_S32x50_S50x128_S32x128_1_0_0_1_n_n_wf
def dot_S32x128_S128x1_S32x1_1_0_0_1_n_n : DotDims S32x128 S128x1 S32x1 where
  lhsContracting := [1]
  rhsContracting := [0]
  lhsNonContracting := [0]
  rhsNonContracting := [1]
  lhsBatch := []
  rhsBatch := []
  wf := dot_S32x128_S128x1_S32x1_1_0_0_1_n_n_wf

abbrev win0_0 : Pipeline.Window sig grid0 :=
  Pipeline.Window.ofSpec (Memref.whole main_v53) S32x15104.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v55) S15104x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v56) S32x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000 : Shape := ⟨1, ![100000]⟩
abbrev S1600 : Shape := ⟨1, ![1600]⟩
abbrev S1000000 : Shape := ⟨1, ![1000000]⟩
abbrev S200000 : Shape := ⟨1, ![200000]⟩
abbrev S32 : Shape := ⟨1, ![32]⟩
abbrev S15000x128 : Shape := ⟨2, ![15000, 128]⟩
abbrev S50x128 : Shape := ⟨2, ![50, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S100000x1 : Shape := ⟨2, ![100000, 1]⟩
abbrev S100000x128 : Shape := ⟨2, ![100000, 128]⟩
abbrev S1600x1 : Shape := ⟨2, ![1600, 1]⟩
abbrev S1600x128 : Shape := ⟨2, ![1600, 128]⟩
abbrev S1000000x1 : Shape := ⟨2, ![1000000, 1]⟩
abbrev S16384 : Shape := ⟨1, ![16384]⟩
abbrev S1000000x128 : Shape := ⟨2, ![1000000, 128]⟩
abbrev S16384x128 : Shape := ⟨2, ![16384, 128]⟩
abbrev S16384x1 : Shape := ⟨2, ![16384, 1]⟩
abbrev S1x128 : Shape := ⟨2, ![1, 128]⟩
abbrev S200000x1 : Shape := ⟨2, ![200000, 1]⟩
abbrev S200000x128 : Shape := ⟨2, ![200000, 128]⟩
abbrev S32x512x128 : Shape := ⟨3, ![32, 512, 128]⟩
abbrev S32x128 : Shape := ⟨2, ![32, 128]⟩
abbrev S32x1 : Shape := ⟨2, ![32, 1]⟩
abbrev S1x1 : Shape := ⟨2, ![1, 1]⟩

abbrev nBuf : Space → Nat
  | .hbm => 153
  | .vmem => 0
  | .smem => 0
  | _ => 0

abbrev hbmTy0_0 (i : Nat) : BufTy := match i % 128 with
  | 0 => ⟨S100000, .i32⟩
  | 1 => ⟨S1600, .i32⟩
  | 2 => ⟨S1000000, .i32⟩
  | 3 => ⟨S1000000, .i32⟩
  | 4 => ⟨S200000, .i32⟩
  | 5 => ⟨S200000, .i32⟩
  | 6 => ⟨S32, .f32⟩
  | 7 => ⟨S15000x128, .f32⟩
  | 8 => ⟨S50x128, .f32⟩
  | 9 => ⟨S128x128, .f32⟩
  | 10 => ⟨S128, .f32⟩
  | 11 => ⟨S128x128, .f32⟩
  | 12 => ⟨S128, .f32⟩
  | 13 => ⟨S128x1, .f32⟩
  | 14 => ⟨S1, .f32⟩
  | 15 => ⟨S_, .i32⟩
  | 16 => ⟨S100000, .i32⟩
  | 17 => ⟨S100000, .i1⟩
  | 18 => ⟨S_, .i32⟩
  | 19 => ⟨S100000, .i32⟩
  | 20 => ⟨S100000, .i32⟩
  | 21 => ⟨S100000, .i32⟩
  | 22 => ⟨S100000x1, .i32⟩
  | 23 => ⟨S100000x128, .f32⟩
  | 24 => ⟨S_, .i32⟩
  | 25 => ⟨S1600, .i32⟩
  | 26 => ⟨S1600, .i1⟩
  | 27 => ⟨S_, .i32⟩
  | 28 => ⟨S1600, .i32⟩
  | 29 => ⟨S1600, .i32⟩
  | 30 => ⟨S1600, .i32⟩
  | 31 => ⟨S1600x1, .i32⟩
  | 32 => ⟨S1600x128, .f32⟩
  | 33 => ⟨S_, .f32⟩
  | 34 => ⟨S1000000, .f32⟩
  | 35 => ⟨S_, .f32⟩
  | 36 => ⟨S100000, .f32⟩
  | 37 => ⟨S1000000x1, .i32⟩
  | 38 => ⟨S100000, .f32⟩
  | 39 => ⟨S_, .f32⟩
  | 40 => ⟨S_, .f32⟩
  | 41 => ⟨S100000, .f32⟩
  | 42 => ⟨S100000, .f32⟩
  | 43 => ⟨S_, .f32⟩
  | 44 => ⟨S16384, .f32⟩
  | 45 => ⟨S1000000x1, .i32⟩
  | 46 => ⟨S16384, .f32⟩
  | 47 => ⟨S_, .f32⟩
  | 48 => ⟨S_, .f32⟩
  | 49 => ⟨S16384, .f32⟩
  | 50 => ⟨S16384, .f32⟩
  | 51 => ⟨S100000, .f32⟩
  | 52 => ⟨S100000x1, .f32⟩
  | 53 => ⟨S100000x128, .f32⟩
  | 54 => ⟨S100000x128, .f32⟩
  | 55 => ⟨S_, .i32⟩
  | 56 => ⟨S1000000, .i32⟩
  | 57 => ⟨S1000000, .i1⟩
  | 58 => ⟨S_, .i32⟩
  | 59 => ⟨S1000000, .i32⟩
  | 60 => ⟨S1000000, .i32⟩
  | 61 => ⟨S1000000, .i32⟩
  | 62 => ⟨S1000000x1, .i32⟩
  | 63 => ⟨S1000000x128, .f32⟩
  | 64 => ⟨S_, .f32⟩
  | 65 => ⟨S16384x128, .f32⟩
  | 66 => ⟨S1000000x1, .i32⟩
  | 67 => ⟨S16384x128, .f32⟩
  | 68 => ⟨S16384x128, .f32⟩
  | 69 => ⟨S16384, .f32⟩
  | 70 => ⟨S16384x1, .f32⟩
  | 71 => ⟨S16384x128, .f32⟩
  | 72 => ⟨S16384x128, .f32⟩
  | 73 => ⟨S1x128, .f32⟩
  | 74 => ⟨S16384x128, .f32⟩
  | 75 => ⟨S16384x128, .f32⟩
  | 76 => ⟨S_, .f32⟩
  | 77 => ⟨S200000, .f32⟩
  | 78 => ⟨S_, .f32⟩
  | 79 => ⟨S1600, .f32⟩
  | 80 => ⟨S200000x1, .i32⟩
  | 81 => ⟨S1600, .f32⟩
  | 82 => ⟨S_, .f32⟩
  | 83 => ⟨S_, .f32⟩
  | 84 => ⟨S1600, .f32⟩
  | 85 => ⟨S1600, .f32⟩
  | 86 => ⟨S_, .f32⟩
  | 87 => ⟨S16384, .f32⟩
  | 88 => ⟨S200000x1, .i32⟩
  | 89 => ⟨S16384, .f32⟩
  | 90 => ⟨S_, .f32⟩
  | 91 => ⟨S_, .f32⟩
  | 92 => ⟨S16384, .f32⟩
  | 93 => ⟨S16384, .f32⟩
  | 94 => ⟨S1600, .f32⟩
  | 95 => ⟨S1600x1, .f32⟩
  | 96 => ⟨S1600x128, .f32⟩
  | 97 => ⟨S1600x128, .f32⟩
  | 98 => ⟨S_, .i32⟩
  | 99 => ⟨S200000, .i32⟩
  | 100 => ⟨S200000, .i1⟩
  | 101 => ⟨S_, .i32⟩
  | 102 => ⟨S200000, .i32⟩
  | 103 => ⟨S200000, .i32⟩
  | 104 => ⟨S200000, .i32⟩
  | 105 => ⟨S200000x1, .i32⟩
  | 106 => ⟨S200000x128, .f32⟩
  | 107 => ⟨S_, .f32⟩
  | 108 => ⟨S16384x128, .f32⟩
  | 109 => ⟨S200000x1, .i32⟩
  | 110 => ⟨S16384x128, .f32⟩
  | 111 => ⟨S16384x128, .f32⟩
  | 112 => ⟨S16384, .f32⟩
  | 113 => ⟨S16384x1, .f32⟩
  | 114 => ⟨S16384x128, .f32⟩
  | 115 => ⟨S16384x128, .f32⟩
  | 116 => ⟨S1x128, .f32⟩
  | 117 => ⟨S16384x128, .f32⟩
  | 118 => ⟨S16384x128, .f32⟩
  | 119 => ⟨S16384x128, .f32⟩
  | 120 => ⟨S32x512x128, .f32⟩
  | 121 => ⟨S_, .f32⟩
  | 122 => ⟨S32x128, .f32⟩
  | 123 => ⟨S_, .f32⟩
  | 124 => ⟨S32x128, .f32⟩
  | 125 => ⟨S32x128, .f32⟩
  | 126 => ⟨S32x1, .f32⟩
  | 127 => ⟨S1x1, .f32⟩
  | _ => ⟨S100000, .i32⟩

abbrev hbmTy0_1 (i : Nat) : BufTy := match i % 128 with
  | 0 => ⟨S32x1, .f32⟩
  | 1 => ⟨S32x1, .f32⟩
  | 2 => ⟨S32, .f32⟩
  | 3 => ⟨S_, .f32⟩
  | 4 => ⟨S32, .f32⟩
  | 5 => ⟨S32, .f32⟩
  | 6 => ⟨S32, .f32⟩
  | 7 => ⟨S32, .f32⟩
  | 8 => ⟨S32, .f32⟩
  | 9 => ⟨S32, .f32⟩
  | 10 => ⟨S32, .f32⟩
  | 11 => ⟨S32, .f32⟩
  | 12 => ⟨S32, .f32⟩
  | 13 => ⟨S_, .f32⟩
  | 14 => ⟨S_, .f32⟩
  | 15 => ⟨S_, .f32⟩
  | 16 => ⟨S_, .f32⟩
  | 17 => ⟨S32x1, .f32⟩
  | 18 => ⟨S32x1, .f32⟩
  | 19 => ⟨S_, .f32⟩
  | 20 => ⟨S32x1, .f32⟩
  | 21 => ⟨S32x1, .f32⟩
  | 22 => ⟨S_, .f32⟩
  | 23 => ⟨S32x1, .f32⟩
  | 24 => ⟨S32x1, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c_1 : Ref sig .tc := ⟨.hbm, 24, rfl⟩
abbrev main_v7 : Ref sig .tc := ⟨.hbm, 25, rfl⟩
abbrev main_v8 : Ref sig .tc := ⟨.hbm, 26, rfl⟩
abbrev main_c_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst : Ref sig .tc := ⟨.hbm, 33, rfl⟩
abbrev main_v14 : Ref sig .tc := ⟨.hbm, 34, rfl⟩
abbrev main_cst_3 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_4 : Ref sig .tc := ⟨.hbm, 39, rfl⟩
abbrev main_call0_v0 : Ref sig .tc := ⟨.hbm, 40, rfl⟩
abbrev main_call0_v1 : Ref sig .tc := ⟨.hbm, 41, rfl⟩
abbrev main_v18 : Ref sig .tc := ⟨.hbm, 42, rfl⟩
abbrev main_cst_5 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_6 : Ref sig .tc := ⟨.hbm, 47, rfl⟩
abbrev main_call1_v0 : Ref sig .tc := ⟨.hbm, 48, rfl⟩
abbrev main_call1_v1 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_c_7 : Ref sig .tc := ⟨.hbm, 55, rfl⟩
abbrev main_v27 : Ref sig .tc := ⟨.hbm, 56, rfl⟩
abbrev main_v28 : Ref sig .tc := ⟨.hbm, 57, rfl⟩
abbrev main_c_8 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_9 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_10 : Ref sig .tc := ⟨.hbm, 76, rfl⟩
abbrev main_v45 : Ref sig .tc := ⟨.hbm, 77, rfl⟩
abbrev main_cst_11 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v49 : Ref sig .tc := ⟨.hbm, 85, rfl⟩
abbrev main_cst_13 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_cst_14 : Ref sig .tc := ⟨.hbm, 90, rfl⟩
abbrev main_call3_v0 : Ref sig .tc := ⟨.hbm, 91, rfl⟩
abbrev main_call3_v1 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_c_15 : Ref sig .tc := ⟨.hbm, 98, rfl⟩
abbrev main_v58 : Ref sig .tc := ⟨.hbm, 99, rfl⟩
abbrev main_v59 : Ref sig .tc := ⟨.hbm, 100, rfl⟩
abbrev main_c_16 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_cst_17 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_cst_18 : Ref sig .tc := ⟨.hbm, 121, rfl⟩
abbrev main_v78 : Ref sig .tc := ⟨.hbm, 122, rfl⟩
abbrev main_cst_19 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_cst_20 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_cst_21 : Ref sig .tc := ⟨.hbm, 141, rfl⟩
abbrev main_v95 : Ref sig .tc := ⟨.hbm, 142, rfl⟩
abbrev main_cst_22 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_cst_23 : Ref sig .tc := ⟨.hbm, 147, rfl⟩
abbrev main_v99 : Ref sig .tc := ⟨.hbm, 148, rfl⟩
abbrev main_v100 : Ref sig .tc := ⟨.hbm, 149, rfl⟩
abbrev main_cst_24 : Ref sig .tc := ⟨.hbm, 150, rfl⟩
abbrev main_v101 : Ref sig .tc := ⟨.hbm, 151, rfl⟩
abbrev main_v102 : Ref sig .tc := ⟨.hbm, 152, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S1600 : S_.BroadcastsInDim S1600 (![] : Fin 0 → Fin S1600.rank)
  bcast_S1600_S1600x1_0 : S1600.BroadcastsInDim S1600x1 (![0] : Fin 1 → Fin S1600x1.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S16384 : S_.BroadcastsInDim S16384 (![] : Fin 0 → Fin S16384.rank)
  bcast_S100000x1_S100000x128_0_1 : S100000x1.BroadcastsInDim S100000x128 (![0, 1] : Fin 2 → Fin S100000x128.rank)
  bcast_S_S16384x128 : S_.BroadcastsInDim S16384x128 (![] : Fin 0 → Fin S16384x128.rank)
  bcast_S16384_S16384x1_0 : S16384.BroadcastsInDim S16384x1 (![0] : Fin 1 → Fin S16384x1.rank)
  bcast_S16384x1_S16384x128_0_1 : S16384x1.BroadcastsInDim S16384x128 (![0, 1] : Fin 2 → Fin S16384x128.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S1600x1_S1600x128_0_1 : S1600x1.BroadcastsInDim S1600x128 (![0, 1] : Fin 2 → Fin S1600x128.rank)
  shapeCasts_S16384x128_S32x512x128 : S16384x128.ShapeCasts S32x512x128
  reducesTo_S32x512x128_S32x128_d1 : S32x512x128.ReducesTo [1] S32x128
  h_S_ : 0 < S_.numel
  bcast_S_S32x128 : S_.BroadcastsInDim S32x128 (![] : Fin 0 → Fin S32x128.rank)
  bcast_S1_S1x1_1 : S1.BroadcastsInDim S1x1 (![1] : Fin 1 → Fin S1x1.rank)
  bcast_S1x1_S32x1_0_1 : S1x1.BroadcastsInDim S32x1 (![0, 1] : Fin 2 → Fin S32x1.rank)
  shapeCasts_S32x1_S32 : S32x1.ShapeCasts S32
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  gather_S15000x128_S100000x1_S100000x128_1_0_n_n_0_1_1128_wf : GatherDims.WF S15000x128 S100000x1 S100000x128 [1] [0] [] [0] [] 1 ![1, 128]
  gather_S50x128_S1600x1_S1600x128_1_0_n_n_0_1_1128_wf : GatherDims.WF S50x128 S1600x1 S1600x128 [1] [0] [] [0] [] 1 ![1, 128]
  scatter_S100000_S1000000x1_S1000000_n_0_0_1_wf : ScatterDims.WF S100000 S1000000x1 S1000000 [] [0] [0] 1
  scatter_S16384_S1000000x1_S1000000_n_0_0_1_wf : ScatterDims.WF S16384 S1000000x1 S1000000 [] [0] [0] 1
  gather_S100000x128_S1000000x1_S1000000x128_1_0_n_n_0_1_1128_wf : GatherDims.WF S100000x128 S1000000x1 S1000000x128 [1] [0] [] [0] [] 1 ![1, 128]
  scatter_S16384x128_S1000000x1_S1000000x128_1_0_0_1_wf : ScatterDims.WF S16384x128 S1000000x1 S1000000x128 [1] [0] [0] 1
  dot_S16384x128_S128x128_S16384x128_1_0_0_1_n_n_wf : DotDims.WF S16384x128 S128x128 S16384x128 [1] [0] [0] [1] [] []
  scatter_S1600_S200000x1_S200000_n_0_0_1_wf : ScatterDims.WF S1600 S200000x1 S200000 [] [0] [0] 1
  scatter_S16384_S200000x1_S200000_n_0_0_1_wf : ScatterDims.WF S16384 S200000x1 S200000 [] [0] [0] 1
  gather_S1600x128_S200000x1_S200000x128_1_0_n_n_0_1_1128_wf : GatherDims.WF S1600x128 S200000x1 S200000x128 [1] [0] [] [0] [] 1 ![1, 128]
  scatter_S16384x128_S200000x1_S200000x128_1_0_0_1_wf : ScatterDims.WF S16384x128 S200000x1 S200000x128 [1] [0] [0] 1
  dot_S32x128_S128x1_S32x1_1_0_0_1_n_n_wf : DotDims.WF S32x128 S128x1 S32x1 [1] [0] [0] [1] [] []

variable [Facts₀]

def gather_S15000x128_S100000x1_S100000x128_1_0_n_n_0_1_1128 : GatherDims S15000x128 S100000x1 S100000x128 where
  offsetDims := [1]
  collapsedSliceDims := [0]
  operandBatchingDims := []
  startIndicesBatchingDims := []
  startIndexMap := [0]
  indexVectorDim := 1
  sliceSizes := ![1, 128]
  wf := gather_S15000x128_S100000x1_S100000x128_1_0_n_n_0_1_1128_wf
def gather_S50x128_S1600x1_S1600x128_1_0_n_n_0_1_1128 : GatherDims S50x128 S1600x1 S1600x128 where
  offsetDims := [1]
  collapsedSliceDims := [0]
  operandBatchingDims := []
  startIndicesBatchingDims := []
  startIndexMap := [0]
  indexVectorDim := 1
  sliceSizes := ![1, 128]
  wf := gather_S50x128_S1600x1_S1600x128_1_0_n_n_0_1_1128_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def scatter_S16384_S1000000x1_S1000000_n_0_0_1 : ScatterDims S16384 S1000000x1 S1000000 where
  updateWindowDims := []
  insertedWindowDims := [0]
  scatterDimsToOperandDims := [0]
  indexVectorDim := 1
  wf := scatter_S16384_S1000000x1_S1000000_n_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S16384x128_S1000000x1_S1000000x128_1_0_0_1 : ScatterDims S16384x128 S1000000x1 S1000000x128 where
  updateWindowDims := [1]
  insertedWindowDims := [0]
  scatterDimsToOperandDims := [0]
  indexVectorDim := 1
  wf := scatter_S16384x128_S1000000x1_S1000000x128_1_0_0_1_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def scatter_S1600_S200000x1_S200000_n_0_0_1 : ScatterDims S1600 S200000x1 S200000 where
  updateWindowDims := []
  insertedWindowDims := [0]
  scatterDimsToOperandDims := [0]
  indexVectorDim := 1
  wf := scatter_S1600_S200000x1_S200000_n_0_0_1_wf
def scatter_S16384_S200000x1_S200000_n_0_0_1 : ScatterDims S16384 S200000x1 S200000 where
  updateWindowDims := []
  insertedWindowDims := [0]
  scatterDimsToOperandDims := [0]
  indexVectorDim := 1
  wf := scatter_S16384_S200000x1_S200000_n_0_0_1_wf
def gather_S1600x128_S200000x1_S200000x128_1_0_n_n_0_1_1128 : GatherDims S1600x128 S200000x1 S200000x128 where
  offsetDims := [1]
  collapsedSliceDims := [0]
  operandBatchingDims := []
  startIndicesBatchingDims := []
  startIndexMap := [0]
  indexVectorDim := 1
  sliceSizes := ![1, 128]
  wf := gather_S1600x128_S200000x1_S200000x128_1_0_n_n_0_1_1128_wf
def scatter_S16384x128_S200000x1_S200000x128_1_0_0_1 : ScatterDims S16384x128 S200000x1 S200000x128 where
  updateWindowDims := [1]
  insertedWindowDims := [0]
  scatterDimsToOperandDims := [0]
  indexVectorDim := 1
  wf := scatter_S16384x128_S200000x1_S200000x128_1_0_0_1_wf
def dot_S32x128_S128x1_S32x1_1_0_0_1_n_n : DotDims S32x128 S128x1 S32x1 where
  lhsContracting := [1]
  rhsContracting := [0]
  lhsNonContracting := [0]
  rhsNonContracting := [1]
  lhsBatch := []
  rhsBatch := []
  wf := dot_S32x128_S128x1_S32x1_1_0_0_1_n_n_wf

class Facts : Prop extends Facts₀ where

variable [Facts]
-- ==== Proof.KernelHost.lean ====
/-
  The host side of the program `Kernel`, at any float instance: @main is stretches of host operations, one launch of
  the matrix-product kernel on a grid of one point, and more stretches of host operations.

  The buffers reach the launch at what the earlier stretches computed (`V`); the later stretches run from the launch's
  exit. No host operation allocates, every one touches unscoped TensorCore buffers only and writes its own result
  buffer only: so none writes an array the launch stages, and none writes an argument of @main — an argument reaches the
  launch as launched (`V_arg`) and, being no window of the launch either, ends as launched (`W_arg`).
-/
import proofs.«404497_j45732811768428_3_alg».proof.Proof.Gen.Kernel.Launch
import proofs.«404497_j45732811768428_3_alg».proof.Proof.Gen.Kernel.Skeleton
import proofs.«404497_j45732811768428_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the launch -/

/-- The stretches of host operations before the launch, in order. -/
abbrev pre : List (List (HloOp τ sig (Elt F))) :=
  [hostOps0, hostOps0_1, hostOps0_2, hostOps0_3, hostOps0_4, hostOps0_5, hostOps0_6, hostOps0_7, hostOps0_8, hostOps0_9,
   hostOps0_10, hostOps0_11, hostOps0_12, hostOps0_13, hostOps0_14]
/-- The stretches after it. -/
abbrev post : List (List (HloOp τ sig (Elt F))) := [hostOps1, hostOps1_1, hostOps1_2]

/-- The buffers' contents when the launch is reached. -/
abbrev V0 (c : Dev nD) : Valuation τ sig (Elt F) := StableHlo.after (List.flatten pre) (fun b => m (c, b))
/-- The same read at a TensorCore reference. -/
abbrev V (c : Dev nD) (b : Ref sig .tc) : Buf (Elt F) ((c : Thread nD τ).loc b) := V0 m c (Proc.devRef .tc b)

/-- No host operation allocates. -/
theorem pre_fresh : (pre : List (List (HloOp τ sig (Elt F)))).Forall fun ops => ops.Forall fun op => op.fresh = ∅ := by
  simp only [List.Forall]; repeat' constructor
theorem post_fresh : ∀ ops ∈ (post : List (List (HloOp τ sig (Elt F)))), ∀ op ∈ ops, op.fresh = ∅ := by
  have h : (post : List (List (HloOp τ sig (Elt F)))).Forall fun ops => ops.Forall fun op => op.fresh = ∅ := by
    simp only [List.Forall]; repeat' constructor
  exact fun ops hops op hop => (List.forall_iff_forall_mem.mp ((List.forall_iff_forall_mem.mp h) ops hops)) op hop

theorem pre_sub : (pre : List (List (HloOp τ sig (Elt F)))).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub,
    hostOps0_7_sub, hostOps0_8_sub, hostOps0_9_sub, hostOps0_10_sub, hostOps0_11_sub, hostOps0_12_sub, hostOps0_13_sub,
    hostOps0_14_sub⟩

/-- @main reduces to the launch continued by the later stretches, at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (post.map StableHlo.seq)) :=
  Pipeline.hmain_around cfgs 0 defs₀ 𝒱₀ m main pre post pre_sub pre_fresh main_chain

/-- The later stretches touch unscoped TensorCore buffers only. -/
theorem post_sub : ∀ ops ∈ (post : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-! ## What the host operations leave alone -/

/-- The later stretches write no array of the launch (each writes its own result buffer only). -/
theorem post_keeps : ∀ ops ∈ (post : List (List (HloOp τ sig (Elt F)))), ∀ op ∈ ops,
    ∀ w, Proc.devRef .tc (Pipeline.arrRef spec0 w) ∉ op.writes := by
  have h : (List.flatten post : List (HloOp τ sig (Elt F))).Forall fun op =>
      ∀ w, Proc.devRef .tc (Pipeline.arrRef spec0 w) ∉ op.writes := by
    simp only [post, hostOps1, hostOps1_1, hostOps1_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, Finset.mem_singleton]
    repeat' apply And.intro
    all_goals intro w; fin_cases w <;> exact StableHlo.devRef_ne_of_ne (by decide)
  intro ops hops op hop
  exact (List.forall_iff_forall_mem.mp h) op (List.mem_flatten.2 ⟨ops, hops, hop⟩)

/-- The argument arrays of @main. -/
abbrev argRef : Fin 15 → Ref sig .tc :=
  ![main_arg0, main_arg1, main_arg2, main_arg3, main_arg4, main_arg5, main_arg6, main_arg7, main_arg8, main_arg9, main_arg10,
    main_arg11, main_arg12, main_arg13, main_arg14]

/-- No host operation before the launch writes an argument. -/
theorem pre_keeps_args : ∀ op ∈ (List.flatten pre : List (HloOp τ sig (Elt F))), ∀ k : Fin 15, Proc.devRef .tc (argRef k) ∉ op.writes := by
  refine List.forall_iff_forall_mem.mp ?_
  simp only [pre, hostOps0, hostOps0_1, hostOps0_2, hostOps0_3, hostOps0_4, hostOps0_5, hostOps0_6, hostOps0_7, hostOps0_8,
    hostOps0_9, hostOps0_10, hostOps0_11, hostOps0_12, hostOps0_13, hostOps0_14, List.flatten_cons, List.flatten_nil,
    List.append_nil, List.cons_append, List.nil_append, List.Forall, StableHlo.nullary_writes, StableHlo.unary_writes,
    StableHlo.binary_writes, StableHlo.ternary_writes, StableHlo.quaternary_writes, StableHlo.reshape_writes, Finset.mem_singleton]
  repeat' apply And.intro
  all_goals intro k; exact StableHlo.devRef_ne_of_ne (by revert k; decide)

/-- Nor does one after it. -/
theorem post_keeps_args : ∀ op ∈ (List.flatten post : List (HloOp τ sig (Elt F))), ∀ k : Fin 15, Proc.devRef .tc (argRef k) ∉ op.writes := by
  refine List.forall_iff_forall_mem.mp ?_
  simp only [post, hostOps1, hostOps1_1, hostOps1_2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, Finset.mem_singleton]
  repeat' apply And.intro
  all_goals intro k; exact StableHlo.devRef_ne_of_ne (by revert k; decide)

/-- An argument reaches the launch as launched. -/
theorem V_arg (c : Dev nD) (k : Fin 15) : V m c (argRef k) = m ((c : Thread nD τ).loc (argRef k)) :=
  StableHlo.after_of_forall_not_mem (b := Proc.devRef .tc (argRef k)) _ _ (fun op hop => pre_keeps_args op hop k)

/-- And ends as launched: no window of the launch is an argument. -/
theorem W_arg (dats : (p : Fin 1) → (c : Dev nD) → Dat τ (Elt F) Unit ℕ (UR sig nD τ) ℕ (cfgs p) c) (c : Dev nD) (k : Fin 15) :
    Pipeline.afterTail₀ cfgs dats 0 (V0 m) post c (argRef k) = m ((c : Thread nD τ).loc (argRef k)) := by
  unfold Pipeline.afterTail₀
  rw [StableHlo.after_of_forall_not_mem (b := Proc.devRef .tc (argRef k)) _ _ (fun op hop => post_keeps_args op hop k),
    Pipeline.withArrays_of_ne _ c (V0 m c) _ (argRef k) (by revert k; decide)]
  exact V_arg m c k

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Fr

end
-- ==== Proof.KernelRun.lean ====
/-
  The launch of the program `Kernel` and its frame, at any float instance.

  The kernel's body, on the launch's one grid point, loads its two whole input blocks, multiplies them as matrices into
  a zero accumulator and stores the product over its whole output block (it also loads the output block first, and uses
  nothing of it). So the proof data are: each input window's buffer holds its array's block, the output window's the
  product of the two blocks. With the host side's facts the launch theorem gives the run of @main: it terminates
  without fault, the launch's arrays end at what the proof data say, every other buffer at what the later host
  operations leave. The arguments of @main are among the latter and nothing writes them: the frame.
-/
import proofs.«404497_j45732811768428_3_alg».proof.Proof.KernelHost

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body -/

/-- The whole left block, the whole right block, the whole output block, as the body addresses them. -/
abbrev rA : Rect S32x15104 := Rect.unit (s := S32x15104) ![0, 0] S32x15104.size inb_S32x15104_S32x15104_0_0
abbrev rB : Rect S15104x128 := Rect.unit (s := S15104x128) ![0, 0] S15104x128.size inb_S15104x128_S15104x128_0_0
abbrev rO : Rect S32x128 := Rect.unit (s := S32x128) ![0, 0] S32x128.size inb_S32x128_S32x128_0_0

/-- What the body leaves in the output window's buffer: its one store, the product of the two loaded blocks. -/
def outBlk (a : Vec F S32x15104 .bf16) (b : Vec F S15104x128 .bf16) : Vec F S32x128 .f32 :=
  View.canon [⟨rO, k0_pay1 (View.ld a rA) (View.ld b rB)⟩]

/-- The store covers the block. -/
theorem cover_out (p0 : Vec F S32x128 .f32) (y : S32x128.Idx) :
    ∃ pc ∈ ([⟨rO, p0⟩] : List (View.Piece (Elt F) S32x128 .f32)), y ∈ pc.1.set :=
  View.cover_of_tiled [⟨rO, p0⟩] S32x128.size (by rfl) y

set_option maxHeartbeats 1000000 in
/-- The body on whole staging buffers: the inputs' at contents `xa`, `xb`, the output's at anything; it returns with the
    inputs' as they were and the output's at the product. -/
theorem sound_kernel (c : Dev nD) (E : Set ℕ) (i : grid0.Coords)
    (arg1 : Memref sig .tc .vmem S32x15104 .bf16) (harg1 : arg1.IsWhole) (arg2 : Memref sig .tc .vmem S15104x128 .bf16) (harg2 : arg2.IsWhole)
    (arg3 : Memref sig .tc .vmem S32x128 .f32) (harg3 : arg3.IsWhole)
    (xa : Vec F S32x15104 .bf16) (xb : Vec F S15104x128 .bf16) (K : PUnit → sProp 𝕄) :
    iprop(owns (c : Thread nD τ) arg1 fullShare xa ∗ owns (c : Thread nD τ) arg2 fullShare xb ∗ (∃ d, owns (c : Thread nD τ) arg3 fullShare d)
        ∗ (iprop(owns (c : Thread nD τ) arg1 fullShare xa ∗ owns (c : Thread nD τ) arg2 fullShare xb
              ∗ owns (c : Thread nD τ) arg3 fullShare (outBlk xa xb)) -∗ K ⟨⟩))
      ⊢ wp frame (wpE (defs₀ (F := F)) Variants.none c none) E (cc0__wd_matmul_kernel i arg1 harg1 arg2 harg2 arg3 harg3) K := by
  simp only [cc0__wd_matmul_kernel_eq_skeleton]; unfold cc0__wd_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The proof data -/

/-- On core `c`: the arrays as the launch finds them; after the body each input's buffer at its block, the output's at
    the product of the input blocks; the invariant the scoped rest and the generator register, untouched; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outBlk (iblk m c 0 t) (iblk m c 1 t) := by dsimp only [dats]

/-- Each input is fetched at the point, so its buffer holds its block when the body runs. -/
theorem before0_0 (c : Dev nD) (t : Fin cfg0.N) (d) : (dats m 0 c).before 0 t d = iblk m c 0 t :=
  ((dats m 0 c).before_fetched 0 t (fetch0_0 t) d).trans (by unfold Dat.fetched Dat.blockOf iblk; rw [A_eq]; try rfl)
theorem before0_1 (c : Dev nD) (t : Fin cfg0.N) (d) : (dats m 0 c).before 1 t d = iblk m c 1 t :=
  ((dats m 0 c).before_fetched 1 t (fetch0_1 t) d).trans (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at the point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without fault; the launch's arrays end at what the proof data say
    and every other unscoped buffer at what the later host operations leave. -/
theorem run_main : θ_run defs (onTc (τ := τ) (main (F := F))) (s₀ m ρ)
    (Pipeline.FramePost cfgs (dats m) 0 (Pipeline.afterTail₀ cfgs (dats m) 0 (V0 m) post)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := post) (hsub := post_sub) (hfresh := post_fresh) (hkeep := post_keeps)
    (hmain := hmain m Variants.none) (hA := A_eq m) (hΦ := fun _ _ => rfl)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    have kept : ∀ k : Fin 15, r.2.mem ((c.tc : Thread nD τ).loc (argRef k)) = m ((c.tc : Thread nD τ).loc (argRef k)) := fun k =>
      ((h c).2 (argRef k) (Pipeline.mem_restRefs_of (argRef k) (by revert k; decide) (by revert k; decide))).trans (W_arg m (dats m) c k)
    ⟨kept 0, kept 1, kept 2, kept 3, kept 4, kept 5, kept 6, kept 7, kept 8, kept 9, kept 10, kept 11, kept 12, kept 13, kept 14⟩)
    (run_main m ρ)

end Cert.Kernel.Fr

end
-- ==== Proof.KernelIdealHost.lean ====
/-
  The host side of the program `KernelIdeal`, at any float instance: @main is stretches of host operations, one launch of
  the matrix-product kernel on a grid of one point, and more stretches of host operations.

  The buffers reach the launch at what the earlier stretches computed (`V`); the later stretches run from the launch's
  exit. No host operation allocates, every one touches unscoped TensorCore buffers only and writes its own result
  buffer only: so none writes an array the launch stages, and none writes an argument of @main — an argument reaches the
  launch as launched (`V_arg`) and, being no window of the launch either, ends as launched (`W_arg`).
-/
import proofs.«404497_j45732811768428_3_alg».proof.Proof.Gen.KernelIdeal.Launch
import proofs.«404497_j45732811768428_3_alg».proof.Proof.Gen.KernelIdeal.Skeleton
import proofs.«404497_j45732811768428_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the launch -/

/-- The stretches of host operations before the launch, in order. -/
abbrev pre : List (List (HloOp τ sig (Elt F))) :=
  [hostOps0, hostOps0_1, hostOps0_2, hostOps0_3, hostOps0_4, hostOps0_5, hostOps0_6, hostOps0_7, hostOps0_8, hostOps0_9,
   hostOps0_10, hostOps0_11, hostOps0_12, hostOps0_13, hostOps0_14]
/-- The stretches after it. -/
abbrev post : List (List (HloOp τ sig (Elt F))) := [hostOps1, hostOps1_1, hostOps1_2]

/-- The buffers' contents when the launch is reached. -/
abbrev V0 (c : Dev nD) : Valuation τ sig (Elt F) := StableHlo.after (List.flatten pre) (fun b => m (c, b))
/-- The same read at a TensorCore reference. -/
abbrev V (c : Dev nD) (b : Ref sig .tc) : Buf (Elt F) ((c : Thread nD τ).loc b) := V0 m c (Proc.devRef .tc b)

/-- No host operation allocates. -/
theorem pre_fresh : (pre : List (List (HloOp τ sig (Elt F)))).Forall fun ops => ops.Forall fun op => op.fresh = ∅ := by
  simp only [List.Forall]; repeat' constructor
theorem post_fresh : ∀ ops ∈ (post : List (List (HloOp τ sig (Elt F)))), ∀ op ∈ ops, op.fresh = ∅ := by
  have h : (post : List (List (HloOp τ sig (Elt F)))).Forall fun ops => ops.Forall fun op => op.fresh = ∅ := by
    simp only [List.Forall]; repeat' constructor
  exact fun ops hops op hop => (List.forall_iff_forall_mem.mp ((List.forall_iff_forall_mem.mp h) ops hops)) op hop

theorem pre_sub : (pre : List (List (HloOp τ sig (Elt F)))).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub,
    hostOps0_7_sub, hostOps0_8_sub, hostOps0_9_sub, hostOps0_10_sub, hostOps0_11_sub, hostOps0_12_sub, hostOps0_13_sub,
    hostOps0_14_sub⟩

/-- @main reduces to the launch continued by the later stretches, at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (post.map StableHlo.seq)) :=
  Pipeline.hmain_around cfgs 0 defs₀ 𝒱₀ m main pre post pre_sub pre_fresh main_chain

/-- The later stretches touch unscoped TensorCore buffers only. -/
theorem post_sub : ∀ ops ∈ (post : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-! ## What the host operations leave alone -/

/-- The later stretches write no array of the launch (each writes its own result buffer only). -/
theorem post_keeps : ∀ ops ∈ (post : List (List (HloOp τ sig (Elt F)))), ∀ op ∈ ops,
    ∀ w, Proc.devRef .tc (Pipeline.arrRef spec0 w) ∉ op.writes := by
  have h : (List.flatten post : List (HloOp τ sig (Elt F))).Forall fun op =>
      ∀ w, Proc.devRef .tc (Pipeline.arrRef spec0 w) ∉ op.writes := by
    simp only [post, hostOps1, hostOps1_1, hostOps1_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, Finset.mem_singleton]
    repeat' apply And.intro
    all_goals intro w; fin_cases w <;> exact StableHlo.devRef_ne_of_ne (by decide)
  intro ops hops op hop
  exact (List.forall_iff_forall_mem.mp h) op (List.mem_flatten.2 ⟨ops, hops, hop⟩)

/-- The argument arrays of @main. -/
abbrev argRef : Fin 15 → Ref sig .tc :=
  ![main_arg0, main_arg1, main_arg2, main_arg3, main_arg4, main_arg5, main_arg6, main_arg7, main_arg8, main_arg9, main_arg10,
    main_arg11, main_arg12, main_arg13, main_arg14]

/-- No host operation before the launch writes an argument. -/
theorem pre_keeps_args : ∀ op ∈ (List.flatten pre : List (HloOp τ sig (Elt F))), ∀ k : Fin 15, Proc.devRef .tc (argRef k) ∉ op.writes := by
  refine List.forall_iff_forall_mem.mp ?_
  simp only [pre, hostOps0, hostOps0_1, hostOps0_2, hostOps0_3, hostOps0_4, hostOps0_5, hostOps0_6, hostOps0_7, hostOps0_8,
    hostOps0_9, hostOps0_10, hostOps0_11, hostOps0_12, hostOps0_13, hostOps0_14, List.flatten_cons, List.flatten_nil,
    List.append_nil, List.cons_append, List.nil_append, List.Forall, StableHlo.nullary_writes, StableHlo.unary_writes,
    StableHlo.binary_writes, StableHlo.ternary_writes, StableHlo.quaternary_writes, StableHlo.reshape_writes, Finset.mem_singleton]
  repeat' apply And.intro
  all_goals intro k; exact StableHlo.devRef_ne_of_ne (by revert k; decide)

/-- Nor does one after it. -/
theorem post_keeps_args : ∀ op ∈ (List.flatten post : List (HloOp τ sig (Elt F))), ∀ k : Fin 15, Proc.devRef .tc (argRef k) ∉ op.writes := by
  refine List.forall_iff_forall_mem.mp ?_
  simp only [post, hostOps1, hostOps1_1, hostOps1_2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, Finset.mem_singleton]
  repeat' apply And.intro
  all_goals intro k; exact StableHlo.devRef_ne_of_ne (by revert k; decide)

/-- An argument reaches the launch as launched. -/
theorem V_arg (c : Dev nD) (k : Fin 15) : V m c (argRef k) = m ((c : Thread nD τ).loc (argRef k)) :=
  StableHlo.after_of_forall_not_mem (b := Proc.devRef .tc (argRef k)) _ _ (fun op hop => pre_keeps_args op hop k)

/-- And ends as launched: no window of the launch is an argument. -/
theorem W_arg (dats : (p : Fin 1) → (c : Dev nD) → Dat τ (Elt F) Unit ℕ (UR sig nD τ) ℕ (cfgs p) c) (c : Dev nD) (k : Fin 15) :
    Pipeline.afterTail₀ cfgs dats 0 (V0 m) post c (argRef k) = m ((c : Thread nD τ).loc (argRef k)) := by
  unfold Pipeline.afterTail₀
  rw [StableHlo.after_of_forall_not_mem (b := Proc.devRef .tc (argRef k)) _ _ (fun op hop => post_keeps_args op hop k),
    Pipeline.withArrays_of_ne _ c (V0 m c) _ (argRef k) (by revert k; decide)]
  exact V_arg m c k

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Fr

end
-- ==== Proof.KernelIdealRun.lean ====
/-
  The launch of the program `KernelIdeal` and its frame, at any float instance.

  The kernel's body, on the launch's one grid point, loads its two whole input blocks, multiplies them as matrices into
  a zero accumulator and stores the product over its whole output block (it also loads the output block first, and uses
  nothing of it). So the proof data are: each input window's buffer holds its array's block, the output window's the
  product of the two blocks. With the host side's facts the launch theorem gives the run of @main: it terminates
  without fault, the launch's arrays end at what the proof data say, every other buffer at what the later host
  operations leave. The arguments of @main are among the latter and nothing writes them: the frame.
-/
import proofs.«404497_j45732811768428_3_alg».proof.Proof.KernelIdealHost

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body -/

/-- The whole left block, the whole right block, the whole output block, as the body addresses them. -/
abbrev rA : Rect S32x15104 := Rect.unit (s := S32x15104) ![0, 0] S32x15104.size inb_S32x15104_S32x15104_0_0
abbrev rB : Rect S15104x128 := Rect.unit (s := S15104x128) ![0, 0] S15104x128.size inb_S15104x128_S15104x128_0_0
abbrev rO : Rect S32x128 := Rect.unit (s := S32x128) ![0, 0] S32x128.size inb_S32x128_S32x128_0_0

/-- What the body leaves in the output window's buffer: its one store, the product of the two loaded blocks. -/
def outBlk (a : Vec F S32x15104 .bf16) (b : Vec F S15104x128 .bf16) : Vec F S32x128 .f32 :=
  View.canon [⟨rO, k0_pay1 (View.ld a rA) (View.ld b rB)⟩]

/-- The store covers the block. -/
theorem cover_out (p0 : Vec F S32x128 .f32) (y : S32x128.Idx) :
    ∃ pc ∈ ([⟨rO, p0⟩] : List (View.Piece (Elt F) S32x128 .f32)), y ∈ pc.1.set :=
  View.cover_of_tiled [⟨rO, p0⟩] S32x128.size (by rfl) y

set_option maxHeartbeats 1000000 in
/-- The body on whole staging buffers: the inputs' at contents `xa`, `xb`, the output's at anything; it returns with the
    inputs' as they were and the output's at the product. -/
theorem sound_kernel (c : Dev nD) (E : Set ℕ) (i : grid0.Coords)
    (arg1 : Memref sig .tc .vmem S32x15104 .bf16) (harg1 : arg1.IsWhole) (arg2 : Memref sig .tc .vmem S15104x128 .bf16) (harg2 : arg2.IsWhole)
    (arg3 : Memref sig .tc .vmem S32x128 .f32) (harg3 : arg3.IsWhole)
    (xa : Vec F S32x15104 .bf16) (xb : Vec F S15104x128 .bf16) (K : PUnit → sProp 𝕄) :
    iprop(owns (c : Thread nD τ) arg1 fullShare xa ∗ owns (c : Thread nD τ) arg2 fullShare xb ∗ (∃ d, owns (c : Thread nD τ) arg3 fullShare d)
        ∗ (iprop(owns (c : Thread nD τ) arg1 fullShare xa ∗ owns (c : Thread nD τ) arg2 fullShare xb
              ∗ owns (c : Thread nD τ) arg3 fullShare (outBlk xa xb)) -∗ K ⟨⟩))
      ⊢ wp frame (wpE (defs₀ (F := F)) Variants.none c none) E (cc0__wd_matmul_kernel i arg1 harg1 arg2 harg2 arg3 harg3) K := by
  simp only [cc0__wd_matmul_kernel_eq_skeleton]; unfold cc0__wd_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The proof data -/

/-- On core `c`: the arrays as the launch finds them; after the body each input's buffer at its block, the output's at
    the product of the input blocks; the invariant the scoped rest and the generator register, untouched; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outBlk (iblk m c 0 t) (iblk m c 1 t) := by dsimp only [dats]

/-- Each input is fetched at the point, so its buffer holds its block when the body runs. -/
theorem before0_0 (c : Dev nD) (t : Fin cfg0.N) (d) : (dats m 0 c).before 0 t d = iblk m c 0 t :=
  ((dats m 0 c).before_fetched 0 t (fetch0_0 t) d).trans (by unfold Dat.fetched Dat.blockOf iblk; rw [A_eq]; try rfl)
theorem before0_1 (c : Dev nD) (t : Fin cfg0.N) (d) : (dats m 0 c).before 1 t d = iblk m c 1 t :=
  ((dats m 0 c).before_fetched 1 t (fetch0_1 t) d).trans (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at the point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without fault; the launch's arrays end at what the proof data say
    and every other unscoped buffer at what the later host operations leave. -/
theorem run_main : θ_run defs (onTc (τ := τ) (main (F := F))) (s₀ m ρ)
    (Pipeline.FramePost cfgs (dats m) 0 (Pipeline.afterTail₀ cfgs (dats m) 0 (V0 m) post)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := post) (hsub := post_sub) (hfresh := post_fresh) (hkeep := post_keeps)
    (hmain := hmain m Variants.none) (hA := A_eq m) (hΦ := fun _ _ => rfl)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    have kept : ∀ k : Fin 15, r.2.mem ((c.tc : Thread nD τ).loc (argRef k)) = m ((c.tc : Thread nD τ).loc (argRef k)) := fun k =>
      ((h c).2 (argRef k) (Pipeline.mem_restRefs_of (argRef k) (by revert k; decide) (by revert k; decide))).trans (W_arg m (dats m) c k)
    ⟨kept 0, kept 1, kept 2, kept 3, kept 4, kept 5, kept 6, kept 7, kept 8, kept 9, kept 10, kept 11, kept 12, kept 13, kept 14⟩)
    (run_main m ρ)

end Cert.KernelIdeal.Fr

end
-- ==== Proof.KernelOut.lean ====
/-
  The launch's output as a function of its two operands: the matrix product of the 32 × 15104 left block and the
  15104 × 128 right block, accumulated from zero (the kernel body's one stored value).
-/
import proofs.«404497_j45732811768428_3_alg».proof.KernelIdeal

noncomputable section

namespace Cert.KStage

open Cert.KernelIdeal Idealize.ShloMosaic Idealize.SL.Sem

variable {F : FTy → Type} [FloatOps F] [Cert.KernelIdeal.Facts]
open Cert.KernelIdeal.Facts₀ Cert.KernelIdeal.Facts

/-- %56 from %53 and %55. -/
def kOut (a : Vec F S32x15104 .bf16) (b : Vec F S15104x128 .bf16) : Vec F S32x128 .f32 :=
  matmul dot_S32x15104_S15104x128_S32x128_1_0_0_1_n_n none (shapeCast S32x15104 a shapeCasts_S32x15104_S32x15104)
    (shapeCast S15104x128 b shapeCasts_S15104x128_S15104x128) (constant S32x128 .f32 0x00000000#32)

end Cert.KStage

end
-- ==== Proof.KernelIdealOut.lean ====
/-
  The launch's output array after the run of the idealized kernel: `kOut` of the two operand arrays as the launch finds
  them. The grid has one point and every window's block there is its whole array (all block indices are zero), so
  each input block is its array, what the point writes back is the product of the two arrays, and that one block
  covers the output array.
-/
import proofs.«404497_j45732811768428_3_alg».proof.Proof.KernelIdealRun
import proofs.«404497_j45732811768428_3_alg».proof.Proof.KernelOut
import Idealize.ShloMosaic.Lib.Pipeline.Value

set_option maxRecDepth 16384

noncomputable section

namespace Cert.KernelIdeal.Fr

open Cert.KernelIdeal Cert.KernelIdeal.Gen Cert.KStage
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ)

theorem hz : (![0, 0] : Fin 2 → Nat) = fun _ => 0 := funext fun a => by fin_cases a <;> rfl

/-- The body's stored value is the product. -/
theorem pay_eq (a : Vec F S32x15104 .bf16) (b : Vec F S15104x128 .bf16) : k0_pay1 a b = kOut a b := rfl

/-- At the one point every window's block index is zero on both axes. -/
theorem idx_zero : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The left input block is the left operand array. -/
theorem iblk0_eq (c : Dev nD) (t : Fin cfg0.N) : iblk m c 0 t = V m c main_v53 := by
  obtain ⟨e0, e1, -, -, -, -⟩ := idx_zero t
  funext y
  show V m c main_v53 (((cfg0.win 0).blk t).view.emb y) = V m c main_v53 y
  congr 1
  funext a; apply Fin.ext
  match a with
  | ⟨0, _⟩ => show win0_0.index t (0 : Fin 2) * 32 + 1 * (y 0).val = (y 0).val; omega
  | ⟨1, _⟩ => show win0_0.index t (1 : Fin 2) * 15104 + 1 * (y 1).val = (y 1).val; omega

/-- The right input block is the right operand array. -/
theorem iblk1_eq (c : Dev nD) (t : Fin cfg0.N) : iblk m c 1 t = V m c main_v55 := by
  obtain ⟨-, -, e2, e3, -, -⟩ := idx_zero t
  funext y
  show V m c main_v55 (((cfg0.win 1).blk t).view.emb y) = V m c main_v55 y
  congr 1
  funext a; apply Fin.ext
  match a with
  | ⟨0, _⟩ => show win0_1.index t (0 : Fin 2) * 15104 + 1 * (y 0).val = (y 0).val; omega
  | ⟨1, _⟩ => show win0_1.index t (1 : Fin 2) * 128 + 1 * (y 1).val = (y 1).val; omega

/-- What the point writes back is its block of the product of the two operand arrays. -/
theorem flushed_eq (c : Dev nD) (t : Fin cfg0.N) :
    (dats m 0 c).flushed 2 t = ((cfg0.win 2).blk t).view.read (Elt F) (kOut (V m c main_v53) (V m c main_v55)) := by
  show (cfg0.win 2).cut (grid0.coords t) ((dats m 0 c).after 2 t) = _
  rw [after0_2]
  unfold outBlk
  rw [View.canon_unit_zero hz]
  simp only [View.ld_unit_zero (S := S32x15104) hz, View.ld_unit_zero (S := S15104x128) hz]
  rw [pay_eq, iblk0_eq, iblk1_eq]
  obtain ⟨-, -, -, -, e4, e5⟩ := idx_zero t
  funext j
  show kOut (V m c main_v53) (V m c main_v55) j = kOut (V m c main_v53) (V m c main_v55) (((cfg0.win 2).blk t).view.emb j)
  congr 1
  funext a; apply Fin.ext
  match a with
  | ⟨0, _⟩ => show (j 0).val = win0_2.index t (0 : Fin 2) * 32 + 1 * (j 0).val; omega
  | ⟨1, _⟩ => show (j 1).val = win0_2.index t (1 : Fin 2) * 128 + 1 * (j 1).val; omega

/-- An index of the output array is in the point's block iff each coordinate is in the block's range. -/
theorem mem_blk (t : Fin cfg0.N) (i : S32x128.Idx) :
    i ∈ ((cfg0.win 2).blk t).view.set ↔ ∀ a : Fin 2, win0_2.index t a * S32x128.size a ≤ (i a).val ∧ (i a).val < win0_2.index t a * S32x128.size a + S32x128.size a := by
  show i ∈ ((View.whole main_v56).slice (win0_2.rect t)).set ↔ _
  rw [View.set_slice_whole, Rect.mem_set_unit]
  exact Iff.rfl

/-- THE OUTPUT ARRAY after the run. -/
theorem out_eq (c : Dev nD) : (dats m 0 c).arrAt 2 cfg0.N = kOut (V m c main_v53) (V m c main_v55) :=
  (dats m 0 c).arrAt_eq_of_cover 2 _ (fun t _ => flushed_eq m c t) (fun i => by
    refine ⟨t0_0, flush0_2 t0_0, ?_⟩
    rw [mem_blk]
    obtain ⟨-, -, -, -, e4, e5⟩ := idx_zero t0_0
    intro a
    match a with
    | ⟨0, _⟩ => show win0_2.index t0_0 (0 : Fin 2) * 32 ≤ (i 0).val ∧ (i 0).val < win0_2.index t0_0 (0 : Fin 2) * 32 + 32; have hi : (i 0).val < 32 := (i 0).isLt; omega
    | ⟨1, _⟩ => show win0_2.index t0_0 (1 : Fin 2) * 128 ≤ (i 1).val ∧ (i 1).val < win0_2.index t0_0 (1 : Fin 2) * 128 + 128; have hi : (i 1).val < 128 := (i 1).isLt; omega)

end Cert.KernelIdeal.Fr

end
-- ==== Proof.KernelStages.lean ====
/-
  The idealized kernel's program as pure functions of its arguments, stage by stage.

  Before the launch the host builds, from the edge lists, the word relation's coefficient matrix M_wd (one row per
  graph, one column per vocabulary row: the per-edge products rsqrt(outdeg(src)) · rsqrt(indeg(dst)) accumulated at the
  flat position graph · 15000 + word id), pads it to 15104 columns with zeros and rounds it to bf16 (`kA`); and pads the
  word table to 15104 rows with zeros and rounds it to bf16 (`kB`). The launch multiplies the two. After it the host
  divides by the 512 docs per graph, applies the word relation's dense layer, does the same for the topic relation
  (its 32 × 50 coefficient matrix contracted with the topic table on the host), adds the two (`kPool`), and ends
  with the output layer, the loss (`kLossOf`) and the prediction (`kPredOf`).
  Each definition is the composition of the program's printed operations, in the program's order.
-/
import proofs.«404497_j45732811768428_3_alg».proof.KernelIdeal

noncomputable section

namespace Cert.KStage

open Cert.KernelIdeal Idealize.ShloMosaic Idealize.SL.Sem

variable {F : FTy → Type} [FloatOps F] [Cert.KernelIdeal.Facts]
open Cert.KernelIdeal.Facts₀ Cert.KernelIdeal.Facts

/-- %53: the launch's left operand, from word_ids, wd_src, wd_dst. -/
def kA (x0 : Vec F S100000 .i32) (x2 x3 : Vec F S1000000 .i32) : Vec F S32x15104 .bf16 :=
  truncf .bf16
    (pad S32x15104 ![0, 0] ![0, 104] ![0, 0]
       (shapeCast S32x15000
          (Host.scatterAdd scatter_S480000_S1000000x1_S1000000_n_0_0_1
             (broadcastInDim S480000 ![] bcast_S_S480000 (constant (F := F) S_ .f32 0x00000000#32))
             (broadcastInDim S1000000x1 ![0] bcast_S1000000_S1000000x1_0
                (addi
                   (muli
                      (select
                         (andi
                            (cmpi .ne
                               (signi x3)
                               (broadcastInDim S1000000 ![] bcast_S_S1000000 (signi (id (constantI S_ 32 512#32)))))
                            (cmpi .ne
                               (Host.remsi x3
                                  (broadcastInDim S1000000 ![] bcast_S_S1000000 (id (constantI S_ 32 512#32))))
                               (broadcastInDim S1000000 ![] bcast_S_S1000000 (constantI S_ 32 0#32))))
                         (subi
                            (Host.divsi x3
                               (broadcastInDim S1000000 ![] bcast_S_S1000000 (id (constantI S_ 32 512#32))))
                            (broadcastInDim S1000000 ![] bcast_S_S1000000 (constantI S_ 32 1#32)))
                         (Host.divsi x3 (broadcastInDim S1000000 ![] bcast_S_S1000000 (id (constantI S_ 32 512#32)))))
                      (broadcastInDim S1000000 ![] bcast_S_S1000000 (constantI S_ 32 15000#32)))
                   (Host.gather gather_S100000_S1000000x1_S1000000_n_0_n_n_0_1_1 x0
                      (broadcastInDim S1000000x1 ![0] bcast_S1000000_S1000000x1_0
                         (select
                            (cmpi .slt x2 (broadcastInDim S1000000 ![] bcast_S_S1000000 (constantI S_ 32 0#32)))
                            (addi x2 (broadcastInDim S1000000 ![] bcast_S_S1000000 (constantI S_ 32 100000#32)))
                            x2)))))
             (mulf
                (Host.gather gather_S100000_S1000000x1_S1000000_n_0_n_n_0_1_1
                   (Host.rsqrt
                      (maximumf
                         (broadcastInDim S100000 ![] bcast_S_S100000 (id (constant (F := F) S_ .f32 0x3F800000#32)))
                         (Host.scatterAdd scatter_S100000_S1000000x1_S1000000_n_0_0_1
                            (broadcastInDim S100000 ![] bcast_S_S100000 (constant (F := F) S_ .f32 0x00000000#32))
                            (broadcastInDim S1000000x1 ![0] bcast_S1000000_S1000000x1_0 x2)
                            (broadcastInDim S1000000 ![] bcast_S_S1000000 (constant (F := F) S_ .f32 0x3F800000#32)))))
                   (broadcastInDim S1000000x1 ![0] bcast_S1000000_S1000000x1_0
                      (select
                         (cmpi .slt x2 (broadcastInDim S1000000 ![] bcast_S_S1000000 (constantI S_ 32 0#32)))
                         (addi x2 (broadcastInDim S1000000 ![] bcast_S_S1000000 (constantI S_ 32 100000#32)))
                         x2)))
                (Host.gather gather_S16384_S1000000x1_S1000000_n_0_n_n_0_1_1
                   (Host.rsqrt
                      (maximumf
                         (broadcastInDim S16384 ![] bcast_S_S16384 (id (constant (F := F) S_ .f32 0x3F800000#32)))
                         (Host.scatterAdd scatter_S16384_S1000000x1_S1000000_n_0_0_1
                            (broadcastInDim S16384 ![] bcast_S_S16384 (constant (F := F) S_ .f32 0x00000000#32))
                            (broadcastInDim S1000000x1 ![0] bcast_S1000000_S1000000x1_0 x3)
                            (broadcastInDim S1000000 ![] bcast_S_S1000000 (constant (F := F) S_ .f32 0x3F800000#32)))))
                   (broadcastInDim S1000000x1 ![0] bcast_S1000000_S1000000x1_0
                      (select
                         (cmpi .slt x3 (broadcastInDim S1000000 ![] bcast_S_S1000000 (constantI S_ 32 0#32)))
                         (addi x3 (broadcastInDim S1000000 ![] bcast_S_S1000000 (constantI S_ 32 16384#32)))
                         x3)))))
          shapeCasts_S480000_S32x15000)
       (sitofp .f32 (constantI S_ 32 0#32))
       pads_S32x15000_S32x15104_000_01040 h_S_)
    bitsLt_bf16_f32

/-- %55: the launch's right operand, from word_embeds. -/
def kB (x7 : Vec F S15000x128 .f32) : Vec F S15104x128 .bf16 :=
  truncf .bf16
    (pad S15104x128 ![0, 0] ![104, 0] ![0, 0] x7
       (sitofp .f32 (constantI S_ 32 0#32))
       pads_S15000x128_S15104x128_01040_000 h_S_)
    bitsLt_bf16_f32

/-- %102: the pooled docs, from the launch's output %56 and topic_ids, td_src, td_dst, topic_embeds, W_wd, b_wd, W_td, b_td. -/
def kPool (out : Vec F S32x128 .f32) (x1 : Vec F S1600 .i32) (x4 x5 : Vec F S200000 .i32) (x8 : Vec F S50x128 .f32)
    (x9 : Vec F S128x128 .f32) (x10 : Vec F S128 .f32) (x11 : Vec F S128x128 .f32) (x12 : Vec F S128 .f32) : Vec F S32x128 .f32 :=
  addf
    (addf
       (Host.dotGeneral dot_S32x128_S128x128_S32x128_1_0_0_1_n_n none
          (Host.divf out (broadcastInDim S32x128 ![] bcast_S_S32x128 (constant (F := F) S_ .f32 0x44000000#32)))
          x9)
       (broadcastInDim S32x128 ![0, 1] bcast_S1x128_S32x128_0_1 (broadcastInDim S1x128 ![1] bcast_S128_S1x128_1 x10)))
    (addf
       (Host.dotGeneral dot_S32x128_S128x128_S32x128_1_0_0_1_n_n none
          (Host.divf
             (Host.dotGeneral dot_S32x50_S50x128_S32x128_1_0_0_1_n_n none
                (shapeCast S32x50
                   (Host.scatterAdd scatter_S1600_S200000x1_S200000_n_0_0_1
                      (broadcastInDim S1600 ![] bcast_S_S1600 (constant (F := F) S_ .f32 0x00000000#32))
                      (broadcastInDim S200000x1 ![0] bcast_S200000_S200000x1_0
                         (addi
                            (muli
                               (select
                                  (andi
                                     (cmpi .ne
                                        (signi x5)
                                        (broadcastInDim S200000 ![] bcast_S_S200000
                                           (signi (id (constantI S_ 32 512#32)))))
                                     (cmpi .ne
                                        (Host.remsi x5
                                           (broadcastInDim S200000 ![] bcast_S_S200000 (id (constantI S_ 32 512#32))))
                                        (broadcastInDim S200000 ![] bcast_S_S200000 (constantI S_ 32 0#32))))
                                  (subi
                                     (Host.divsi x5
                                        (broadcastInDim S200000 ![] bcast_S_S200000 (id (constantI S_ 32 512#32))))
                                     (broadcastInDim S200000 ![] bcast_S_S200000 (constantI S_ 32 1#32)))
                                  (Host.divsi x5
                                     (broadcastInDim S200000 ![] bcast_S_S200000 (id (constantI S_ 32 512#32)))))
                               (broadcastInDim S200000 ![] bcast_S_S200000 (constantI S_ 32 50#32)))
                            (Host.gather gather_S1600_S200000x1_S200000_n_0_n_n_0_1_1 x1
                               (broadcastInDim S200000x1 ![0] bcast_S200000_S200000x1_0
                                  (select
                                     (cmpi .slt x4 (broadcastInDim S200000 ![] bcast_S_S200000 (constantI S_ 32 0#32)))
                                     (addi x4 (broadcastInDim S200000 ![] bcast_S_S200000 (constantI S_ 32 1600#32)))
                                     x4)))))
                      (mulf
                         (Host.gather gather_S1600_S200000x1_S200000_n_0_n_n_0_1_1
                            (Host.rsqrt
                               (maximumf
                                  (broadcastInDim S1600 ![] bcast_S_S1600
                                     (id (constant (F := F) S_ .f32 0x3F800000#32)))
                                  (Host.scatterAdd scatter_S1600_S200000x1_S200000_n_0_0_1
                                     (broadcastInDim S1600 ![] bcast_S_S1600 (constant (F := F) S_ .f32 0x00000000#32))
                                     (broadcastInDim S200000x1 ![0] bcast_S200000_S200000x1_0 x4)
                                     (broadcastInDim S200000 ![] bcast_S_S200000
                                        (constant (F := F) S_ .f32 0x3F800000#32)))))
                            (broadcastInDim S200000x1 ![0] bcast_S200000_S200000x1_0
                               (select
                                  (cmpi .slt x4 (broadcastInDim S200000 ![] bcast_S_S200000 (constantI S_ 32 0#32)))
                                  (addi x4 (broadcastInDim S200000 ![] bcast_S_S200000 (constantI S_ 32 1600#32)))
                                  x4)))
                         (Host.gather gather_S16384_S200000x1_S200000_n_0_n_n_0_1_1
                            (Host.rsqrt
                               (maximumf
                                  (broadcastInDim S16384 ![] bcast_S_S16384
                                     (id (constant (F := F) S_ .f32 0x3F800000#32)))
                                  (Host.scatterAdd scatter_S16384_S200000x1_S200000_n_0_0_1
                                     (broadcastInDim S16384 ![] bcast_S_S16384
                                        (constant (F := F) S_ .f32 0x00000000#32))
                                     (broadcastInDim S200000x1 ![0] bcast_S200000_S200000x1_0 x5)
                                     (broadcastInDim S200000 ![] bcast_S_S200000
                                        (constant (F := F) S_ .f32 0x3F800000#32)))))
                            (broadcastInDim S200000x1 ![0] bcast_S200000_S200000x1_0
                               (select
                                  (cmpi .slt x5 (broadcastInDim S200000 ![] bcast_S_S200000 (constantI S_ 32 0#32)))
                                  (addi x5 (broadcastInDim S200000 ![] bcast_S_S200000 (constantI S_ 32 16384#32)))
                                  x5)))))
                   shapeCasts_S1600_S32x50)
                x8)
             (broadcastInDim S32x128 ![] bcast_S_S32x128 (constant (F := F) S_ .f32 0x44000000#32)))
          x11)
       (broadcastInDim S32x128 ![0, 1] bcast_S1x128_S32x128_0_1 (broadcastInDim S1x128 ![1] bcast_S128_S1x128_1 x12)))

/-- %118: the loss, from the pooled docs %102 and y_data, W_out, b_out. -/
def kLossOf (pool : Vec F S32x128 .f32) (x6 : Vec F S32 .f32) (x13 : Vec F S128x1 .f32) (x14 : Vec F S1 .f32) : Vec F S_ .f32 :=
  Host.divf
    (Host.reduceAdd
       (addf
          (subf
             (maximumf
                (shapeCast S32
                   (addf
                      (Host.dotGeneral dot_S32x128_S128x1_S32x1_1_0_0_1_n_n none pool x13)
                      (broadcastInDim S32x1 ![0, 1] bcast_S1x1_S32x1_0_1
                         (broadcastInDim S1x1 ![1] bcast_S1_S1x1_1 x14)))
                   shapeCasts_S32x1_S32)
                (broadcastInDim S32 ![] bcast_S_S32 (constant (F := F) S_ .f32 0x00000000#32)))
             (mulf
                (shapeCast S32
                   (addf
                      (Host.dotGeneral dot_S32x128_S128x1_S32x1_1_0_0_1_n_n none pool x13)
                      (broadcastInDim S32x1 ![0, 1] bcast_S1x1_S32x1_0_1
                         (broadcastInDim S1x1 ![1] bcast_S1_S1x1_1 x14)))
                   shapeCasts_S32x1_S32)
                x6))
          (Host.log1p
             (Host.exp
                (Host.negf
                   (Host.absf
                      (shapeCast S32
                         (addf
                            (Host.dotGeneral dot_S32x128_S128x1_S32x1_1_0_0_1_n_n none pool x13)
                            (broadcastInDim S32x1 ![0, 1] bcast_S1x1_S32x1_0_1
                               (broadcastInDim S1x1 ![1] bcast_S1_S1x1_1 x14)))
                         shapeCasts_S32x1_S32))))))
       (constant (F := F) S_ .f32 0x00000000#32)
       reducesTo_S32_S_d0 h_S_)
    (constant (F := F) S_ .f32 0x42000000#32)

/-- %124: the prediction, from the pooled docs %102 and W_out, b_out. -/
def kPredOf (pool : Vec F S32x128 .f32) (x13 : Vec F S128x1 .f32) (x14 : Vec F S1 .f32) : Vec F S32x1 .f32 :=
  Host.divf
    (broadcastInDim S32x1 ![] bcast_S_S32x1 (constant (F := F) S_ .f32 0x3F800000#32))
    (addf
       (broadcastInDim S32x1 ![] bcast_S_S32x1 (constant (F := F) S_ .f32 0x3F800000#32))
       (Host.exp
          (Host.negf
             (addf
                (Host.dotGeneral dot_S32x128_S128x1_S32x1_1_0_0_1_n_n none pool x13)
                (broadcastInDim S32x1 ![0, 1] bcast_S1x1_S32x1_0_1 (broadcastInDim S1x1 ![1] bcast_S1_S1x1_1 x14))))))

end Cert.KStage

end
-- ==== Proof.KernelIdealValue.lean ====
/-
  What the idealized kernel's host operations compute, read off the run's folds: the two arrays the launch stages
  reach it at `kA` and `kB` of the arguments, and the later host operations take the launch's output array to the two
  results `kLossOf (kPool …)` and `kPredOf (kPool …)`.
-/
import proofs.«404497_j45732811768428_3_alg».proof.Proof.KernelIdealHost
import proofs.«404497_j45732811768428_3_alg».proof.Proof.KernelStages
import Idealize.ShloMosaic.Lib.StableHlo.Run

set_option maxRecDepth 16384

noncomputable section

namespace Cert.KernelIdeal.Fr

open Cert.KernelIdeal Cert.KernelIdeal.Gen Cert.KStage
open Idealize.ShloMosaic Idealize.ShloMosaic.TcCoe Idealize.SL.Sem Idealize.ShloMosaic.StableHlo
open Idealize.ShloMosaic.Pipeline (Dat Cfg)

variable {F : FTy → Type} [FloatOps F]
variable (m : (ℓ : Loc nD τ sig) → Buf (Elt F) ℓ)

/-- The topic relation's clipped source degrees reach the launch as the earlier host operations leave them. -/
theorem V_14 (c : Dev nD) :
    V0 m c (Proc.devRef .tc main_v14)
      = maximumf
          (broadcastInDim S1600 ![] bcast_S_S1600 (id (constant (F := F) S_ .f32 0x3F800000#32)))
          (Host.scatterAdd scatter_S1600_S200000x1_S200000_n_0_0_1
             (broadcastInDim S1600 ![] bcast_S_S1600 (constant (F := F) S_ .f32 0x00000000#32))
             (broadcastInDim S200000x1 ![0] bcast_S200000_S200000x1_0 ((m ((c : Thread nD τ).loc main_arg4))))
             (broadcastInDim S200000 ![] bcast_S_S200000 (constant (F := F) S_ .f32 0x3F800000#32))) := by
  dsimp only [V0]
  simp only [pre, hostOps0, hostOps0_1, hostOps0_2, hostOps0_3, hostOps0_4, hostOps0_5, hostOps0_6, hostOps0_7, hostOps0_8, hostOps0_9,
    hostOps0_10, hostOps0_11, hostOps0_12, hostOps0_13, hostOps0_14, List.flatten_cons, List.flatten_nil, List.append_nil, List.cons_append,
    List.nil_append]
  after_results_simp
  rfl

/-- The topic relation's clipped destination degrees likewise. -/
theorem V_19 (c : Dev nD) :
    V0 m c (Proc.devRef .tc main_v19)
      = maximumf
          (broadcastInDim S16384 ![] bcast_S_S16384 (id (constant (F := F) S_ .f32 0x3F800000#32)))
          (Host.scatterAdd scatter_S16384_S200000x1_S200000_n_0_0_1
             (broadcastInDim S16384 ![] bcast_S_S16384 (constant (F := F) S_ .f32 0x00000000#32))
             (broadcastInDim S200000x1 ![0] bcast_S200000_S200000x1_0 ((m ((c : Thread nD τ).loc main_arg5))))
             (broadcastInDim S200000 ![] bcast_S_S200000 (constant (F := F) S_ .f32 0x3F800000#32))) := by
  dsimp only [V0]
  simp only [pre, hostOps0, hostOps0_1, hostOps0_2, hostOps0_3, hostOps0_4, hostOps0_5, hostOps0_6, hostOps0_7, hostOps0_8, hostOps0_9,
    hostOps0_10, hostOps0_11, hostOps0_12, hostOps0_13, hostOps0_14, List.flatten_cons, List.flatten_nil, List.append_nil, List.cons_append,
    List.nil_append]
  after_results_simp
  rfl

/-- When the later host operations start, the launch's output buffer holds its array as the proof data give it. -/
theorem W_out (dats : (p : Fin 1) → (c : Dev nD) → Dat τ (Elt F) Unit ℕ (UR sig nD τ) ℕ (cfgs p) c) (c : Dev nD) :
    Pipeline.withArrays (cfgs 0).spec c (V0 m c) (fun w => (dats 0 c).arrAt w (cfgs 0).N) (Proc.devRef .tc main_v56) = (dats 0 c).arrAt 2 cfg0.N :=
  Pipeline.withArrays_arr spec0 launch0.win.arr_inj c _ _ 2

/-- And a buffer that is no array of the launch holds what it held when the launch was reached. -/
theorem W_keep (dats : (p : Fin 1) → (c : Dev nD) → Dat τ (Elt F) Unit ℕ (UR sig nD τ) ℕ (cfgs p) c) (c : Dev nD) (b : Ref sig .tc) (hb : ∀ w, Pipeline.arrRef spec0 w ≠ b) :
    Pipeline.withArrays (cfgs 0).spec c (V0 m c) (fun w => (dats 0 c).arrAt w (cfgs 0).N) (Proc.devRef .tc b) = V0 m c (Proc.devRef .tc b) :=
  Pipeline.withArrays_of_ne _ c (V0 m c) _ b hb

/-- The launch's left operand reaches it at `kA` of the arguments. -/
theorem V_A (c : Dev nD) :
    V m c main_v53 = kA (m ((c : Thread nD τ).loc main_arg0)) (m ((c : Thread nD τ).loc main_arg2)) (m ((c : Thread nD τ).loc main_arg3)) := by
  dsimp only [V, V0]
  simp only [pre, hostOps0, hostOps0_1, hostOps0_2, hostOps0_3, hostOps0_4, hostOps0_5, hostOps0_6, hostOps0_7, hostOps0_8, hostOps0_9,
    hostOps0_10, hostOps0_11, hostOps0_12, hostOps0_13, hostOps0_14, List.flatten_cons, List.flatten_nil, List.append_nil, List.cons_append,
    List.nil_append]
  after_results_simp
  rfl

/-- The launch's right operand reaches it at `kB` of word_embeds. -/
theorem V_B (c : Dev nD) : V m c main_v55 = kB (m ((c : Thread nD τ).loc main_arg7)) := by
  dsimp only [V, V0]
  simp only [pre, hostOps0, hostOps0_1, hostOps0_2, hostOps0_3, hostOps0_4, hostOps0_5, hostOps0_6, hostOps0_7, hostOps0_8, hostOps0_9,
    hostOps0_10, hostOps0_11, hostOps0_12, hostOps0_13, hostOps0_14, List.flatten_cons, List.flatten_nil, List.append_nil, List.cons_append,
    List.nil_append]
  after_results_simp
  rfl

set_option maxHeartbeats 8000000 in
/-- The loss buffer after the later host operations, from the launch's output array as the proof data give it. -/
theorem W_loss (dats : (p : Fin 1) → (c : Dev nD) → Dat τ (Elt F) Unit ℕ (UR sig nD τ) ℕ (cfgs p) c) (c : Dev nD) :
    Pipeline.afterTail₀ cfgs dats 0 (V0 m) post c main_v118
      = kLossOf (kPool ((dats 0 c).arrAt 2 cfg0.N) (m ((c : Thread nD τ).loc main_arg1)) (m ((c : Thread nD τ).loc main_arg4))
            (m ((c : Thread nD τ).loc main_arg5)) (m ((c : Thread nD τ).loc main_arg8)) (m ((c : Thread nD τ).loc main_arg9))
            (m ((c : Thread nD τ).loc main_arg10)) (m ((c : Thread nD τ).loc main_arg11)) (m ((c : Thread nD τ).loc main_arg12)))
          (m ((c : Thread nD τ).loc main_arg6)) (m ((c : Thread nD τ).loc main_arg13)) (m ((c : Thread nD τ).loc main_arg14)) := by
  unfold Pipeline.afterTail₀
  show StableHlo.after (List.flatten post) _ (Proc.devRef .tc main_v118) = _
  simp only [post, hostOps1, hostOps1_1, hostOps1_2, List.flatten_cons, List.flatten_nil, List.append_nil, List.cons_append, List.nil_append]
  after_results_simp
  rw [W_out m dats c, W_keep m dats c main_arg1 (by decide), W_keep m dats c main_arg4 (by decide), W_keep m dats c main_arg5 (by decide), W_keep m dats c main_arg6 (by decide), W_keep m dats c main_arg8 (by decide), W_keep m dats c main_arg9 (by decide), W_keep m dats c main_arg10 (by decide), W_keep m dats c main_arg11 (by decide), W_keep m dats c main_arg12 (by decide), W_keep m dats c main_arg13 (by decide), W_keep m dats c main_arg14 (by decide), W_keep m dats c main_v14 (by decide), W_keep m dats c main_v19 (by decide)]
  rw [show V0 m c (Proc.devRef .tc main_arg1) = m ((c : Thread nD τ).loc main_arg1) from V_arg m c 1,
    show V0 m c (Proc.devRef .tc main_arg4) = m ((c : Thread nD τ).loc main_arg4) from V_arg m c 4,
    show V0 m c (Proc.devRef .tc main_arg5) = m ((c : Thread nD τ).loc main_arg5) from V_arg m c 5,
    show V0 m c (Proc.devRef .tc main_arg6) = m ((c : Thread nD τ).loc main_arg6) from V_arg m c 6,
    show V0 m c (Proc.devRef .tc main_arg8) = m ((c : Thread nD τ).loc main_arg8) from V_arg m c 8,
    show V0 m c (Proc.devRef .tc main_arg9) = m ((c : Thread nD τ).loc main_arg9) from V_arg m c 9,
    show V0 m c (Proc.devRef .tc main_arg10) = m ((c : Thread nD τ).loc main_arg10) from V_arg m c 10,
    show V0 m c (Proc.devRef .tc main_arg11) = m ((c : Thread nD τ).loc main_arg11) from V_arg m c 11,
    show V0 m c (Proc.devRef .tc main_arg12) = m ((c : Thread nD τ).loc main_arg12) from V_arg m c 12,
    show V0 m c (Proc.devRef .tc main_arg13) = m ((c : Thread nD τ).loc main_arg13) from V_arg m c 13,
    show V0 m c (Proc.devRef .tc main_arg14) = m ((c : Thread nD τ).loc main_arg14) from V_arg m c 14,
    V_14 m c, V_19 m c]
  rfl

set_option maxHeartbeats 8000000 in
/-- The prediction buffer likewise. -/
theorem W_pred (dats : (p : Fin 1) → (c : Dev nD) → Dat τ (Elt F) Unit ℕ (UR sig nD τ) ℕ (cfgs p) c) (c : Dev nD) :
    Pipeline.afterTail₀ cfgs dats 0 (V0 m) post c main_v124
      = kPredOf (kPool ((dats 0 c).arrAt 2 cfg0.N) (m ((c : Thread nD τ).loc main_arg1)) (m ((c : Thread nD τ).loc main_arg4))
            (m ((c : Thread nD τ).loc main_arg5)) (m ((c : Thread nD τ).loc main_arg8)) (m ((c : Thread nD τ).loc main_arg9))
            (m ((c : Thread nD τ).loc main_arg10)) (m ((c : Thread nD τ).loc main_arg11)) (m ((c : Thread nD τ).loc main_arg12)))
          (m ((c : Thread nD τ).loc main_arg13)) (m ((c : Thread nD τ).loc main_arg14)) := by
  unfold Pipeline.afterTail₀
  show StableHlo.after (List.flatten post) _ (Proc.devRef .tc main_v124) = _
  simp only [post, hostOps1, hostOps1_1, hostOps1_2, List.flatten_cons, List.flatten_nil, List.append_nil, List.cons_append, List.nil_append]
  after_results_simp
  rw [W_out m dats c, W_keep m dats c main_arg1 (by decide), W_keep m dats c main_arg4 (by decide), W_keep m dats c main_arg5 (by decide), W_keep m dats c main_arg8 (by decide), W_keep m dats c main_arg9 (by decide), W_keep m dats c main_arg10 (by decide), W_keep m dats c main_arg11 (by decide), W_keep m dats c main_arg12 (by decide), W_keep m dats c main_arg13 (by decide), W_keep m dats c main_arg14 (by decide), W_keep m dats c main_v14 (by decide), W_keep m dats c main_v19 (by decide)]
  rw [show V0 m c (Proc.devRef .tc main_arg1) = m ((c : Thread nD τ).loc main_arg1) from V_arg m c 1,
    show V0 m c (Proc.devRef .tc main_arg4) = m ((c : Thread nD τ).loc main_arg4) from V_arg m c 4,
    show V0 m c (Proc.devRef .tc main_arg5) = m ((c : Thread nD τ).loc main_arg5) from V_arg m c 5,
    show V0 m c (Proc.devRef .tc main_arg8) = m ((c : Thread nD τ).loc main_arg8) from V_arg m c 8,
    show V0 m c (Proc.devRef .tc main_arg9) = m ((c : Thread nD τ).loc main_arg9) from V_arg m c 9,
    show V0 m c (Proc.devRef .tc main_arg10) = m ((c : Thread nD τ).loc main_arg10) from V_arg m c 10,
    show V0 m c (Proc.devRef .tc main_arg11) = m ((c : Thread nD τ).loc main_arg11) from V_arg m c 11,
    show V0 m c (Proc.devRef .tc main_arg12) = m ((c : Thread nD τ).loc main_arg12) from V_arg m c 12,
    show V0 m c (Proc.devRef .tc main_arg13) = m ((c : Thread nD τ).loc main_arg13) from V_arg m c 13,
    show V0 m c (Proc.devRef .tc main_arg14) = m ((c : Thread nD τ).loc main_arg14) from V_arg m c 14,
    V_14 m c, V_19 m c]
  rfl

end Cert.KernelIdeal.Fr

end
-- ==== Proof.KernelIdealResult.lean ====
/-
  The idealized kernel's run with its two results named: every weakly fair execution of @main terminates without
  fault, the loss buffer ends at `kLossOf (kPool (kOut (kA …) (kB …)) …) …` of the arguments, the prediction buffer at
  `kPredOf` of the same pooled docs, and the arguments end as launched. (The launch's output array is `kOut` of its two
  operands, which the host leaves at `kA`, `kB`; the later host operations take it to the results.)
-/
import proofs.«404497_j45732811768428_3_alg».proof.Proof.KernelIdealOut
import proofs.«404497_j45732811768428_3_alg».proof.Proof.KernelIdealValue

set_option maxRecDepth 16384

noncomputable section

namespace Cert.KernelIdeal.Fr

open Cert.KernelIdeal Cert.KernelIdeal.Gen Cert.KStage
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- The pooled docs of core `c`, from the arguments as launched. -/
def pooled (c : Dev nD) : Vec F S32x128 .f32 :=
  kPool (kOut (kA (m ((c.tc : Thread nD τ).loc main_arg0)) (m ((c.tc : Thread nD τ).loc main_arg2)) (m ((c.tc : Thread nD τ).loc main_arg3))) (kB (m ((c.tc : Thread nD τ).loc main_arg7)))) (m ((c.tc : Thread nD τ).loc main_arg1)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))

theorem run_results : θ_run defs (onTc (τ := τ) (main (F := F))) ⟨m, fun _ => 0, ρ⟩ (fun r => ∀ c : Dev nD,
      r.2.mem ((c.tc : Thread nD τ).loc main_v118) = kLossOf (pooled m c) (m ((c.tc : Thread nD τ).loc main_arg6)) (m ((c.tc : Thread nD τ).loc main_arg13)) (m ((c.tc : Thread nD τ).loc main_arg14))
      ∧ r.2.mem ((c.tc : Thread nD τ).loc main_v124) = kPredOf (pooled m c) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    have kept : ∀ k : Fin 15, r.2.mem ((c.tc : Thread nD τ).loc (argRef k)) = m ((c.tc : Thread nD τ).loc (argRef k)) := fun k =>
      ((h c).2 (argRef k) (Pipeline.mem_restRefs_of (argRef k) (by revert k; decide) (by revert k; decide))).trans (W_arg m (dats m) c k)
    have hout : (dats m 0 c).arrAt 2 cfg0.N = kOut (kA (m ((c.tc : Thread nD τ).loc main_arg0)) (m ((c.tc : Thread nD τ).loc main_arg2)) (m ((c.tc : Thread nD τ).loc main_arg3))) (kB (m ((c.tc : Thread nD τ).loc main_arg7))) := by
      rw [out_eq, V_A, V_B]
    ⟨((h c).2 main_v118 (Pipeline.mem_restRefs_of main_v118 (by decide) (by decide))).trans ((W_loss m (dats m) c).trans (by rw [hout]; rfl)),
     ((h c).2 main_v124 (Pipeline.mem_restRefs_of main_v124 (by decide) (by decide))).trans ((W_pred m (dats m) c).trans (by rw [hout]; rfl)),
     kept 0, kept 1, kept 2, kept 3, kept 4, kept 5, kept 6, kept 7, kept 8, kept 9, kept 10, kept 11, kept 12, kept 13, kept 14⟩)
    (run_main m ρ)

end Cert.KernelIdeal.Fr

end
-- ==== Proof.IndexReads.lean ====
/-
  Reading the host's data-dependent operations at an index, at the ideal instance, for the two shapes both programs
  use: a column of `n` start indices addressing the rows of a vector of `N` entries or of an `N × C` matrix.

  An accumulating scatter adds, to entry `i` of its operand, every update whose start index read SIGNED is exactly `i`
  (an update whose index falls outside `0 … N−1` lands nowhere). A gather reads, for result position `p`, the operand at
  start index `p` read signed and CLAMPED into `0 … N−1`.
-/
import Idealize.ShloMosaic.PureOps.Ideal
import Idealize.ShloMosaic.PureOps.Contract
import Idealize.ShloMosaic.Lib.ValueIdx
import Idealize.ShloMosaic.Lib.StableHlo.Predicate

noncomputable section

namespace Cert.Reads

open Idealize.ShloMosaic Idealize.ShloMosaic.ValueIdx
open scoped BigOperators

/-- A start index read signed and clamped into `0 … N−1`. -/
def clampIdx (N : Nat) (hN : 0 < N) (x : BitVec 32) : Fin N := ⟨min x.toInt.toNat (N - 1), by omega⟩

/-- A start index that is in range clamps to itself. -/
theorem clampIdx_of_lt (N : Nat) (hN : 0 < N) (x : BitVec 32) (h0 : 0 ≤ x.toInt) (h1 : x.toInt < N) :
    (clampIdx N hN x).val = x.toInt.toNat := by
  unfold clampIdx
  simp only
  omega

/-- An update lands on operand index `i` exactly when, on every axis, its window start plus its window coordinate is
    `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some_inj]
    constructor
    · intro e a
      have h1 := congrArg (fun f => (f a).val) e
      simp only at h1
      have h2 := h a
      omega
    · intro e
      funext a
      apply Fin.ext
      simp only
      have h1 := e a
      omega
  · rename_i h
    constructor
    · intro e; exact absurd e (by simp)
    · intro e
      exfalso; apply h
      intro a
      have h1 := e a
      have h2 := (i a).isLt
      omega

/-- Entry `i` of a vector after an accumulating scatter of `n` scalar updates: the operand's entry plus the updates whose
    start index is `i`. -/
theorem scatterAdd_vec_apply {N n : Nat} (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1)
    (x : FVec Ideal ⟨1, ![N]⟩ .f32) (idx : IVec ⟨2, ![n, 1]⟩ 32) (upd : FVec Ideal ⟨1, ![n]⟩ .f32) (i : Fin N) :
    Host.scatterAdd d x idx upd (ix1 i)
      = x (ix1 i) + ∑ j ∈ Finset.univ.filter (fun j : Fin n => (idx (ix2 j (0 : Fin 1))).toInt = (i.val : Int)), upd (ix1 j) := by
  -- the operand's one axis is inserted (no window axes) and is the one the start index addresses
  have hsk : d.sKept = [] := by
    show Shape.kept _ d.insertedWindowDims = []
    rw [hiw]; rfl
  have hus0 : ∀ (k : Nat) (h : k < d.uScatter.length), d.uScatter[k]'h = (0 : Fin 1) :=
    fun _ _ => Subsingleton.elim _ _
  have hm : (0 : Fin 1) ∈ d.scatterDimsToOperandDims := by rw [hsd]; exact List.mem_singleton.mpr rfl
  have hwin : ∀ j : (⟨1, ![n]⟩ : Shape).Idx, d.window j (0 : Fin 1) = 0 := by
    intro j
    unfold ScatterDims.window
    rw [dif_neg (by rw [hsk]; exact List.not_mem_nil)]
  have hstart : ∀ j : (⟨1, ![n]⟩ : Shape).Idx, d.start j idx (0 : Fin 1) = (idx (ix2 (j 0) (0 : Fin 1))).toInt := by
    intro j
    unfold ScatterDims.start
    rw [dif_pos hm]
    congr 2
    funext b
    match b with
    | ⟨0, _⟩ =>
      unfold ScatterDims.siIdx
      rw [dif_neg (by rw [hiv]; simp)]
      unfold ScatterDims.siCoord
      apply Fin.ext
      simp only [Fin.val_cast]
      rw [hus0]
    | ⟨1, _⟩ =>
      unfold ScatterDims.siIdx
      rw [dif_pos (by rw [hiv])]
      apply Fin.ext
      show List.idxOf (0 : Fin 1) d.scatterDimsToOperandDims = 0
      rw [hsd]; simp
  have key : ∀ j : (⟨1, ![n]⟩ : Shape).Idx,
      d.resultIdx? j idx = some (ix1 i) ↔ (idx (ix2 (j 0) (0 : Fin 1))).toInt = (i.val : Int) := by
    intro j
    rw [resultIdx?_eq_some_iff]
    constructor
    · intro h
      have h0 := h (0 : Fin 1)
      rw [hstart, hwin] at h0
      simpa using h0
    · intro h a
      match a with
      | ⟨0, _⟩ =>
        show d.start j idx (0 : Fin 1) + (d.window j (0 : Fin 1) : Int) = (i.val : Int)
        rw [hstart, hwin, h]; simp
  unfold Host.scatterAdd
  rw [Ideal.hostScatterAdd_def]
  unfold Ideal.hostScatterAdd
  congr 1
  refine Finset.sum_bij' (fun j _ => j 0) (fun p _ => ix1 p) ?_ ?_ ?_ ?_ ?_
  · intro j hj
    exact Finset.mem_filter.2 ⟨Finset.mem_univ _, (key j).1 (Finset.mem_filter.1 hj).2⟩
  · intro p hp
    exact Finset.mem_filter.2 ⟨Finset.mem_univ _, (key (ix1 p)).2 (Finset.mem_filter.1 hp).2⟩
  · intro j _
    exact (eq_ix1 j).symm
  · intro p _
    rfl
  · intro j _
    exact congrArg upd (eq_ix1 j)

/-- Entry `(i, c)` of a matrix after an accumulating scatter of `n` row updates: the operand's entry plus column `c` of
    the update rows whose start index is `i`. -/
theorem scatterAdd_rows_apply {N C n : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hiv : d.indexVectorDim = 1)
    (x : FVec Ideal ⟨2, ![N, C]⟩ .f32) (idx : IVec ⟨2, ![n, 1]⟩ 32) (upd : FVec Ideal ⟨2, ![n, C]⟩ .f32) (i : Fin N) (c : Fin C) :
    Host.scatterAdd d x idx upd (ix2 i c)
      = x (ix2 i c) + ∑ j ∈ Finset.univ.filter (fun j : Fin n => (idx (ix2 j (0 : Fin 1))).toInt = (i.val : Int)), upd (ix2 j c) := by
  -- the operand's row axis is inserted and start-indexed; its column axis is the one window axis, read off the
  -- update's axis 1; the update's axis 0 is its one scatter axis
  have hsk : d.sKept = [1] := by
    show Shape.kept _ d.insertedWindowDims = [1]
    rw [hiw]; rfl
  have hus : d.uScatter = [0] := by
    show Shape.kept _ d.updateWindowDims = [0]
    rw [huw]; rfl
  have hus0 : ∀ (k : Nat) (h : k < d.uScatter.length), d.uScatter[k]'h = (0 : Fin 2) := by
    intro k h
    rw [List.getElem_of_eq hus h]
    have hk : k = 0 := by rw [hus] at h; simpa using h
    subst hk; rfl
  have huw0 : ∀ (k : Nat) (h : k < d.updateWindowDims.length), d.updateWindowDims[k]'h = (1 : Fin 2) := by
    intro k h
    rw [List.getElem_of_eq huw h]
    have hk : k = 0 := by rw [huw] at h; simpa using h
    subst hk; rfl
  have hm0 : (0 : Fin 2) ∈ d.scatterDimsToOperandDims := by rw [hsd]; exact List.mem_singleton.mpr rfl
  have hm1 : (1 : Fin 2) ∉ d.scatterDimsToOperandDims := by rw [hsd]; simp
  have hwin0 : ∀ j : (⟨2, ![n, C]⟩ : Shape).Idx, d.window j (0 : Fin 2) = 0 := by
    intro j
    unfold ScatterDims.window
    rw [dif_neg (by rw [hsk]; simp)]
  have hwin1 : ∀ j : (⟨2, ![n, C]⟩ : Shape).Idx, d.window j (1 : Fin 2) = (j 1).val := by
    intro j
    unfold ScatterDims.window
    rw [dif_pos (by rw [hsk]; simp), huw0]
  have hstart1 : ∀ j : (⟨2, ![n, C]⟩ : Shape).Idx, d.start j idx (1 : Fin 2) = 0 := by
    intro j
    unfold ScatterDims.start
    rw [dif_neg hm1]
  have hstart0 : ∀ j : (⟨2, ![n, C]⟩ : Shape).Idx, d.start j idx (0 : Fin 2) = (idx (ix2 (j 0) (0 : Fin 1))).toInt := by
    intro j
    unfold ScatterDims.start
    rw [dif_pos hm0]
    congr 2
    funext b
    match b with
    | ⟨0, _⟩ =>
      unfold ScatterDims.siIdx
      rw [dif_neg (by rw [hiv]; simp)]
      unfold ScatterDims.siCoord
      apply Fin.ext
      simp only [Fin.val_cast]
      rw [hus0]
    | ⟨1, _⟩ =>
      unfold ScatterDims.siIdx
      rw [dif_pos (by rw [hiv])]
      apply Fin.ext
      show List.idxOf (0 : Fin 2) d.scatterDimsToOperandDims = 0
      rw [hsd]; simp
  have key : ∀ j : (⟨2, ![n, C]⟩ : Shape).Idx,
      d.resultIdx? j idx = some (ix2 i c) ↔ ((idx (ix2 (j 0) (0 : Fin 1))).toInt = (i.val : Int) ∧ j 1 = c) := by
    intro j
    rw [resultIdx?_eq_some_iff]
    constructor
    · intro h
      have h0 := h (0 : Fin 2)
      have h1 := h (1 : Fin 2)
      rw [hstart0, hwin0] at h0
      rw [hstart1, hwin1] at h1
      refine ⟨by simpa using h0, Fin.ext ?_⟩
      have h1' : ((j 1).val : Int) = (c.val : Int) := by simpa using h1
      exact_mod_cast h1'
    · rintro ⟨h, hc⟩ a
      match a with
      | ⟨0, _⟩ =>
        show d.start j idx (0 : Fin 2) + (d.window j (0 : Fin 2) : Int) = (i.val : Int)
        rw [hstart0, hwin0, h]; simp
      | ⟨1, _⟩ =>
        show d.start j idx (1 : Fin 2) + (d.window j (1 : Fin 2) : Int) = (c.val : Int)
        rw [hstart1, hwin1, hc]; simp
  unfold Host.scatterAdd
  rw [Ideal.hostScatterAdd_def]
  unfold Ideal.hostScatterAdd
  congr 1
  have hback : ∀ j : (⟨2, ![n, C]⟩ : Shape).Idx, j 1 = c → ix2 (j 0) c = j := fun j h1 => by
    rw [← h1]; exact (eq_ix2 j).symm
  refine Finset.sum_bij' (fun j _ => j 0) (fun p _ => ix2 p c) ?_ ?_ ?_ ?_ ?_
  · intro j hj
    exact Finset.mem_filter.2 ⟨Finset.mem_univ _, ((key j).1 (Finset.mem_filter.1 hj).2).1⟩
  · intro p hp
    exact Finset.mem_filter.2 ⟨Finset.mem_univ _, (key (ix2 p c)).2 ⟨(Finset.mem_filter.1 hp).2, rfl⟩⟩
  · intro j hj
    exact hback j ((key j).1 (Finset.mem_filter.1 hj).2).2
  · intro p _
    rfl
  · intro j hj
    exact (congrArg upd (hback j ((key j).1 (Finset.mem_filter.1 hj).2).2)).symm

/-- Position `p` of a gather of `n` entries of a vector: the operand at start index `p`, clamped. -/
theorem gather_vec_apply {α : Type} {N n : Nat} (hN : 0 < N) (d : GatherDims ⟨1, ![N]⟩ ⟨2, ![n, 1]⟩ ⟨1, ![n]⟩)
    (hoff : d.offsetDims = []) (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ 32) (p : Fin n) :
    Host.gather d x idx (ix1 p) = x (ix1 (clampIdx N hN (idx (ix2 p (0 : Fin 1))))) := by
  -- the library's take lemma, restated over the coordinate-built indices
  have e1 : ∀ {m : Nat} (q : Fin m), (Shape.Idx.ofFin q : (⟨1, ![m]⟩ : Shape).Idx) = ix1 q := fun q => by
    funext a; match a with | ⟨0, _⟩ => rfl
  have e2 : (StableHlo.Predicate.ixP p : (⟨2, ![n, 1]⟩ : Shape).Idx) = ix2 p (0 : Fin 1) := by
    funext a; match a with | ⟨0, _⟩ => rfl | ⟨1, _⟩ => rfl
  have h := StableHlo.Predicate.gather_take d hcoll hob hsim hivd x idx p hN
  rw [e1, e1] at h
  rw [h]
  congr 2
  apply Fin.ext
  show min (idx (StableHlo.Predicate.ixP p)).toInt.toNat (N - 1) = min (idx (ix2 p (0 : Fin 1))).toInt.toNat (N - 1)
  rw [e2]

/-- Entry `(p, c)` of a gather of `n` whole rows of an `N × C` matrix: the operand's row at start index `p`, clamped, at
    column `c`. -/
theorem gather_rows_apply {α : Type} {N C n : Nat} (hN : 0 < N) (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1) (hss : d.sliceSizes = ![1, C])
    (x : (⟨2, ![N, C]⟩ : Shape).Idx → α) (idx : IVec ⟨2, ![n, 1]⟩ 32) (p : Fin n) (c : Fin C) :
    Host.gather d x idx (ix2 p c) = x (ix2 (clampIdx N hN (idx (ix2 p (0 : Fin 1)))) c) := by
  -- the result's one batch axis is axis 0, its one offset axis is axis 1; the operand's one kept axis is axis 1
  have hbd : d.batchDims = [0] := by
    show Shape.kept _ d.offsetDims = [0]
    rw [hoff]; rfl
  have hbd0 : ∀ (k : Nat) (h : k < d.batchDims.length), d.batchDims[k]'h = (0 : Fin 2) := by
    intro k h
    rw [List.getElem_of_eq hbd h]
    have hk : k = 0 := by rw [hbd] at h; simpa using h
    subst hk; rfl
  have hod0 : ∀ (k : Nat) (h : k < d.offsetDims.length), d.offsetDims[k]'h = (1 : Fin 2) := by
    intro k h
    rw [List.getElem_of_eq hoff h]
    have hk : k = 0 := by rw [hoff] at h; simpa using h
    subst hk; rfl
  have hsk : d.sKept = [1] := by
    show Shape.kept _ (d.collapsedSliceDims ++ d.operandBatchingDims) = [1]
    rw [hcoll, hob]; rfl
  have hb : ∀ a : Fin 2, a ∉ d.operandBatchingDims := by intro a; rw [hob]; exact List.not_mem_nil
  unfold Host.gather
  congr 1
  funext a
  apply Fin.ext
  match a with
  | ⟨0, _⟩ =>
    -- the row axis: collapsed and start-indexed, slice size 1, so the start is the index clamped to N − 1
    have hk : (0 : Fin 2) ∉ d.sKept := by rw [hsk]; simp
    have hm : (0 : Fin 2) ∈ d.startIndexMap := by rw [hsim]; exact List.mem_singleton.mpr rfl
    have hsl : d.sliceSizes 0 = 1 := by rw [hss]; rfl
    show (d.operandIdx (ix2 p c) idx (0 : Fin 2)).val = min (idx (ix2 p (0 : Fin 1))).toInt.toNat (N - 1)
    simp only [GatherDims.operandIdx, GatherDims.batchCoord_eq_zero _ _ _ (hb 0), GatherDims.offCoord_eq_zero _ _ _ hk,
      Nat.add_zero, GatherDims.start, dif_pos hm]
    show min (idx _).toInt.toNat (N - d.sliceSizes 0) = min (idx (ix2 p (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      rw [hbd0]
    | ⟨1, _⟩ =>
      unfold GatherDims.siIdx
      rw [dif_pos (by rw [hivd])]
      apply Fin.ext
      show List.idxOf (0 : Fin 2) d.startIndexMap = 0
      rw [hsim]; simp
  | ⟨1, _⟩ =>
    -- the column axis: kept, not start-indexed, so the operand's column is the result's offset coordinate
    have hk : (1 : Fin 2) ∈ d.sKept := by rw [hsk]; simp
    have hm : (1 : Fin 2) ∉ d.startIndexMap := by rw [hsim]; simp
    show (d.operandIdx (ix2 p c) idx (1 : Fin 2)).val = c.val
    simp only [GatherDims.operandIdx, GatherDims.batchCoord_eq_zero _ _ _ (hb 1),
      Nat.add_zero, GatherDims.start, dif_neg hm, Nat.zero_add]
    unfold GatherDims.offCoord
    rw [dif_pos hk, hod0]

end Cert.Reads

end
-- ==== Proof.PoolAlgebra.lean ====
/-
  The algebra that joins the two programs, over abstract finite index types.

  One relation of the graph (word→doc or topic→doc) is a family of edges `e`, each with a source node `es e`, a
  destination doc `ed e = (g, j)` (graph `g`, doc `j` inside the graph), and the source node's row `nv (es e)` of an
  embedding table `T`. With `ro` the source-side and `ri` the destination-side degree scale, `W` a dense layer and `b` its
  bias, the reference forms, per doc `d`,
      relR d h = (∑ k, (∑ e with ed e = d, T (nv (es e)) k * ro (es e)) * W k h) * ri d + b h
  and then averages over the `n` docs of a graph, while the kernel first pools the edge coefficients of a graph per
  table row,
      M g v = ∑ e with (ed e).1 = g and nv (es e) = v, ro (es e) * ri (ed e),
  contracts `M` with the table, divides by `n`, and only then applies the dense layer:
      relK g h = (∑ k, ((∑ v, M g v * T v k) / n) * W k h) + b h.
  Over the reals both are  (1/n) ∑_{e in graph g} ro ri ∑ k T (nv (es e)) k W k h  +  b h : the scales, the layer and
  the mean are linear and commute with the sum over edges; the bias is averaged over `n` equal copies. On the extended
  reals the same holds when every entry is a real number, which is how it is stated here.
-/
import Idealize.ShloMosaic.PureOps.Ideal

noncomputable section

namespace Cert.Pool

open Idealize.ShloMosaic
open scoped BigOperators

variable {E G J V K H : Type} [Fintype E] [Fintype J] [Fintype V] [Fintype K]
  [DecidableEq G] [DecidableEq J] [DecidableEq V]

/-- The kernel's arrangement of one relation at graph `g`, output column `h`: the edge coefficients pooled per graph and
    table row, contracted with the table, divided by the docs per graph, then the dense layer and the bias. -/
def relK (coef : E → EReal) (eg : E → G) (ev : E → V) (T : V → K → EReal) (W : K → H → EReal) (b : H → EReal)
    (n : EReal) (g : G) (h : H) : EReal :=
  (∑ k, Ideal.div (∑ v, (∑ e ∈ Finset.univ.filter (fun e => eg e = g ∧ ev e = v), coef e) * T v k) n * W k h) + b h

/-- The reference's arrangement of one relation at doc `d`, output column `h`: the scaled source rows summed per doc,
    the dense layer, the destination scale, the bias. -/
def relR (x : E → K → EReal) (ed : E → G × J) (ri : G × J → EReal) (W : K → H → EReal) (b : H → EReal)
    (d : G × J) (h : H) : EReal :=
  (∑ k, (∑ e ∈ Finset.univ.filter (fun e => ed e = d), x e k) * W k h) * ri d + b h

/-- A finite sum of coerced reals is the coercion of the real sum. -/
theorem coe_sum {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The kernel's arrangement written over the reals; the division by `n` is the product with `1 / n`. -/
def relKr (coef : E → ℝ) (eg : E → G) (ev : E → V) (T : V → K → ℝ) (W : K → H → ℝ) (b : H → ℝ)
    (n : ℝ) (g : G) (h : H) : ℝ :=
  (∑ k, (∑ v, (∑ e ∈ Finset.univ.filter (fun e => eg e = g ∧ ev e = v), coef e) * T v k) * (1 / n) * W k h) + b h

/-- The reference's arrangement written over the reals. -/
def relRr (x : E → K → ℝ) (ed : E → G × J) (ri : G × J → ℝ) (W : K → H → ℝ) (b : H → ℝ)
    (d : G × J) (h : H) : ℝ :=
  (∑ k, (∑ e ∈ Finset.univ.filter (fun e => ed e = d), x e k) * W k h) * ri d + b h

/-- On real entries and a nonzero real divisor the kernel's arrangement is the coercion of its real form. -/
theorem relK_coe (coef : E → ℝ) (eg : E → G) (ev : E → V) (T : V → K → ℝ) (W : K → H → ℝ) (b : H → ℝ)
    {n : ℝ} (hn0 : n ≠ 0) (g : G) (h : H) :
    relK (fun e => (coef e : EReal)) eg ev (fun v k => (T v k : EReal)) (fun k h => (W k h : EReal))
        (fun h => (b h : EReal)) (n : EReal) g h
      = ((relKr coef eg ev T W b n g h : ℝ) : EReal) := by
  unfold relK relKr
  simp only [coe_sum, ← EReal.coe_mul, ← EReal.coe_add, Ideal.div_coe hn0]

/-- On real entries the reference's arrangement is the coercion of its real form. -/
theorem relR_coe (x : E → K → ℝ) (ed : E → G × J) (ri : G × J → ℝ) (W : K → H → ℝ) (b : H → ℝ)
    (d : G × J) (h : H) :
    relR (fun e k => (x e k : EReal)) ed (fun d => (ri d : EReal)) (fun k h => (W k h : EReal))
        (fun h => (b h : EReal)) d h
      = ((relRr x ed ri W b d h : ℝ) : EReal) := by
  unfold relR relRr
  simp only [coe_sum, ← EReal.coe_mul, ← EReal.coe_add]

/-- Pooling per table row and then contracting with the row's entry is the sum over the graph's edges of the
    coefficient times the entry of the edge's own row: the edges of a graph split by the row of their source. -/
theorem sum_pool_rows (c : E → ℝ) (eg : E → G) (ev : E → V) (t : V → ℝ) (g : G) :
    ∑ v, (∑ e ∈ Finset.univ.filter (fun e => eg e = g ∧ ev e = v), c e) * t v
      = ∑ e ∈ Finset.univ.filter (fun e => eg e = g), c e * t (ev e) := by
  rw [← Finset.sum_fiberwise (Finset.univ.filter (fun e => eg e = g)) ev (fun e => c e * t (ev e))]
  refine Finset.sum_congr rfl (fun v _ => ?_)
  rw [Finset.sum_mul, Finset.filter_filter]
  refine Finset.sum_congr rfl (fun e he => ?_)
  rw [(Finset.mem_filter.mp he).2.2]

/-- The edges into the docs of graph `g` are the disjoint union over the docs `j` of the edges into `(g, j)`. -/
theorem sum_graph_docs (ed : E → G × J) (f : E → ℝ) (g : G) :
    ∑ j, ∑ e ∈ Finset.univ.filter (fun e => ed e = (g, j)), f e
      = ∑ e ∈ Finset.univ.filter (fun e => (ed e).1 = g), f e := by
  rw [← Finset.sum_fiberwise (Finset.univ.filter (fun e => (ed e).1 = g)) (fun e => (ed e).2) f]
  refine Finset.sum_congr rfl (fun j _ => ?_)
  refine Finset.sum_congr ?_ (fun _ _ => rfl)
  ext e
  simp only [Finset.mem_filter, Finset.mem_univ, true_and]
  constructor
  · intro he
    rw [he]
    exact ⟨rfl, rfl⟩
  · rintro ⟨h1, h2⟩
    exact Prod.ext h1 h2

/-- One relation over the reals: the kernel's pooled arrangement is the mean over the graph's docs of the reference's
    per-doc arrangement. Both are `(1/n) ∑ k, (∑_{e into g} ro ri T) W + b`. -/
theorem rel_real {N : Type} (es : E → N) (ed : E → G × J) (nv : N → V) (ro : N → ℝ) (ri : G × J → ℝ)
    (T : V → K → ℝ) (W : K → H → ℝ) (b : H → ℝ)
    (n : ℝ) (hn : n = (Fintype.card J : ℝ)) (hn0 : n ≠ 0) (g : G) (h : H) :
    relKr (fun e => ro (es e) * ri (ed e)) (fun e => (ed e).1) (fun e => nv (es e)) T W b n g h
      = (∑ j : J, relRr (fun e k => T (nv (es e)) k * ro (es e)) ed ri W b (g, j) h) * (1 / n) := by
  -- the reference's per-doc values summed over the docs of the graph
  have hR : (∑ j : J, relRr (fun e k => T (nv (es e)) k * ro (es e)) ed ri W b (g, j) h)
      = (∑ k, (∑ e ∈ Finset.univ.filter (fun e => (ed e).1 = g),
            ro (es e) * ri (ed e) * T (nv (es e)) k) * W k h) + n * b h := by
    unfold relRr
    rw [Finset.sum_add_distrib, Finset.sum_const, Finset.card_univ, nsmul_eq_mul, ← hn]
    congr 1
    calc ∑ j : J, (∑ k, (∑ e ∈ Finset.univ.filter (fun e => ed e = (g, j)), T (nv (es e)) k * ro (es e)) * W k h)
              * ri (g, j)
        = ∑ j : J, ∑ k, (∑ e ∈ Finset.univ.filter (fun e => ed e = (g, j)),
              ro (es e) * ri (ed e) * T (nv (es e)) k) * W k h := by
          refine Finset.sum_congr rfl (fun j _ => ?_)
          rw [Finset.sum_mul]
          refine Finset.sum_congr rfl (fun k _ => ?_)
          rw [mul_right_comm, Finset.sum_mul]
          congr 1
          refine Finset.sum_congr rfl (fun e he => ?_)
          rw [(Finset.mem_filter.mp he).2]
          ring
      _ = ∑ k, ∑ j : J, (∑ e ∈ Finset.univ.filter (fun e => ed e = (g, j)),
              ro (es e) * ri (ed e) * T (nv (es e)) k) * W k h := Finset.sum_comm
      _ = ∑ k, (∑ e ∈ Finset.univ.filter (fun e => (ed e).1 = g),
              ro (es e) * ri (ed e) * T (nv (es e)) k) * W k h := by
          refine Finset.sum_congr rfl (fun k _ => ?_)
          rw [← Finset.sum_mul, sum_graph_docs]
  rw [hR]
  unfold relKr
  rw [add_mul, Finset.sum_mul]
  congr 1
  · refine Finset.sum_congr rfl (fun k _ => ?_)
    rw [sum_pool_rows (fun e => ro (es e) * ri (ed e)) (fun e => (ed e).1) (fun e => nv (es e))
      (fun v => T v k) g]
    ring
  · field_simp

/-- THE IDENTITY, for two relations into the same docs: the kernel's two pooled relations added are the reference's
    per-doc sum of the two relations averaged over the docs of the graph, when every entry is a real number and `n` is the
    number of docs per graph. -/
theorem pool_eq
    {E₁ E₂ N₁ N₂ V₁ V₂ K₁ K₂ : Type} [Fintype E₁] [Fintype E₂] [Fintype V₁] [Fintype V₂] [Fintype K₁] [Fintype K₂]
    [DecidableEq V₁] [DecidableEq V₂]
    (es₁ : E₁ → N₁) (ed₁ : E₁ → G × J) (nv₁ : N₁ → V₁) (ro₁ : N₁ → ℝ) (ri₁ : G × J → ℝ) (T₁ : V₁ → K₁ → ℝ)
    (W₁ : K₁ → H → ℝ) (b₁ : H → ℝ)
    (es₂ : E₂ → N₂) (ed₂ : E₂ → G × J) (nv₂ : N₂ → V₂) (ro₂ : N₂ → ℝ) (ri₂ : G × J → ℝ) (T₂ : V₂ → K₂ → ℝ)
    (W₂ : K₂ → H → ℝ) (b₂ : H → ℝ)
    (n : ℝ) (hn : n = (Fintype.card J : ℝ)) (hn0 : n ≠ 0) (g : G) (h : H) :
    relK (fun e => (ro₁ (es₁ e) : EReal) * (ri₁ (ed₁ e) : EReal)) (fun e => (ed₁ e).1) (fun e => nv₁ (es₁ e))
        (fun v k => (T₁ v k : EReal)) (fun k h => (W₁ k h : EReal)) (fun h => (b₁ h : EReal)) (n : EReal) g h
      + relK (fun e => (ro₂ (es₂ e) : EReal) * (ri₂ (ed₂ e) : EReal)) (fun e => (ed₂ e).1) (fun e => nv₂ (es₂ e))
        (fun v k => (T₂ v k : EReal)) (fun k h => (W₂ k h : EReal)) (fun h => (b₂ h : EReal)) (n : EReal) g h
    = Ideal.div (∑ j : J,
        (relR (fun e k => (T₁ (nv₁ (es₁ e)) k : EReal) * (ro₁ (es₁ e) : EReal)) ed₁ (fun d => (ri₁ d : EReal))
            (fun k h => (W₁ k h : EReal)) (fun h => (b₁ h : EReal)) (g, j) h
          + relR (fun e k => (T₂ (nv₂ (es₂ e)) k : EReal) * (ro₂ (es₂ e) : EReal)) ed₂ (fun d => (ri₂ d : EReal))
            (fun k h => (W₂ k h : EReal)) (fun h => (b₂ h : EReal)) (g, j) h)) (n : EReal) := by
  simp only [← EReal.coe_mul]
  rw [relK_coe _ _ _ _ _ _ hn0, relK_coe _ _ _ _ _ _ hn0]
  simp only [relR_coe, ← EReal.coe_add, coe_sum]
  rw [Ideal.div_coe hn0, ← EReal.coe_mul, EReal.coe_eq_coe_iff]
  rw [rel_real es₁ ed₁ nv₁ ro₁ ri₁ T₁ W₁ b₁ n hn hn0 g h, rel_real es₂ ed₂ nv₂ ro₂ ri₂ T₂ W₂ b₂ n hn hn0 g h,
    Finset.sum_add_distrib, add_mul]

end Cert.Pool

end
-- ==== Proof.GraphData.lean ====
/-
  The graph both programs compute over, read off the argument arrays.

  A relation has `nE` edges, `nN` source nodes and a table of `nV` rows. Edge `e`'s SOURCE NODE is its source id
  normalised as jnp indexing does (a negative id counts from the end) and clamped into the node range; a node's TABLE
  ROW is its id normalised and clamped the same way; an edge's DOC is its destination id split as (graph, doc in the
  graph) = (id / 512, id % 512), for ids in `0 … 16383`. The source-side scale of a node and the destination-side scale
  of a doc are `rsqrt (max 1 (number of edges whose raw id is that node))`: the count is a sum of ones over the edges
  whose id, read signed, is exactly the node (an id outside the range counts nowhere).
  `kRel` and `rRel` are the kernel's and the reference's arrangement of one relation (PoolAlgebra) over these.
-/
import proofs.«404497_j45732811768428_3_alg».proof.Proof.IndexReads
import proofs.«404497_j45732811768428_3_alg».proof.Proof.PoolAlgebra

noncomputable section

namespace Cert.Graph

open Idealize.ShloMosaic Idealize.ShloMosaic.ValueIdx Cert.Reads
open scoped BigOperators

/-! ## Words -/

/-- jnp's normalisation of one index word against an axis of extent `N`: a negative index counts from the end. -/
def wrapW (N x : BitVec 32) : BitVec 32 := Scalar.select (IntOp.cmpi .slt x 0#32) (IntOp.addi x N) x

/-- The position an index word names on an axis of extent `N`: normalised, then clamped. -/
def nodeOf (N : Nat) (hN : 0 < N) (x : BitVec 32) : Fin N := clampIdx N hN (wrapW (BitVec.ofNat 32 N) x)

/-- A one-bit word built from a Boolean is 1 exactly when the Boolean is true. -/
theorem ofBool_eq_one (b : Bool) : BitVec.ofBool b = 1#1 ↔ b = true := by cases b <;> decide

/-- A word that reads nonnegative is left as it is by the normalisation. -/
theorem wrapW_of_nonneg (N x : BitVec 32) (h0 : 0 ≤ x.toInt) : wrapW N x = x := by
  have hc : ¬ (IntOp.cmpi .slt x 0#32 = 1) := by
    show ¬ (BitVec.ofBool (x.slt 0#32) = 1#1)
    rw [ofBool_eq_one, BitVec.slt_iff_toInt_lt, show (0#32 : BitVec 32).toInt = 0 from by decide]
    omega
  unfold wrapW Scalar.select
  exact if_neg hc

/-- An index word in range names its own value. -/
theorem nodeOf_val (N : Nat) (hN : 0 < N) (hN' : N < 2 ^ 31) (x : BitVec 32) (h0 : 0 ≤ x.toInt) (h1 : x.toInt < N) :
    (nodeOf N hN x).val = x.toInt.toNat := by
  unfold nodeOf
  rw [wrapW_of_nonneg _ _ h0]
  exact clampIdx_of_lt N hN x h0 h1

/-- A doc id as (graph, doc in the graph). -/
def docOf (x : BitVec 32) : Fin 32 × Fin 512 :=
  (⟨x.toInt.toNat / 512 % 32, Nat.mod_lt _ (by decide)⟩, ⟨x.toInt.toNat % 512, Nat.mod_lt _ (by decide)⟩)

/-- The doc id of (graph, doc in the graph). -/
def docIx (d : Fin 32 × Fin 512) : Fin 16384 := ⟨d.1.val * 512 + d.2.val, by have := d.1.isLt; have := d.2.isLt; omega⟩

theorem docOf_eq_iff (x : BitVec 32) (h0 : 0 ≤ x.toInt) (h1 : x.toInt < 16384) (d : Fin 32 × Fin 512) :
    docOf x = d ↔ x.toInt = ((docIx d).val : Int) := by
  obtain ⟨⟨a, ha⟩, ⟨b, hb⟩⟩ := d
  have hx : ((x.toInt.toNat : Nat) : Int) = x.toInt := Int.toNat_of_nonneg h0
  simp only [docOf, docIx, Prod.mk.injEq, Fin.mk.injEq]
  omega

theorem docOf_fst_val (x : BitVec 32) (h0 : 0 ≤ x.toInt) (h1 : x.toInt < 16384) : (docOf x).1.val = x.toInt.toNat / 512 := by
  have hx : ((x.toInt.toNat : Nat) : Int) = x.toInt := Int.toNat_of_nonneg h0
  show x.toInt.toNat / 512 % 32 = x.toInt.toNat / 512
  omega

/-- A doc id in range, normalised and clamped, is the doc it names. -/
theorem nodeOf_doc (x : BitVec 32) (h0 : 0 ≤ x.toInt) (h1 : x.toInt < 16384) :
    nodeOf 16384 (by decide) x = docIx (docOf x) := by
  have hx : ((x.toInt.toNat : Nat) : Int) = x.toInt := Int.toNat_of_nonneg h0
  apply Fin.ext
  rw [nodeOf_val 16384 (by decide) (by norm_num) x h0 h1]
  show x.toInt.toNat = x.toInt.toNat / 512 % 32 * 512 + x.toInt.toNat % 512
  omega

/-! ## The degree scale -/

/-- `rsqrt (max 1 (0 + the number of ids equal to i))`, the float constants as the programs print them. -/
def degScale {n : Nat} (N : Nat) (idx : Fin n → BitVec 32) (i : Fin N) : EReal :=
  Ideal.rsqrt (max (Ideal.ofBits .f32 0x3F800000#32)
    (Ideal.ofBits .f32 0x00000000#32
      + ∑ _j ∈ Finset.univ.filter (fun j : Fin n => (idx j).toInt = (i.val : Int)), Ideal.ofBits .f32 0x3F800000#32))

/-- The f32 pattern `0x3F800000` denotes 1. -/
theorem one_bits : Ideal.ofBits .f32 0x3F800000#32 = ((1 : ℝ) : EReal) := by
  simp [Ideal.ofBits, Ideal.ieee, -EReal.coe_mul]; norm_num

/-- The f32 pattern of all zeros denotes 0. -/
theorem zero_bits : Ideal.ofBits .f32 0x00000000#32 = (0 : EReal) := by simp [Ideal.ofBits, Ideal.ieee]

/-- A sum of ones over a finite set is the number of its elements. -/
theorem sum_ones {ι : Type} (S : Finset ι) : ∑ _j ∈ S, ((1 : ℝ) : EReal) = (((S.card : ℕ) : ℝ) : EReal) := by
  classical
  induction S using Finset.induction_on with
  | empty => simp
  | insert a S ha ih =>
    rw [Finset.sum_insert ha, ih, Finset.card_insert_of_notMem ha, ← EReal.coe_add]
    congr 1
    push_cast
    ring

/-- The larger of 1 and a real number, taken among the extended reals, is a real number that is at least 1. -/
theorem max_one_coe (c : ℝ) : max ((1 : ℝ) : EReal) ((c : ℝ) : EReal) = ((max 1 c : ℝ) : EReal) := by
  rcases le_total (1 : ℝ) c with h | h
  · rw [max_eq_right h, max_eq_right (EReal.coe_le_coe_iff.2 h)]
  · rw [max_eq_left h, max_eq_left (EReal.coe_le_coe_iff.2 h)]

/-- The reciprocal square root of a positive real number is a real number. -/
theorem rsqrt_coe_pos (r : ℝ) (hr : 0 < r) : Ideal.rsqrt ((r : ℝ) : EReal) = (((Real.sqrt r)⁻¹ : ℝ) : EReal) := by
  rw [Ideal.rsqrt_coe, if_neg (not_lt.2 hr.le), if_neg hr.ne']

/-- It is a real number. -/
theorem degScale_real {n : Nat} (N : Nat) (idx : Fin n → BitVec 32) (i : Fin N) : ∃ r : ℝ, degScale N idx i = ((r : ℝ) : EReal) := by
  unfold degScale
  rw [one_bits, zero_bits, sum_ones, zero_add, max_one_coe,
    rsqrt_coe_pos _ (lt_of_lt_of_le one_pos (le_max_left _ _))]
  exact ⟨_, rfl⟩

/-- The docs per graph, as the programs print it. -/
def n512 : EReal := Ideal.ofBits .f32 0x44000000#32

theorem n512_eq : n512 = (((512 : ℝ)) : EReal) := by
  simp [n512, Ideal.ofBits, Ideal.ieee, -EReal.coe_mul]; norm_num

theorem ofBits_zero : Ideal.ofBits .f32 0x00000000#32 = (0 : EReal) := by
  exact zero_bits

/-! ## One relation over the argument arrays -/

section Rel

variable {nE nN nV : Nat} (hN : 0 < nN) (hV : 0 < nV)
  (ids : IVec ⟨1, ![nN]⟩ 32) (src dst : IVec ⟨1, ![nE]⟩ 32)
  (T : FVec Ideal ⟨2, ![nV, 128]⟩ .f32) (W : FVec Ideal ⟨2, ![128, 128]⟩ .f32) (b : FVec Ideal ⟨1, ![128]⟩ .f32)

/-- Edge `e`'s source node. -/
def esOf (e : Fin nE) : Fin nN := nodeOf nN hN (src (ix1 e))
/-- Node `n`'s table row. -/
def nvOf (n : Fin nN) : Fin nV := nodeOf nV hV (ids (ix1 n))
/-- Edge `e`'s doc. -/
def edOf (e : Fin nE) : Fin 32 × Fin 512 := docOf (dst (ix1 e))
/-- The source-side scale of node `n`. -/
def roOf (n : Fin nN) : EReal := degScale nN (fun j : Fin nE => src (ix1 j)) n
/-- The destination-side scale of doc `d`. -/
def riOf (d : Fin 32 × Fin 512) : EReal := degScale 16384 (fun j : Fin nE => dst (ix1 j)) (docIx d)

/-- The kernel's arrangement of the relation at graph `g`, column `h`. -/
def kRel (g : Fin 32) (h : Fin 128) : EReal :=
  Cert.Pool.relK (fun e : Fin nE => roOf (nN := nN) src (esOf hN src e) * riOf dst (edOf dst e))
    (fun e => (edOf dst e).1) (fun e => nvOf hV ids (esOf hN src e))
    (fun (v : Fin nV) (k : Fin 128) => T (ix2 v k)) (fun (k h : Fin 128) => W (ix2 k h)) (fun h : Fin 128 => b (ix1 h)) n512 g h

/-- The reference's arrangement of the relation at doc `d`, column `h`. -/
def rRel (d : Fin 32 × Fin 512) (h : Fin 128) : EReal :=
  Cert.Pool.relR (fun (e : Fin nE) (k : Fin 128) => T (ix2 (nvOf hV ids (esOf hN src e)) k) * roOf (nN := nN) src (esOf hN src e))
    (edOf dst) (riOf dst) (fun (k h : Fin 128) => W (ix2 k h)) (fun h : Fin 128 => b (ix1 h)) d h

end Rel

end Cert.Graph

end
-- ==== Proof.KernelWords.lean ====
/-
  Element-level facts for reading the kernel's host program at an index.

  Words: the printed floor division by 512 of a doc id in `0 … 16383` is the plain quotient; the flat position
  (quotient) · C + (row id) does not wrap and determines the pair (graph, row). Layout: a zero padding on the high side of
  one axis of a matrix reads the operand inside and the fill value outside; a row-major reshape of a vector of R · n
  entries to R × n reads entry g · n + v at (g, v); a sum over m indices whose terms vanish from n on is the sum over
  the first n.
  One relation: the degree scale as an accumulating scatter of ones, clipped and inverted; a table gathered through the
  normalised id column; the coefficient matrix as the accumulating scatter at the flat positions, reshaped; the product of
  the zero-padded operands.
-/
import proofs.«404497_j45732811768428_3_alg».proof.Proof.GraphData
import Idealize.ShloMosaic.Lib.KernelVsHost

noncomputable section

namespace Cert.KStage

open Idealize.ShloMosaic Idealize.ShloMosaic.ValueIdx Cert.Reads Cert.Graph
open scoped BigOperators

/-! ## Words -/

/-- The sign word of an integer word: 0, −1 or 1. -/
abbrev signW (w : BitVec 32) : BitVec 32 := if w = 0 then 0 else if w.msb then -1 else 1

/-- A word that reads signed in `0 … 16383` reads the same unsigned. -/
theorem toNat_of_small (x : BitVec 32) (h0 : 0 ≤ x.toInt) (h1 : x.toInt < 16384) :
    x.toNat < 16384 ∧ x.toInt.toNat = x.toNat := by
  have h := BitVec.toInt_eq_toNat_cond x
  split at h <;> omega

/-- The printed floor division by 512 (quotient toward zero, corrected by one when the signs differ and the remainder is
    not zero) of a doc id in `0 … 16383`: the signs never differ there, so it is the plain quotient. -/
theorem floorDiv512 (x : BitVec 32) (h0 : 0 ≤ x.toInt) (h1 : x.toInt < 16384) :
    Scalar.select
        (IntOp.andi (IntOp.cmpi .ne (signW x) (signW 512#32)) (IntOp.cmpi .ne (IntOp.remsi .host x 512#32) 0#32))
        (IntOp.subi (IntOp.divsi .host x 512#32) 1#32) (IntOp.divsi .host x 512#32)
      = BitVec.ofNat 32 (x.toInt.toNat / 512) := by
  obtain ⟨hlt, hnat⟩ := toNat_of_small x h0 h1
  have hm : x.msb = false := BitVec.msb_eq_false_iff_two_mul_lt.mpr (by omega)
  have hcorner : ¬ IntOp.SDivCorner x 512#32 := by
    intro hc; rcases hc with hc | ⟨_, hc⟩ <;> exact absurd hc (by decide)
  -- the quotient toward zero is the quotient of the values
  have hdiv : IntOp.divsi .host x 512#32 = BitVec.ofNat 32 (x.toInt.toNat / 512) := by
    apply BitVec.eq_of_toNat_eq
    simp only [IntOp.divsi, if_neg hcorner, BitVec.sdiv_eq, hm, show (512#32 : BitVec 32).msb = false from by decide,
      BitVec.udiv_eq, BitVec.toNat_udiv, BitVec.toNat_ofNat]
    rw [hnat, show (512 % 2 ^ 32 : Nat) = 512 from by norm_num]
    omega
  -- the condition is off: the word is zero (remainder zero) or positive (same sign as 512)
  have hcond : IntOp.andi (IntOp.cmpi .ne (signW x) (signW 512#32)) (IntOp.cmpi .ne (IntOp.remsi .host x 512#32) 0#32) = 0#1 := by
    by_cases hx : x = (0 : BitVec 32)
    · subst hx; decide
    · have hs : signW x = 1#32 := by
        show (if x = 0 then (0 : BitVec 32) else if x.msb then -1 else 1) = 1#32
        rw [if_neg hx, hm]; rfl
      rw [hs]
      have : IntOp.cmpi .ne (1#32 : BitVec 32) (signW 512#32) = 0#1 := by decide
      rw [this]
      show (0#1 : BitVec 1) &&& _ = 0#1
      exact BitVec.zero_and
  rw [hcond, hdiv]
  rfl

/-- Positions in rows of length `C` determine the row and the place in the row. -/
theorem flat_inj {C a b p q : Nat} (hp : p < C) (hq : q < C) : a * C + p = b * C + q ↔ a = b ∧ p = q := by
  constructor
  · intro h
    have hC : 0 < C := by omega
    have h1 : (a * C + p) / C = a := by
      rw [Nat.add_comm, Nat.add_mul_div_right _ _ hC, Nat.div_eq_of_lt hp, Nat.zero_add]
    have h2 : (b * C + q) / C = b := by
      rw [Nat.add_comm, Nat.add_mul_div_right _ _ hC, Nat.div_eq_of_lt hq, Nat.zero_add]
    have hab : a = b := by rw [← h1, ← h2, h]
    subst hab
    exact ⟨rfl, by omega⟩
  · rintro ⟨rfl, rfl⟩; rfl

/-- The flat position `a · C + v` computed on words does not wrap while it stays below 2³¹. -/
theorem flat_toInt (a C : Nat) (v : BitVec 32) (ha : a < 2 ^ 31) (hC : C < 2 ^ 31) (h0 : 0 ≤ v.toInt) (h1 : v.toInt < C)
    (hb : a * C + C ≤ 2 ^ 31) :
    (IntOp.addi (IntOp.muli (BitVec.ofNat 32 a) (BitVec.ofNat 32 C)) v).toInt = ((a * C + v.toInt.toNat : Nat) : Int) := by
  have hv := BitVec.toInt_eq_toNat_cond v
  have hvn : v.toNat < C ∧ v.toInt.toNat = v.toNat := by split at hv <;> omega
  have hnat : (IntOp.addi (IntOp.muli (BitVec.ofNat 32 a) (BitVec.ofNat 32 C)) v).toNat = a * C + v.toNat := by
    show (BitVec.ofNat 32 a * BitVec.ofNat 32 C + v).toNat = _
    simp only [BitVec.toNat_add, BitVec.toNat_mul, BitVec.toNat_ofNat]
    rw [Nat.mod_eq_of_lt (by omega : a < 2 ^ 32), Nat.mod_eq_of_lt (by omega : C < 2 ^ 32),
      Nat.mod_eq_of_lt (by omega : a * C < 2 ^ 32)]
    exact Nat.mod_eq_of_lt (by omega)
  rw [StableHlo.Predicate.toInt_eq_toNat_of_lt (by rw [hnat]; omega), hnat, hvn.2]

/-- The flat position of (doc id / 512, row id) is `g' · C + v'` exactly when the doc is in graph `g'` and the row is `v'`. -/
theorem flat_eq_iff (C : Nat) (hC : C ≤ 15000) (x v : BitVec 32) (hx0 : 0 ≤ x.toInt) (hx1 : x.toInt < 16384)
    (hv0 : 0 ≤ v.toInt) (hv1 : v.toInt < C) (g' : Fin 32) (v' : Fin C) :
    (IntOp.addi (IntOp.muli (BitVec.ofNat 32 (x.toInt.toNat / 512)) (BitVec.ofNat 32 C)) v).toInt
        = ((g'.val * C + v'.val : Nat) : Int)
      ↔ (docOf x).1 = g' ∧ v.toInt.toNat = v'.val := by
  have hq : x.toInt.toNat / 512 < 32 := by omega
  have hmul : x.toInt.toNat / 512 * C ≤ 31 * C := Nat.mul_le_mul_right C (by omega)
  rw [flat_toInt _ C v (by omega) (by omega) hv0 hv1 (by omega), Int.ofNat_inj,
    flat_inj (by omega : v.toInt.toNat < C) v'.isLt, Fin.ext_iff, docOf_fst_val x hx0 hx1]

/-! ## Layout -/

/-- A matrix padded with `v` after its last column, read at (g, c): the operand inside, `v` outside. -/
theorem pad_cols_apply {α : Type} {R n m : Nat} (hi : Fin 2 → Nat) (x : (⟨2, ![R, n]⟩ : Shape).Idx → α) {u : Shape}
    (v : u.Idx → α) (hp : (⟨2, ![R, n]⟩ : Shape).Pads (![0, 0] : Fin 2 → Nat) hi ![0, 0] ⟨2, ![R, m]⟩) (hu : 0 < u.numel)
    (g : Fin R) (c : Fin m) :
    pad ⟨2, ![R, m]⟩ (![0, 0] : Fin 2 → Nat) hi ![0, 0] x v hp hu (ix2 g c)
      = if h : c.val < n then x (ix2 g ⟨c.val, h⟩) else v (Shape.Idx.first hu) := by
  split
  · rename_i h
    refine pad_apply_of_inside _ _ _ x v hp hu _ (ix2 g ⟨c.val, h⟩) ?_
    intro a
    match a with
    | ⟨0, _⟩ => show g.val = 0 + g.val * (0 + 1); omega
    | ⟨1, _⟩ => show c.val = 0 + c.val * (0 + 1); omega
  · rename_i h
    refine pad_apply_of_not_inside _ _ _ x v hp hu _ (1 : Fin 2) ?_
    rintro ⟨_, _, h3⟩
    apply h
    have h3' : (c.val - 0) / (0 + 1) < n := h3
    simpa using h3'

/-- A matrix padded with `v` after its last row, read at (r, k): the operand inside, `v` outside. -/
theorem pad_rows_apply {α : Type} {n m K : Nat} (hi : Fin 2 → Nat) (x : (⟨2, ![n, K]⟩ : Shape).Idx → α) {u : Shape}
    (v : u.Idx → α) (hp : (⟨2, ![n, K]⟩ : Shape).Pads (![0, 0] : Fin 2 → Nat) hi ![0, 0] ⟨2, ![m, K]⟩) (hu : 0 < u.numel)
    (r : Fin m) (k : Fin K) :
    pad ⟨2, ![m, K]⟩ (![0, 0] : Fin 2 → Nat) hi ![0, 0] x v hp hu (ix2 r k)
      = if h : r.val < n then x (ix2 ⟨r.val, h⟩ k) else v (Shape.Idx.first hu) := by
  split
  · rename_i h
    refine pad_apply_of_inside _ _ _ x v hp hu _ (ix2 ⟨r.val, h⟩ k) ?_
    intro a
    match a with
    | ⟨0, _⟩ => show r.val = 0 + r.val * (0 + 1); omega
    | ⟨1, _⟩ => show k.val = 0 + k.val * (0 + 1); omega
  · rename_i h
    refine pad_apply_of_not_inside _ _ _ x v hp hu _ (0 : Fin 2) ?_
    rintro ⟨_, _, h3⟩
    apply h
    have h3' : (r.val - 0) / (0 + 1) < n := h3
    simpa using h3'

/-- The padding value the program prints, the integer 0 converted, is the real number 0. -/
theorem fill_zero (i : (⟨0, ![]⟩ : Shape).Idx) :
    (sitofp .f32 (constantI ⟨0, ![]⟩ 32 0#32) : FVec Ideal ⟨0, ![]⟩ .f32) i = 0 := by
  show ((((0#32 : BitVec 32).toInt : ℝ)) : EReal) = 0
  rw [show (0#32 : BitVec 32).toInt = 0 from by decide]
  simp

/-- Position (g, v) of R rows of length n, counted row by row, is below R · n. -/
theorem flat_lt {R n : Nat} (g : Fin R) (v : Fin n) : g.val * n + v.val < R * n := by
  have h1 : (g.val + 1) * n ≤ R * n := Nat.mul_le_mul_right n g.isLt
  rw [Nat.add_mul] at h1
  have := v.isLt
  omega

/-- A vector of R · n entries reshaped to R × n, read at (g, v): entry g · n + v. -/
theorem reshape_rows_apply {α : Type} {N R n : Nat} (hN : N = R * n) (x : (⟨1, ![N]⟩ : Shape).Idx → α)
    (h : (⟨1, ![N]⟩ : Shape).ShapeCasts ⟨2, ![R, n]⟩) (g : Fin R) (v : Fin n) :
    shapeCast ⟨2, ![R, n]⟩ x h (ix2 g v) = x (ix1 ⟨g.val * n + v.val, hN ▸ flat_lt g v⟩) := by
  refine shapeCast_apply x h (ix2 g v) (ix1 ⟨g.val * n + v.val, hN ▸ flat_lt g v⟩) ?_
  rw [Shape.rowMajor_val_one, Shape.rowMajor_val_two]
  rfl

/-- A sum over m indices whose terms vanish from index n on is the sum over the first n. -/
theorem sum_pad_zero {M : Type} [AddCommMonoid M] {n m : Nat} (hnm : n ≤ m) (f : Fin m → M)
    (hz : ∀ i : Fin m, n ≤ i.val → f i = 0) : ∑ i, f i = ∑ i : Fin n, f (Fin.castLE hnm i) := by
  obtain ⟨k, rfl⟩ := Nat.exists_eq_add_of_le hnm
  have h2 : ∑ i : Fin k, f (Fin.natAdd n i) = 0 := Finset.sum_eq_zero (fun i _ => hz _ (by simp))
  rw [Fin.sum_univ_add, h2, add_zero]
  exact Finset.sum_congr rfl (fun i _ => congrArg f (Fin.ext rfl))

/-! ## The plain matrix contraction -/

/-- A contraction whose dimension numbers are the plain matrix product's (rows × inner times inner × columns), summed
    over the inner coordinate: at (r, h) it is ∑ k, A (r, k) · B (k, h). -/
theorem dot_sum_plain {R K H : Nat} (D : DotDims ⟨2, ![R, K]⟩ ⟨2, ![K, H]⟩ ⟨2, ![R, H]⟩)
    (hlc : D.lhsContracting = [1]) (hrc : D.rhsContracting = [0]) (hln : D.lhsNonContracting = [0])
    (hrn : D.rhsNonContracting = [1]) (hlb : D.lhsBatch = []) (hrb : D.rhsBatch = [])
    (A : (⟨2, ![R, K]⟩ : Shape).Idx → EReal) (B : (⟨2, ![K, H]⟩ : Shape).Idx → EReal) (r : Fin R) (h : Fin H) :
    ∑ k : D.contr.Idx, A (D.lhsIdx (ix2 r h) k) * B (D.rhsIdx (ix2 r h) k) = ∑ k : Fin K, A (ix2 r k) * B (ix2 k h) := by
  have hr : D.contr.rank = 1 := by rw [D.rank_contr, hlc]; rfl
  have hs : D.contr.size ⟨0, by omega⟩ = K := by
    rw [D.size_contr 0 (by rw [hlc]; exact Nat.one_pos), List.getElem_of_eq hlc]; rfl
  rw [← Equiv.sum_comp (contrEquiv1 D K hr hs).symm]
  refine Finset.sum_congr rfl fun k _ => ?_
  have hk := contrEquiv1_symm_val D K hr hs k
  have key0 : ∀ (p : Nat) (hp : p < 2), p = 0 → ((ix2 r h : (⟨2, ![R, H]⟩ : Shape).Idx) ⟨p, hp⟩).val = r.val :=
    fun p hp e => by subst e; rfl
  have key1 : ∀ (p : Nat) (hp : p < 2), p = 1 → ((ix2 r h : (⟨2, ![R, H]⟩ : Shape).Idx) ⟨p, hp⟩).val = h.val :=
    fun p hp e => by subst e; rfl
  have el : D.lhsIdx (ix2 r h) ((contrEquiv1 D K hr hs).symm k) = ix2 r k := funext fun a => Fin.ext (by
    match a with
    | ⟨0, _⟩ =>
      show (D.lhsIdx (ix2 r h) ((contrEquiv1 D K hr hs).symm k) (0 : Fin 2)).val = r.val
      unfold DotDims.lhsIdx
      rw [dif_neg (by rw [hlb]; exact List.not_mem_nil), dif_pos (by rw [hln]; exact List.mem_singleton.mpr rfl)]
      simp only [Fin.val_cast]
      exact key0 _ _ (by simp [hlb, hln])
    | ⟨1, _⟩ => exact (D.lhsIdx_val_of_single hlc _ _).trans hk)
  have er : D.rhsIdx (ix2 r h) ((contrEquiv1 D K hr hs).symm k) = ix2 k h := funext fun a => Fin.ext (by
    match a with
    | ⟨0, _⟩ => exact (D.rhsIdx_val_of_single hrc _ _).trans hk
    | ⟨1, _⟩ =>
      show (D.rhsIdx (ix2 r h) ((contrEquiv1 D K hr hs).symm k) (1 : Fin 2)).val = h.val
      unfold DotDims.rhsIdx
      rw [dif_neg (by rw [hrb]; exact List.not_mem_nil), dif_pos (by rw [hrn]; exact List.mem_singleton.mpr rfl)]
      simp only [Fin.val_cast]
      exact key1 _ _ (by simp [hlb, hln, hrn]))
  rw [el, er]

/-! ## Broadcasts read at an index -/

/-- A scalar laid over any shape reads the scalar everywhere. -/
theorem bcast_scalar_apply {α : Type} {t : Shape} (dims : Fin 0 → Fin t.rank)
    (h : (⟨0, ![]⟩ : Shape).BroadcastsInDim t dims) (x : (⟨0, ![]⟩ : Shape).Idx → α) (j : t.Idx) :
    broadcastInDim t dims h x j = x ix0 :=
  congrArg x (funext fun a => a.elim0)

/-- A vector stood up as a column reads, at row `j`, its entry `j`. -/
theorem bcast_col_apply {α : Type} {n : Nat} (h : (⟨1, ![n]⟩ : Shape).BroadcastsInDim ⟨2, ![n, 1]⟩ ![0])
    (x : (⟨1, ![n]⟩ : Shape).Idx → α) (j : Fin n) :
    broadcastInDim ⟨2, ![n, 1]⟩ ![0] h x (ix2 j (0 : Fin 1)) = x (ix1 j) := by
  refine broadcastInDim_apply _ h x _ (ix1 j) ?_
  intro a
  match a with
  | ⟨0, _⟩ =>
    show j.val = if n = 1 then 0 else j.val
    split
    · have := j.isLt; omega
    · rfl

/-- A vector laid along the rows of a matrix (through a one-row matrix) reads, at (r, h), its entry `h`. -/
theorem bcast_row_apply {α : Type} {R H : Nat} (h1 : (⟨1, ![H]⟩ : Shape).BroadcastsInDim ⟨2, ![1, H]⟩ ![1])
    (h2 : (⟨2, ![1, H]⟩ : Shape).BroadcastsInDim ⟨2, ![R, H]⟩ ![0, 1]) (x : (⟨1, ![H]⟩ : Shape).Idx → α) (r : Fin R) (c : Fin H) :
    broadcastInDim ⟨2, ![R, H]⟩ ![0, 1] h2 (broadcastInDim ⟨2, ![1, H]⟩ ![1] h1 x) (ix2 r c) = x (ix1 c) := by
  have e2 : broadcastInDim ⟨2, ![R, H]⟩ ![0, 1] h2 (broadcastInDim ⟨2, ![1, H]⟩ ![1] h1 x) (ix2 r c)
      = broadcastInDim ⟨2, ![1, H]⟩ ![1] h1 x (ix2 (0 : Fin 1) c) := by
    refine broadcastInDim_apply _ h2 _ _ (ix2 (0 : Fin 1) c) ?_
    intro a
    match a with
    | ⟨0, _⟩ => show (0 : Nat) = if (1 : Nat) = 1 then 0 else r.val; rw [if_pos rfl]
    | ⟨1, _⟩ =>
      show c.val = if H = 1 then 0 else c.val
      split
      · have := c.isLt; omega
      · rfl
  rw [e2]
  refine broadcastInDim_apply _ h1 x _ (ix1 c) ?_
  intro a
  match a with
  | ⟨0, _⟩ =>
    show c.val = if H = 1 then 0 else c.val
    split
    · have := c.isLt; omega
    · rfl

/-! ## One relation's coefficient matrix, read at an index -/

/-- A table gathered through the column of normalised index words reads, at position `e`, the table at the node the
    raw word names. -/
theorem gather_wrapped_apply {α : Type} {N n : Nat} (hN : 0 < N) (dG : GatherDims ⟨1, ![N]⟩ ⟨2, ![n, 1]⟩ ⟨1, ![n]⟩)
    (hoff : dG.offsetDims = []) (hcoll : dG.collapsedSliceDims = [0]) (hob : dG.operandBatchingDims = [])
    (hsim : dG.startIndexMap = [0]) (hivd : dG.indexVectorDim = 1)
    (hb : (⟨1, ![n]⟩ : Shape).BroadcastsInDim ⟨2, ![n, 1]⟩ ![0])
    (tbl : (⟨1, ![N]⟩ : Shape).Idx → α) (w x : IVec ⟨1, ![n]⟩ 32)
    (hw : ∀ e : Fin n, w (ix1 e) = wrapW (BitVec.ofNat 32 N) (x (ix1 e))) (e : Fin n) :
    Host.gather dG tbl (broadcastInDim ⟨2, ![n, 1]⟩ ![0] hb w) (ix1 e) = tbl (ix1 (nodeOf N hN (x (ix1 e)))) := by
  rw [gather_vec_apply hN dG hoff hcoll hob hsim hivd, bcast_col_apply, hw]
  rfl

/-- The degree scale as the program computes it — an accumulating scatter of ones over the id column into zeros, clipped
    below at one, reciprocal square root — read at node `i`. -/
theorem degScale_apply {N n : Nat} (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1)
    (one zero : FVec Ideal ⟨1, ![N]⟩ .f32) (ones : FVec Ideal ⟨1, ![n]⟩ .f32)
    (h1 : ∀ i, one i = Ideal.ofBits .f32 0x3F800000#32) (hz : ∀ i, zero i = Ideal.ofBits .f32 0x00000000#32)
    (ho : ∀ j, ones j = Ideal.ofBits .f32 0x3F800000#32)
    (col : IVec ⟨2, ![n, 1]⟩ 32) (x : IVec ⟨1, ![n]⟩ 32) (hcol : ∀ j : Fin n, col (ix2 j (0 : Fin 1)) = x (ix1 j)) (i : Fin N) :
    Host.rsqrt (maximumf one (Host.scatterAdd d zero col ones)) (ix1 i) = degScale N (fun j : Fin n => x (ix1 j)) i := by
  show Ideal.rsqrt (max (one (ix1 i)) (Host.scatterAdd d zero col ones (ix1 i))) = _
  rw [scatterAdd_vec_apply d huw hiw hsd hiv, h1, hz]
  unfold degScale
  congr 3
  refine Finset.sum_congr (Finset.filter_congr fun j _ => by rw [hcol]) fun j _ => ho _

/-- The coefficient matrix of one relation: per-edge coefficients accumulated into zeros at the flat position
    (doc id / 512) · C + (row id of the source node), reshaped to 32 × C. At (g, v) it is the sum of the coefficients of
    the edges into graph `g` whose source node has row `v`. -/
theorem relMatrix_apply {nE nN C N : Nat} (hN : 0 < nN) (hC : 0 < C) (hC' : C ≤ 15000) (hNf : N = 32 * C)
    (ids : IVec ⟨1, ![nN]⟩ 32) (src dst : IVec ⟨1, ![nE]⟩ 32)
    (hids : ∀ i, 0 ≤ (ids i).toInt ∧ (ids i).toInt < C) (hdst : ∀ i, 0 ≤ (dst i).toInt ∧ (dst i).toInt < 16384)
    (dM : ScatterDims ⟨1, ![N]⟩ ⟨2, ![nE, 1]⟩ ⟨1, ![nE]⟩)
    (huw : dM.updateWindowDims = []) (hiw : dM.insertedWindowDims = [0]) (hsd : dM.scatterDimsToOperandDims = [0])
    (hiv : dM.indexVectorDim = 1)
    (zero : FVec Ideal ⟨1, ![N]⟩ .f32) (hzero : ∀ i, zero i = 0)
    (flat : IVec ⟨2, ![nE, 1]⟩ 32) (coef : FVec Ideal ⟨1, ![nE]⟩ .f32)
    (hflat : ∀ e : Fin nE, flat (ix2 e (0 : Fin 1))
      = IntOp.addi (IntOp.muli (BitVec.ofNat 32 ((dst (ix1 e)).toInt.toNat / 512)) (BitVec.ofNat 32 C))
          (ids (ix1 (esOf hN src e))))
    (hcoef : ∀ e : Fin nE, coef (ix1 e) = roOf (nN := nN) src (esOf hN src e) * riOf dst (edOf dst e))
    (hsc : (⟨1, ![N]⟩ : Shape).ShapeCasts ⟨2, ![32, C]⟩) (g : Fin 32) (v : Fin C) :
    shapeCast ⟨2, ![32, C]⟩ (Host.scatterAdd dM zero flat coef) hsc (ix2 g v)
      = ∑ e ∈ Finset.univ.filter (fun e : Fin nE => (edOf dst e).1 = g ∧ nvOf hC ids (esOf hN src e) = v),
          roOf (nN := nN) src (esOf hN src e) * riOf dst (edOf dst e) := by
  rw [reshape_rows_apply hNf, scatterAdd_vec_apply dM huw hiw hsd hiv, hzero, zero_add]
  refine Finset.sum_congr (Finset.filter_congr fun e _ => ?_) fun e _ => hcoef e
  rw [hflat e]
  show (IntOp.addi _ _).toInt = ((g.val * C + v.val : Nat) : Int) ↔ _
  rw [flat_eq_iff C hC' _ _ (hdst _).1 (hdst _).2 (hids _).1 (hids _).2 g v, Fin.ext_iff (a := nvOf hC ids (esOf hN src e))]
  unfold nvOf
  rw [nodeOf_val C hC (by omega) _ (hids _).1 (hids _).2]
  rfl

/-- The product of a matrix padded with zero columns and a matrix padded with as many zero rows is the product of the
    two matrices: the padded positions contribute nothing to the contraction. -/
theorem padded_product {R n m H : Nat} (hnm : n ≤ m) (hiA hiB : Fin 2 → Nat)
    (A : (⟨2, ![R, n]⟩ : Shape).Idx → EReal) (B : (⟨2, ![n, H]⟩ : Shape).Idx → EReal) {u : Shape} (vA vB : u.Idx → EReal)
    (hpA : (⟨2, ![R, n]⟩ : Shape).Pads (![0, 0] : Fin 2 → Nat) hiA ![0, 0] ⟨2, ![R, m]⟩)
    (hpB : (⟨2, ![n, H]⟩ : Shape).Pads (![0, 0] : Fin 2 → Nat) hiB ![0, 0] ⟨2, ![m, H]⟩) (hu : 0 < u.numel)
    (hvA : vA (Shape.Idx.first hu) = 0) (g : Fin R) (k : Fin H) :
    ∑ c : Fin m, pad ⟨2, ![R, m]⟩ (![0, 0] : Fin 2 → Nat) hiA ![0, 0] A vA hpA hu (ix2 g c)
        * pad ⟨2, ![m, H]⟩ (![0, 0] : Fin 2 → Nat) hiB ![0, 0] B vB hpB hu (ix2 c k)
      = ∑ c : Fin n, A (ix2 g c) * B (ix2 c k) := by
  rw [sum_pad_zero hnm]
  · refine Finset.sum_congr rfl fun c _ => ?_
    rw [pad_cols_apply, pad_rows_apply, dif_pos (show (Fin.castLE hnm c).val < n from c.isLt),
      dif_pos (show (Fin.castLE hnm c).val < n from c.isLt)]
    rfl
  · intro c hc
    rw [pad_cols_apply, dif_neg (by omega), hvA, zero_mul]

/-- The degree scale gathered through the column of normalised ids: at position `e` it is the scale of the node the raw
    id names. -/
theorem scale_gathered_apply {N n : Nat} (hN : 0 < N) (dS : ScatterDims ⟨1, ![N]⟩ ⟨2, ![n, 1]⟩ ⟨1, ![n]⟩)
    (huw : dS.updateWindowDims = []) (hiw : dS.insertedWindowDims = [0]) (hsd : dS.scatterDimsToOperandDims = [0])
    (hiv : dS.indexVectorDim = 1) (dG : GatherDims ⟨1, ![N]⟩ ⟨2, ![n, 1]⟩ ⟨1, ![n]⟩)
    (hoff : dG.offsetDims = []) (hcoll : dG.collapsedSliceDims = [0]) (hob : dG.operandBatchingDims = [])
    (hsim : dG.startIndexMap = [0]) (hivd : dG.indexVectorDim = 1)
    (hb : (⟨1, ![n]⟩ : Shape).BroadcastsInDim ⟨2, ![n, 1]⟩ ![0])
    (one zero : FVec Ideal ⟨1, ![N]⟩ .f32) (ones : FVec Ideal ⟨1, ![n]⟩ .f32)
    (h1 : ∀ i, one i = Ideal.ofBits .f32 0x3F800000#32) (hz : ∀ i, zero i = Ideal.ofBits .f32 0x00000000#32)
    (ho : ∀ j, ones j = Ideal.ofBits .f32 0x3F800000#32)
    (x w : IVec ⟨1, ![n]⟩ 32) (hw : ∀ e : Fin n, w (ix1 e) = wrapW (BitVec.ofNat 32 N) (x (ix1 e))) (e : Fin n) :
    Host.gather dG (Host.rsqrt (maximumf one (Host.scatterAdd dS zero (broadcastInDim ⟨2, ![n, 1]⟩ ![0] hb x) ones)))
        (broadcastInDim ⟨2, ![n, 1]⟩ ![0] hb w) (ix1 e)
      = degScale N (fun j : Fin n => x (ix1 j)) (nodeOf N hN (x (ix1 e))) := by
  rw [gather_wrapped_apply hN dG hoff hcoll hob hsim hivd hb _ w x hw e,
    degScale_apply dS huw hiw hsd hiv one zero ones h1 hz ho _ x (fun j => bcast_col_apply hb x j)]

end Cert.KStage

end
-- ==== Proof.KernelDense.lean ====
/-
  The idealized kernel's dense operations read at an index, at the ideal instance: the launch's matrix product of the
  32 × 15104 and 15104 × 128 operands into zero, the host's two contractions (a 32 × 128 by 128 × 128 and a 32 × 50 by
  50 × 128 product), each entry the sum over the contracted position of the products, and a bias vector broadcast along
  the rows of a 32 × 128 array, which reads at (g, h) as the vector's entry h.
-/
import proofs.«404497_j45732811768428_3_alg».proof.Proof.KernelOut
import proofs.«404497_j45732811768428_3_alg».proof.Proof.KernelWords
import Idealize.ShloMosaic.PureOps.Ideal.Laws
import Idealize.ShloMosaic.Lib.ValueIdx
import Idealize.ShloMosaic.Lib.Pipeline.Value

noncomputable section

namespace Cert.KStage

open Cert.KernelIdeal Idealize.ShloMosaic Idealize.ShloMosaic.ValueIdx
open scoped BigOperators

variable [Cert.KernelIdeal.Facts]
open Cert.KernelIdeal.Facts₀ Cert.KernelIdeal.Facts

theorem kOut_apply (a : FVec Ideal S32x15104 .bf16) (b : FVec Ideal S15104x128 .bf16) (g : Fin 32) (k : Fin 128) :
    kOut (F := Ideal) a b (ix2 g k) = ∑ v : Fin 15104, a (ix2 g v) * b (ix2 v k) := by
  unfold kOut
  rw [shapeCast_self, shapeCast_self]
  simp only [matmul]
  rw [Ideal.matmul_constant_zero_apply]
  exact dot_sum_plain dot_S32x15104_S15104x128_S32x128_1_0_0_1_n_n rfl rfl rfl rfl rfl rfl a b g k

theorem dot_wd_apply (l : FVec Ideal S32x128 .f32) (r : FVec Ideal S128x128 .f32) (g : Fin 32) (h : Fin 128) :
    Host.dotGeneral (F := Ideal) dot_S32x128_S128x128_S32x128_1_0_0_1_n_n none l r (ix2 g h) = ∑ k : Fin 128, l (ix2 g k) * r (ix2 k h) := by
  simp only [Host.dotGeneral]
  rw [Ideal.dotGeneral_apply]
  exact dot_sum_plain dot_S32x128_S128x128_S32x128_1_0_0_1_n_n rfl rfl rfl rfl rfl rfl l r g h

theorem dot_td_apply (l : FVec Ideal S32x50 .f32) (r : FVec Ideal S50x128 .f32) (g : Fin 32) (k : Fin 128) :
    Host.dotGeneral (F := Ideal) dot_S32x50_S50x128_S32x128_1_0_0_1_n_n none l r (ix2 g k) = ∑ t : Fin 50, l (ix2 g t) * r (ix2 t k) := by
  simp only [Host.dotGeneral]
  rw [Ideal.dotGeneral_apply]
  exact dot_sum_plain dot_S32x50_S50x128_S32x128_1_0_0_1_n_n rfl rfl rfl rfl rfl rfl l r g k

theorem bias_apply {α : Type} (x : S128.Idx → α) (g : Fin 32) (h : Fin 128) :
    broadcastInDim S32x128 ![0, 1] bcast_S1x128_S32x128_0_1 (broadcastInDim S1x128 ![1] bcast_S128_S1x128_1 x) (ix2 g h) = x (ix1 h) := by
  exact bcast_row_apply bcast_S128_S1x128_1 bcast_S1x128_S32x128_0_1 x g h

end Cert.KStage

end
-- ==== Proof.KernelWord.lean ====
/-
  The launch's output read at graph `g`, column `k`: the word relation pooled per graph and vocabulary row, contracted
  with the word table.

  The left operand's entry M_wd[g, v] is the sum, over the edges whose flat position (dst / 512) · 15000 + word id is
  g · 15000 + v, of rsqrt(outdeg(src)) · rsqrt(indeg(dst)); with destination ids in `0 … 16383` and word ids in
  `0 … 14999` nothing wraps and the flat position decodes to (graph, vocabulary row). The 104 padded columns of the left
  operand and rows of the right operand are zero and drop out of the contraction over 15104.
-/
import proofs.«404497_j45732811768428_3_alg».proof.Proof.KernelStages
import proofs.«404497_j45732811768428_3_alg».proof.Proof.KernelOut
import proofs.«404497_j45732811768428_3_alg».proof.Proof.GraphData
import proofs.«404497_j45732811768428_3_alg».proof.Proof.KernelWords
import proofs.«404497_j45732811768428_3_alg».proof.Proof.KernelDense

noncomputable section

namespace Cert.KStage

open Cert.KernelIdeal Idealize.ShloMosaic Idealize.ShloMosaic.ValueIdx Cert.Reads Cert.Graph
open scoped BigOperators

variable [Cert.KernelIdeal.Facts]
open Cert.KernelIdeal.Facts₀ Cert.KernelIdeal.Facts

theorem kout_apply
    (x0 : IVec S100000 32) (x2 x3 : IVec S1000000 32) (x7 : FVec Ideal S15000x128 .f32)
    (h0 : ∀ i, 0 ≤ (x0 i).toInt ∧ (x0 i).toInt < 15000) (h3 : ∀ i, 0 ≤ (x3 i).toInt ∧ (x3 i).toInt < 16384)
    (g : Fin 32) (k : Fin 128) :
    kOut (F := Ideal) (kA x0 x2 x3) (kB x7) (ix2 g k)
      = ∑ v : Fin 15000,
          (∑ e ∈ Finset.univ.filter (fun e : Fin 1000000 =>
              (edOf x3 e).1 = g ∧ nvOf (nN := 100000) (nV := 15000) (by decide) x0 (esOf (nN := 100000) (by decide) x2 e) = v),
            roOf (nN := 100000) x2 (esOf (nN := 100000) (by decide) x2 e) * riOf x3 (edOf x3 e)) * x7 (ix2 v k) := by
  -- the launch contracts over 15104 positions; the format change is the identity on the extended reals
  rw [kOut_apply]
  unfold kA kB
  simp only [truncf_apply]
  -- the padded positions contribute nothing: what is left is the 32 × 15000 coefficient matrix times the word table
  rw [padded_product (by decide : 15000 ≤ 15104) _ _ _ _ _ _ _ _ h_S_ (fill_zero _)]
  refine Finset.sum_congr rfl fun v _ => congrArg (· * x7 (ix2 v k)) ?_
  -- the source column normalised as an index (a negative id counts from the end)
  have hw2 : ∀ e : Fin 1000000,
      (select (cmpi .slt x2 (broadcastInDim S1000000 ![] bcast_S_S1000000 (constantI S_ 32 0#32)))
          (addi x2 (broadcastInDim S1000000 ![] bcast_S_S1000000 (constantI S_ 32 100000#32))) x2 : IVec S1000000 32) (ix1 e)
        = wrapW (BitVec.ofNat 32 100000) (x2 (ix1 e)) := fun _ => rfl
  -- entry (g, v) of the coefficient matrix: the edges into graph g whose source node has vocabulary row v
  refine relMatrix_apply (nN := 100000) (by decide) (by decide) (by decide) (by norm_num) x0 x2 x3 h0 h3
    scatter_S480000_S1000000x1_S1000000_n_0_0_1 rfl rfl rfl rfl _ (fun _ => zero_bits) _ _ (fun e => ?_) (fun e => ?_) _ g v
  · -- the flat position of edge e
    rw [bcast_col_apply]
    refine (congrArg₂ IntOp.addi (congrArg₂ IntOp.muli ?_ rfl) ?_)
    · exact floorDiv512 (x3 (ix1 e)) (h3 _).1 (h3 _).2
    · exact gather_wrapped_apply (by decide) gather_S100000_S1000000x1_S1000000_n_0_n_n_0_1_1 rfl rfl rfl rfl rfl
        bcast_S1000000_S1000000x1_0 x0 _ x2 hw2 e
  · -- the coefficient of edge e
    rw [mulf_apply]
    refine congrArg₂ (· * ·) ?_ ?_
    · refine scale_gathered_apply (by decide) scatter_S100000_S1000000x1_S1000000_n_0_0_1 rfl rfl rfl rfl
        gather_S100000_S1000000x1_S1000000_n_0_n_n_0_1_1 rfl rfl rfl rfl rfl bcast_S1000000_S1000000x1_0
        _ _ _ ?_ ?_ ?_ x2 _ hw2 e
      · exact fun _ => rfl
      · exact fun _ => rfl
      · exact fun _ => rfl
    · have hw3 : ∀ e : Fin 1000000,
          (select (cmpi .slt x3 (broadcastInDim S1000000 ![] bcast_S_S1000000 (constantI S_ 32 0#32)))
              (addi x3 (broadcastInDim S1000000 ![] bcast_S_S1000000 (constantI S_ 32 16384#32))) x3 : IVec S1000000 32) (ix1 e)
            = wrapW (BitVec.ofNat 32 16384) (x3 (ix1 e)) := fun _ => rfl
      refine (scale_gathered_apply (by decide) scatter_S16384_S1000000x1_S1000000_n_0_0_1 rfl rfl rfl rfl
        gather_S16384_S1000000x1_S1000000_n_0_n_n_0_1_1 rfl rfl rfl rfl rfl bcast_S1000000_S1000000x1_0
        _ _ _ ?_ ?_ ?_ x3 _ hw3 e).trans ?_
      · exact fun _ => rfl
      · exact fun _ => rfl
      · exact fun _ => rfl
      · rw [nodeOf_doc _ (h3 _).1 (h3 _).2]
        rfl

end Cert.KStage

end
-- ==== Proof.KernelTopic.lean ====
/-
  The idealized kernel's pooled docs read at graph `g`, column `h`, in terms of the launch's output: the word relation's
  dense layer applied to the output divided by the 512 docs per graph, plus the topic relation in the kernel's
  arrangement (its 32 × 50 coefficient matrix, pooled per graph and topic row exactly as the word relation's, contracted
  with the topic table on the host, divided by 512, through its own dense layer).

  The stages are read at an index over any operand arrays that read as stated (the broadcast constants, the columns of
  start indices): the normalised ids, the printed floor division, the degree scale, the per-edge coefficient and flat
  position, the coefficient matrix (with topic ids in `0 … 49` and destination ids in `0 … 16383` nothing wraps and the
  flat position `graph · 50 + topic row` decodes to the pair), and the two dense layers; `kpool_split` instantiates
  them at the program's own operands.
-/
import proofs.«404497_j45732811768428_3_alg».proof.Proof.KernelStages
import proofs.«404497_j45732811768428_3_alg».proof.Proof.KernelDense
import proofs.«404497_j45732811768428_3_alg».proof.Proof.KernelWords
import proofs.«404497_j45732811768428_3_alg».proof.Proof.GraphData

noncomputable section

namespace Cert.KStage

open Cert.KernelIdeal Idealize.ShloMosaic Idealize.ShloMosaic.ValueIdx Cert.Reads Cert.Graph
open scoped BigOperators

variable [Cert.KernelIdeal.Facts]
open Cert.KernelIdeal.Facts₀ Cert.KernelIdeal.Facts

/-! ## The integer stages at an index -/

/-- jnp's normalisation of an index vector, elementwise: a negative index counts from the end. -/
theorem topic_wrap_apply {n : Nat} (x zs Ns : IVec ⟨1, ![n]⟩ 32) (N : BitVec 32) (hz : ∀ i, zs i = 0#32) (hN : ∀ i, Ns i = N)
    (i : (⟨1, ![n]⟩ : Shape).Idx) :
    select (cmpi .slt x zs) (addi x Ns) x i = wrapW N (x i) := by
  show Scalar.select (IntOp.cmpi .slt (x i) (zs i)) (IntOp.addi (x i) (Ns i)) (x i) = _
  rw [hz, hN]
  rfl

/-- The printed floor division by 512 of the doc ids, elementwise: the plain quotient, the ids being in range. -/
theorem topic_floor_apply {n : Nat} (x c c' sg zs os : IVec ⟨1, ![n]⟩ 32)
    (hx : ∀ i, 0 ≤ (x i).toInt ∧ (x i).toInt < 16384)
    (hc : ∀ i, c i = 512#32) (hc' : ∀ i, c' i = 512#32) (hsg : ∀ i, sg i = signW 512#32)
    (hz : ∀ i, zs i = 0#32) (ho : ∀ i, os i = 1#32) (i : (⟨1, ![n]⟩ : Shape).Idx) :
    select (andi (cmpi .ne (signi x) sg) (cmpi .ne (Host.remsi x c') zs)) (subi (Host.divsi x c) os) (Host.divsi x c) i
      = BitVec.ofNat 32 ((x i).toInt.toNat / 512) := by
  show Scalar.select
      (IntOp.andi (IntOp.cmpi .ne (signW (x i)) (sg i)) (IntOp.cmpi .ne (IntOp.remsi .host (x i) (c' i)) (zs i)))
      (IntOp.subi (IntOp.divsi .host (x i) (c i)) (os i)) (IntOp.divsi .host (x i) (c i)) = _
  rw [hsg, hc, hc', hz, ho]
  exact floorDiv512 (x i) (hx i).1 (hx i).2

/-! ## The degree scale -/

/-- `rsqrt (max 1 (the number of ids equal to i))` over an accumulating scatter of ones at the ids. -/
theorem topic_deg_apply {N n : Nat} (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1)
    (one zeros : FVec Ideal ⟨1, ![N]⟩ .f32) (idxc : IVec ⟨2, ![n, 1]⟩ 32) (ones : FVec Ideal ⟨1, ![n]⟩ .f32)
    (idx : Fin n → BitVec 32)
    (h1 : ∀ i, one i = Ideal.ofBits .f32 0x3F800000#32) (hz : ∀ i, zeros i = Ideal.ofBits .f32 0x00000000#32)
    (hi : ∀ j : Fin n, idxc (ix2 j (0 : Fin 1)) = idx j) (ho : ∀ j, ones j = Ideal.ofBits .f32 0x3F800000#32) (i : Fin N) :
    Host.rsqrt (maximumf one (Host.scatterAdd d zeros idxc ones)) (ix1 i) = degScale N idx i := by
  show Ideal.rsqrt (max (one (ix1 i)) (Host.scatterAdd d zeros idxc ones (ix1 i))) = _
  rw [scatterAdd_vec_apply d huw hiw hsd hiv, h1, hz]
  simp only [hi, ho]
  rfl

/-! ## The topic relation's coefficient matrix -/

section Topic

variable (x1 : IVec S1600 32) (x4 x5 : IVec S200000 32)

/-- The per-edge coefficient: the source-side scale of the edge's source node times the destination-side scale of its
    doc. -/
theorem topic_coef_apply (h5 : ∀ i, 0 ≤ (x5 i).toInt ∧ (x5 i).toInt < 16384)
    (so : FVec Ideal S1600 .f32) (si : FVec Ideal S16384 .f32) (cs cd : IVec S200000x1 32)
    (hso : ∀ n : Fin 1600, so (ix1 n) = roOf (nN := 1600) x4 n)
    (hsi : ∀ d : Fin 16384, si (ix1 d) = degScale 16384 (fun j : Fin 200000 => x5 (ix1 j)) d)
    (hcs : ∀ e : Fin 200000, cs (ix2 e (0 : Fin 1)) = wrapW 1600#32 (x4 (ix1 e)))
    (hcd : ∀ e : Fin 200000, cd (ix2 e (0 : Fin 1)) = wrapW 16384#32 (x5 (ix1 e))) (e : Fin 200000) :
    mulf (Host.gather gather_S1600_S200000x1_S200000_n_0_n_n_0_1_1 so cs)
        (Host.gather gather_S16384_S200000x1_S200000_n_0_n_n_0_1_1 si cd) (ix1 e)
      = roOf (nN := 1600) x4 (esOf (nN := 1600) (by decide) x4 e) * riOf x5 (edOf x5 e) := by
  have e1 : clampIdx 1600 (by decide) (wrapW 1600#32 (x4 (ix1 e))) = esOf (nN := 1600) (by decide) x4 e := rfl
  have e2 : clampIdx 16384 (by decide) (wrapW 16384#32 (x5 (ix1 e))) = docIx (edOf x5 e) :=
    nodeOf_doc (x5 (ix1 e)) (h5 _).1 (h5 _).2
  rw [mulf_apply, gather_vec_apply (by decide) _ rfl rfl rfl rfl rfl, gather_vec_apply (by decide) _ rfl rfl rfl rfl rfl,
    hcs, hcd, e1, e2, hso, hsi]
  rfl

/-- The per-edge flat position: the doc's graph times 50 plus the topic row of the edge's source node. -/
theorem topic_flatpos_apply (fd c50 : IVec S200000 32) (cs : IVec S200000x1 32)
    (hfd : ∀ e : Fin 200000, fd (ix1 e) = BitVec.ofNat 32 ((x5 (ix1 e)).toInt.toNat / 512))
    (hc : ∀ i, c50 i = 50#32)
    (hcs : ∀ e : Fin 200000, cs (ix2 e (0 : Fin 1)) = wrapW 1600#32 (x4 (ix1 e))) (e : Fin 200000) :
    addi (muli fd c50) (Host.gather gather_S1600_S200000x1_S200000_n_0_n_n_0_1_1 x1 cs) (ix1 e)
      = IntOp.addi (IntOp.muli (BitVec.ofNat 32 ((x5 (ix1 e)).toInt.toNat / 512)) (BitVec.ofNat 32 50))
          (x1 (ix1 (esOf (nN := 1600) (by decide) x4 e))) := by
  show IntOp.addi (IntOp.muli (fd (ix1 e)) (c50 (ix1 e)))
      (Host.gather gather_S1600_S200000x1_S200000_n_0_n_n_0_1_1 x1 cs (ix1 e)) = _
  rw [hfd, hc, gather_vec_apply (by decide) _ rfl rfl rfl rfl rfl, hcs]
  rfl

/-- The coefficient matrix at (g, t): the coefficients of the edges into graph `g` from topic row `t`, the topic ids
    and the destination ids being in range (nothing wraps, and the flat position decodes to the pair). -/
theorem topic_matrix_apply (h1 : ∀ i, 0 ≤ (x1 i).toInt ∧ (x1 i).toInt < 50) (h5 : ∀ i, 0 ≤ (x5 i).toInt ∧ (x5 i).toInt < 16384)
    (zeros : FVec Ideal S1600 .f32) (flatc : IVec S200000x1 32) (coef : FVec Ideal S200000 .f32)
    (hz : ∀ i, zeros i = Ideal.ofBits .f32 0x00000000#32)
    (hflat : ∀ e : Fin 200000, flatc (ix2 e (0 : Fin 1))
      = IntOp.addi (IntOp.muli (BitVec.ofNat 32 ((x5 (ix1 e)).toInt.toNat / 512)) (BitVec.ofNat 32 50))
          (x1 (ix1 (esOf (nN := 1600) (by decide) x4 e))))
    (hcoef : ∀ e : Fin 200000, coef (ix1 e)
      = roOf (nN := 1600) x4 (esOf (nN := 1600) (by decide) x4 e) * riOf x5 (edOf x5 e))
    (g : Fin 32) (t : Fin 50) :
    shapeCast S32x50 (Host.scatterAdd scatter_S1600_S200000x1_S200000_n_0_0_1 zeros flatc coef) shapeCasts_S1600_S32x50 (ix2 g t)
      = ∑ e ∈ Finset.univ.filter (fun e : Fin 200000 =>
            (edOf x5 e).1 = g ∧ nvOf (nN := 1600) (nV := 50) (by decide) x1 (esOf (nN := 1600) (by decide) x4 e) = t),
          roOf (nN := 1600) x4 (esOf (nN := 1600) (by decide) x4 e) * riOf x5 (edOf x5 e) := by
  rw [reshape_rows_apply (by norm_num : 1600 = 32 * 50) _ shapeCasts_S1600_S32x50 g t,
    scatterAdd_vec_apply _ rfl rfl rfl rfl, hz, ofBits_zero, zero_add]
  simp only [hcoef]
  refine Finset.sum_congr (Finset.filter_congr fun e _ => ?_) fun _ _ => rfl
  rw [hflat]
  refine (flat_eq_iff 50 (by decide) (x5 (ix1 e)) (x1 (ix1 (esOf (nN := 1600) (by decide) x4 e)))
    (h5 _).1 (h5 _).2 (h1 _).1 (h1 _).2 g t).trans (and_congr Iff.rfl ?_)
  rw [Fin.ext_iff]
  show _ ↔ (nodeOf 50 (by decide) (x1 (ix1 (esOf (nN := 1600) (by decide) x4 e)))).val = t.val
  rw [nodeOf_val 50 (by decide) (by decide) _ (h1 _).1 (h1 _).2]

end Topic

/-! ## The two dense layers -/

/-- The word relation's part: the launch's output divided by the docs per graph, through its dense layer and bias. -/
theorem split_word_apply (out c : FVec Ideal S32x128 .f32) (x9 : FVec Ideal S128x128 .f32) (x10 : FVec Ideal S128 .f32)
    (hc : ∀ i, c i = n512) (g : Fin 32) (h : Fin 128) :
    addf (Host.dotGeneral (F := Ideal) dot_S32x128_S128x128_S32x128_1_0_0_1_n_n none (Host.divf out c) x9)
        (broadcastInDim S32x128 ![0, 1] bcast_S1x128_S32x128_0_1 (broadcastInDim S1x128 ![1] bcast_S128_S1x128_1 x10)) (ix2 g h)
      = (∑ k : Fin 128, Ideal.div (out (ix2 g k)) n512 * x9 (ix2 k h)) + x10 (ix1 h) := by
  rw [addf_apply, dot_wd_apply, bias_apply]
  refine congrArg (· + x10 (ix1 h)) (Finset.sum_congr rfl fun k _ => ?_)
  show Ideal.div (out (ix2 g k)) (c (ix2 g k)) * x9 (ix2 k h) = _
  rw [hc]

/-- The topic relation's part: the coefficient matrix contracted with the topic table, divided by the docs per graph,
    through its dense layer and bias: the relation in the kernel's arrangement. -/
theorem split_topic_apply (x1 : IVec S1600 32) (x4 x5 : IVec S200000 32) (M : FVec Ideal S32x50 .f32) (c : FVec Ideal S32x128 .f32)
    (x8 : FVec Ideal S50x128 .f32) (x11 : FVec Ideal S128x128 .f32) (x12 : FVec Ideal S128 .f32)
    (hM : ∀ (g : Fin 32) (t : Fin 50), M (ix2 g t)
      = ∑ e ∈ Finset.univ.filter (fun e : Fin 200000 =>
            (edOf x5 e).1 = g ∧ nvOf (nN := 1600) (nV := 50) (by decide) x1 (esOf (nN := 1600) (by decide) x4 e) = t),
          roOf (nN := 1600) x4 (esOf (nN := 1600) (by decide) x4 e) * riOf x5 (edOf x5 e))
    (hc : ∀ i, c i = n512) (g : Fin 32) (h : Fin 128) :
    addf (Host.dotGeneral (F := Ideal) dot_S32x128_S128x128_S32x128_1_0_0_1_n_n none
          (Host.divf (Host.dotGeneral (F := Ideal) dot_S32x50_S50x128_S32x128_1_0_0_1_n_n none M x8) c) x11)
        (broadcastInDim S32x128 ![0, 1] bcast_S1x128_S32x128_0_1 (broadcastInDim S1x128 ![1] bcast_S128_S1x128_1 x12)) (ix2 g h)
      = kRel (nN := 1600) (nV := 50) (by decide) (by decide) x1 x4 x5 x8 x11 x12 g h := by
  rw [addf_apply, dot_wd_apply, bias_apply]
  unfold kRel Cert.Pool.relK
  refine congrArg (· + x12 (ix1 h)) (Finset.sum_congr rfl fun k _ => ?_)
  show Ideal.div (Host.dotGeneral (F := Ideal) dot_S32x50_S50x128_S32x128_1_0_0_1_n_n none M x8 (ix2 g k)) (c (ix2 g k))
      * x11 (ix2 k h) = _
  rw [dot_td_apply, hc]
  simp only [hM]

/-! ## The pooled docs -/

theorem kpool_split
    (out : FVec Ideal S32x128 .f32) (x1 : IVec S1600 32) (x4 x5 : IVec S200000 32)
    (x8 : FVec Ideal S50x128 .f32) (x9 : FVec Ideal S128x128 .f32) (x10 : FVec Ideal S128 .f32)
    (x11 : FVec Ideal S128x128 .f32) (x12 : FVec Ideal S128 .f32)
    (h1 : ∀ i, 0 ≤ (x1 i).toInt ∧ (x1 i).toInt < 50) (h5 : ∀ i, 0 ≤ (x5 i).toInt ∧ (x5 i).toInt < 16384)
    (g : Fin 32) (h : Fin 128) :
    kPool (F := Ideal) out x1 x4 x5 x8 x9 x10 x11 x12 (ix2 g h)
      = ((∑ k : Fin 128, Ideal.div (out (ix2 g k)) n512 * x9 (ix2 k h)) + x10 (ix1 h))
        + kRel (nN := 1600) (nV := 50) (by decide) (by decide) x1 x4 x5 x8 x11 x12 g h := by
  unfold kPool
  rw [addf_apply]
  refine congrArg₂ (· + ·) (split_word_apply out _ x9 x10 ?_ g h) (split_topic_apply x1 x4 x5 _ _ x8 x11 x12 (fun g t => ?_) ?_ g h)
  · -- the docs per graph, broadcast
    exact fun i => bcast_scalar_apply _ _ _ i
  · -- the coefficient matrix: the reshaped scatter of the per-edge coefficients at the flat positions
    refine topic_matrix_apply x1 x4 x5 h1 h5 _ _ _ ?_ (fun e => ?_) (fun e => ?_) g t
    · exact fun i => bcast_scalar_apply _ _ _ i
    · -- the flat position of edge `e`
      refine (bcast_col_apply _ _ e).trans (topic_flatpos_apply x1 x4 x5 _ _ _ (fun e => ?_) ?_ (fun e => ?_) e)
      · exact topic_floor_apply x5 _ _ _ _ _ h5 (fun i => bcast_scalar_apply _ _ _ i) (fun i => bcast_scalar_apply _ _ _ i)
          (fun i => bcast_scalar_apply _ _ _ i) (fun i => bcast_scalar_apply _ _ _ i)
          (fun i => bcast_scalar_apply _ _ _ i) (ix1 e)
      · exact fun i => bcast_scalar_apply _ _ _ i
      · exact (bcast_col_apply _ _ e).trans (topic_wrap_apply x4 _ _ 1600#32 (fun i => bcast_scalar_apply _ _ _ i)
          (fun i => bcast_scalar_apply _ _ _ i) (ix1 e))
    · -- the coefficient of edge `e`
      refine topic_coef_apply x4 x5 h5 _ _ _ _ (fun n => ?_) (fun d => ?_) (fun e => ?_) (fun e => ?_) e
      · exact topic_deg_apply _ rfl rfl rfl rfl _ _ _ _ (fun j : Fin 200000 => x4 (ix1 j)) (fun i => bcast_scalar_apply _ _ _ i)
          (fun i => bcast_scalar_apply _ _ _ i) (fun j => bcast_col_apply _ _ j) (fun i => bcast_scalar_apply _ _ _ i) n
      · exact topic_deg_apply _ rfl rfl rfl rfl _ _ _ _ (fun j : Fin 200000 => x5 (ix1 j)) (fun i => bcast_scalar_apply _ _ _ i)
          (fun i => bcast_scalar_apply _ _ _ i) (fun j => bcast_col_apply _ _ j) (fun i => bcast_scalar_apply _ _ _ i) d
      · exact (bcast_col_apply _ _ e).trans (topic_wrap_apply x4 _ _ 1600#32 (fun i => bcast_scalar_apply _ _ _ i)
          (fun i => bcast_scalar_apply _ _ _ i) (ix1 e))
      · exact (bcast_col_apply _ _ e).trans (topic_wrap_apply x5 _ _ 16384#32 (fun i => bcast_scalar_apply _ _ _ i)
          (fun i => bcast_scalar_apply _ _ _ i) (ix1 e))
  · exact fun i => bcast_scalar_apply _ _ _ i

end Cert.KStage

end
-- ==== Proof.KernelPool.lean ====
/-
  The idealized kernel's pooled docs read at graph `g`, column `h`: the two relations in the kernel's arrangement, added.

  Word relation: the coefficient matrix entry M_wd[g, v] is the sum, over the edges whose flat position
  (dst / 512) · 15000 + word id is g · 15000 + v, of rsqrt(outdeg(src)) · rsqrt(indeg(dst)); with destination ids in
  `0 … 16383` and word ids in `0 … 14999` nothing wraps and the flat position decodes to (graph, vocabulary row), so
  these are the edges into graph g from row v. The padded columns and rows are zero and drop out of the launch's
  contraction over 15104. Topic relation: the same with 50 in place of 15000, contracted on the host.
-/
import proofs.«404497_j45732811768428_3_alg».proof.Proof.KernelWord
import proofs.«404497_j45732811768428_3_alg».proof.Proof.KernelTopic

set_option maxRecDepth 16384

noncomputable section

namespace Cert.KStage

open Cert.KernelIdeal Idealize.ShloMosaic Idealize.ShloMosaic.ValueIdx Cert.Reads Cert.Graph
open scoped BigOperators

variable [Cert.KernelIdeal.Facts]

theorem kpool_apply
    (x0 : IVec S100000 32) (x1 : IVec S1600 32) (x2 x3 : IVec S1000000 32) (x4 x5 : IVec S200000 32)
    (x7 : FVec Ideal S15000x128 .f32) (x8 : FVec Ideal S50x128 .f32) (x9 : FVec Ideal S128x128 .f32) (x10 : FVec Ideal S128 .f32)
    (x11 : FVec Ideal S128x128 .f32) (x12 : FVec Ideal S128 .f32)
    (h0 : ∀ i, 0 ≤ (x0 i).toInt ∧ (x0 i).toInt < 15000) (h1 : ∀ i, 0 ≤ (x1 i).toInt ∧ (x1 i).toInt < 50)
    (h3 : ∀ i, 0 ≤ (x3 i).toInt ∧ (x3 i).toInt < 16384) (h5 : ∀ i, 0 ≤ (x5 i).toInt ∧ (x5 i).toInt < 16384)
    (g : Fin 32) (h : Fin 128) :
    kPool (F := Ideal) (kOut (kA x0 x2 x3) (kB x7)) x1 x4 x5 x8 x9 x10 x11 x12 (ix2 g h)
      = kRel (nN := 100000) (nV := 15000) (by decide) (by decide) x0 x2 x3 x7 x9 x10 g h
        + kRel (nN := 1600) (nV := 50) (by decide) (by decide) x1 x4 x5 x8 x11 x12 g h := by
  have hout : ∀ k : Fin 128, kOut (F := Ideal) (kA x0 x2 x3) (kB x7) (ix2 g k)
      = ∑ v : Fin 15000,
          (∑ e ∈ Finset.univ.filter (fun e : Fin 1000000 =>
              (edOf x3 e).1 = g ∧ nvOf (nN := 100000) (nV := 15000) (by decide) x0 (esOf (nN := 100000) (by decide) x2 e) = v),
            roOf (nN := 100000) x2 (esOf (nN := 100000) (by decide) x2 e) * riOf x3 (edOf x3 e)) * x7 (ix2 v k) :=
    fun k => kout_apply x0 x2 x3 x7 h0 h3 g k
  generalize kOut (F := Ideal) (kA x0 x2 x3) (kB x7) = out at hout ⊢
  rw [kpool_split out x1 x4 x5 x8 x9 x10 x11 x12 h1 h5 g h]
  refine congrArg (· + _) ?_
  show _ = Cert.Pool.relK _ _ _ _ _ _ _ g h
  unfold Cert.Pool.relK
  simp only [hout]

end Cert.KStage

end
-- ==== Proof.RefSide.lean ====
/-
  The reference program's side of the bridge, at the ideal instance.

  Its pooled docs `val_main_v80` (a 32 × 128 array: the mean over the 512 docs of a graph of the two relations' per-doc
  rows added) read, at graph `g` and column `h`, as the mean over `j` of the two relations in the reference's
  arrangement at doc `(g, j)` (`rpool_apply`); and its two results are functions of the pooled docs and of the
  arguments y, W_out, b_out alone (`tailLoss`, `tailPred`: the output layer, the binary cross-entropy with logits
  averaged over the graphs, and the sigmoid).

  `rpool_apply` is read from the outside in, one relation at a time (`word_…`, `topic_…`, the same chain twice): the
  normalised ids, the table rows of the nodes, the source-side scale, the scaled rows gathered per edge, their sum per
  destination row, the dense layer, the destination-side scale and the bias; a doc's row `g * 512 + j` then is the
  relation in the reference's arrangement at doc `(g, j)` (`word_rel`, `topic_rel`).
-/
import proofs.«404497_j45732811768428_3_alg».proof.Proof.Gen.ReferenceIdeal.Run
import proofs.«404497_j45732811768428_3_alg».proof.Proof.Gen.ReferenceIdeal.Read
import proofs.«404497_j45732811768428_3_alg».proof.Proof.GraphData

noncomputable section

namespace Cert.RefSide

open Cert.ReferenceIdeal Cert.ReferenceIdeal.Gen Cert.ReferenceIdeal.Read
open Idealize.ShloMosaic Idealize.ShloMosaic.ValueIdx Cert.Reads Cert.Graph
open scoped BigOperators

/-! ## Indices by coordinates -/

/-- Two rank-1 indices with the same coordinate are equal. -/
theorem idx1_ext {n : Nat} (i j : (⟨1, ![n]⟩ : Shape).Idx) (h : (i 0).val = (j 0).val) : i = j := by
  funext a; match a with | ⟨0, _⟩ => exact Fin.ext h

/-- Two rank-2 indices with the same coordinates are equal. -/
theorem idx2_ext {n0 n1 : Nat} (i j : (⟨2, ![n0, n1]⟩ : Shape).Idx) (h0 : (i 0).val = (j 0).val)
    (h1 : (i 1).val = (j 1).val) : i = j := by
  funext a; match a with | ⟨0, _⟩ => exact Fin.ext h0 | ⟨1, _⟩ => exact Fin.ext h1

/-! ## The word relation (word nodes → docs), one stage at a time -/

section Word

variable (x0 : IVec S100000 32) (x2 x3 : IVec S1000000 32)
  (x7 : FVec Ideal S15000x128 .f32) (x9 : FVec Ideal S128x128 .f32) (x10 : FVec Ideal S128 .f32)

/-- The start-index column of the table gather is the node ids normalised. -/
theorem word_ids (n : Fin 100000) :
    val_main_v5 (F := Ideal) x0 (ix2 n (0 : Fin 1)) = wrapW 15000#32 (x0 (ix1 n)) := by
  rw [val_main_v5_apply, show idx_main_v5 (ix2 n (0 : Fin 1)) = ix1 n from idx1_ext _ _ rfl,
    val_main_v4_apply, val_main_v1_apply, val_main_v3_apply, val_main_v0_apply, val_main_v2_apply,
    val_main_c_apply, val_main_c_0_apply]
  rfl

/-- The node rows: the table row of the node. -/
theorem word_rows (n : Fin 100000) (k : Fin 128) :
    val_main_v6 (F := Ideal) x0 x7 (ix2 n k) = x7 (ix2 (nvOf (nV := 15000) (by decide) x0 n) k) := by
  unfold val_main_v6
  rw [gather_rows_apply (by decide) _ rfl rfl rfl rfl rfl rfl, word_ids]
  rfl

/-- The source-side scale of a node: the reciprocal root of its out-degree, at least one. -/
theorem word_ro (n : Fin 100000) :
    val_main_v23 (F := Ideal) x2 (ix1 n) = roOf (nN := 100000) x2 n := by
  rw [val_main_v23_apply, val_main_v18_apply, val_main_call0_v1_apply, val_main_call0_v0_apply,
    val_main_cst_4_apply]
  unfold val_main_v17
  rw [scatterAdd_vec_apply _ rfl rfl rfl rfl, val_main_v15_apply, val_main_cst_3_apply]
  simp only [val_main_v14_apply, val_main_cst_apply, val_main_v16_apply,
    show ∀ j : Fin 1000000, idx_main_v16 (ix2 j (0 : Fin 1)) = ix1 j from fun j => idx1_ext _ _ rfl]
  unfold roOf degScale
  simp only [Ideal.ofBits_def, Ideal.hostUnary_rsqrt_def, Ideal.maximumf_def]

/-- The source-side scale broadcast along the node rows. -/
theorem word_ro_rows (n : Fin 100000) (k : Fin 128) :
    val_main_v25 (F := Ideal) x2 (ix2 n k) = roOf (nN := 100000) x2 n := by
  rw [val_main_v25_apply, show idx_main_v25 (ix2 n k) = ix2 n (0 : Fin 1) from idx2_ext _ _ rfl rfl,
    val_main_v24_apply, show idx_main_v24 (ix2 n (0 : Fin 1)) = ix1 n from idx1_ext _ _ rfl, word_ro]

/-- The scaled node rows. -/
theorem word_scaled (n : Fin 100000) (k : Fin 128) :
    val_main_v26 (F := Ideal) x0 x2 x7 (ix2 n k)
      = x7 (ix2 (nvOf (nV := 15000) (by decide) x0 n) k) * roOf (nN := 100000) x2 n := by
  rw [val_main_v26_apply, word_rows, word_ro_rows]
  rfl

/-- The start-index column of the edge gather is the source ids normalised. -/
theorem word_src (e : Fin 1000000) :
    val_main_v32 (F := Ideal) x2 (ix2 e (0 : Fin 1)) = wrapW 100000#32 (x2 (ix1 e)) := by
  rw [val_main_v32_apply, show idx_main_v32 (ix2 e (0 : Fin 1)) = ix1 e from idx1_ext _ _ rfl,
    val_main_v31_apply, val_main_v28_apply, val_main_v30_apply, val_main_v27_apply, val_main_v29_apply,
    val_main_c_7_apply, val_main_c_8_apply]
  rfl

/-- The edge rows: the scaled row of the edge's source node. -/
theorem word_edges (e : Fin 1000000) (k : Fin 128) :
    val_main_v33 (F := Ideal) x0 x2 x7 (ix2 e k)
      = x7 (ix2 (nvOf (nV := 15000) (by decide) x0 (esOf (nN := 100000) (by decide) x2 e)) k)
          * roOf (nN := 100000) x2 (esOf (nN := 100000) (by decide) x2 e) := by
  unfold val_main_v33
  rw [gather_rows_apply (by decide) _ rfl rfl rfl rfl rfl rfl, word_src]
  exact word_scaled x0 x2 x7 (esOf (nN := 100000) (by decide) x2 e) k

/-- The edge rows summed per destination row: the edges whose destination id is exactly the row. -/
theorem word_summed (d : Fin 16384) (k : Fin 128) :
    val_main_v36 (F := Ideal) x0 x2 x3 x7 (ix2 d k)
      = ∑ e ∈ Finset.univ.filter (fun e : Fin 1000000 => (x3 (ix1 e)).toInt = (d.val : Int)),
          x7 (ix2 (nvOf (nV := 15000) (by decide) x0 (esOf (nN := 100000) (by decide) x2 e)) k)
            * roOf (nN := 100000) x2 (esOf (nN := 100000) (by decide) x2 e) := by
  unfold val_main_v36
  rw [scatterAdd_rows_apply _ rfl rfl rfl rfl, val_main_v34_apply, val_main_cst_9_apply]
  simp only [val_main_v35_apply,
    show ∀ j : Fin 1000000, idx_main_v35 (ix2 j (0 : Fin 1)) = ix1 j from fun j => idx1_ext _ _ rfl, word_edges]
  rw [Ideal.ofBits_def, ofBits_zero, zero_add]

/-- The dense layer on the summed rows. -/
theorem word_dense (d : Fin 16384) (h : Fin 128) :
    val_main_v37 (F := Ideal) x0 x2 x3 x7 x9 (ix2 d h)
      = ∑ k : Fin 128, (∑ e ∈ Finset.univ.filter (fun e : Fin 1000000 => (x3 (ix1 e)).toInt = (d.val : Int)),
          x7 (ix2 (nvOf (nV := 15000) (by decide) x0 (esOf (nN := 100000) (by decide) x2 e)) k)
            * roOf (nN := 100000) x2 (esOf (nN := 100000) (by decide) x2 e)) * x9 (ix2 k h) := by
  rw [val_main_v37_apply]
  refine Finset.sum_congr rfl fun k _ => ?_
  rw [show lidx_main_v37 (ix2 d h) k = ix2 d k from idx2_ext _ _ rfl rfl,
    show ridx_main_v37 (ix2 d h) k = ix2 k h from idx2_ext _ _ rfl rfl, word_summed]

/-- The destination-side scale of a row: the reciprocal root of its in-degree, at least one. -/
theorem word_ri (d : Fin 16384) :
    val_main_v38 (F := Ideal) x3 (ix1 d) = degScale 16384 (fun j : Fin 1000000 => x3 (ix1 j)) d := by
  rw [val_main_v38_apply, val_main_v22_apply, val_main_call1_v1_apply, val_main_call1_v0_apply,
    val_main_cst_6_apply]
  unfold val_main_v21
  rw [scatterAdd_vec_apply _ rfl rfl rfl rfl, val_main_v19_apply, val_main_cst_5_apply]
  simp only [val_main_v14_apply, val_main_cst_apply, val_main_v20_apply,
    show ∀ j : Fin 1000000, idx_main_v20 (ix2 j (0 : Fin 1)) = ix1 j from fun j => idx1_ext _ _ rfl]
  unfold degScale
  simp only [Ideal.ofBits_def, Ideal.hostUnary_rsqrt_def, Ideal.maximumf_def]

/-- The destination-side scale broadcast along the rows. -/
theorem word_ri_rows (d : Fin 16384) (h : Fin 128) :
    val_main_v40 (F := Ideal) x3 (ix2 d h) = degScale 16384 (fun j : Fin 1000000 => x3 (ix1 j)) d := by
  rw [val_main_v40_apply, show idx_main_v40 (ix2 d h) = ix2 d (0 : Fin 1) from idx2_ext _ _ rfl rfl,
    val_main_v39_apply, show idx_main_v39 (ix2 d (0 : Fin 1)) = ix1 d from idx1_ext _ _ rfl, word_ri]

/-- The bias broadcast along the rows. -/
theorem word_bias (d : Fin 16384) (h : Fin 128) :
    val_main_v43 (F := Ideal) x10 (ix2 d h) = x10 (ix1 h) := by
  rw [val_main_v43_apply, show idx_main_v43 (ix2 d h) = ix2 (0 : Fin 1) h from idx2_ext _ _ rfl rfl,
    val_main_v42_apply, show idx_main_v42 (ix2 (0 : Fin 1) h) = ix1 h from idx1_ext _ _ rfl]

/-- The relation's row of a doc is the reference's arrangement at the doc, the destination ids being in range. -/
theorem word_rel (hd : ∀ i, 0 ≤ (x3 i).toInt ∧ (x3 i).toInt < 16384) (d : Fin 32 × Fin 512) (h : Fin 128) :
    val_main_v44 (F := Ideal) x0 x2 x3 x7 x9 x10 (ix2 (docIx d) h)
      = rRel (nN := 100000) (nV := 15000) (by decide) (by decide) x0 x2 x3 x7 x9 x10 d h := by
  have hf : Finset.univ.filter (fun e : Fin 1000000 => (x3 (ix1 e)).toInt = ((docIx d).val : Int))
      = Finset.univ.filter (fun e : Fin 1000000 => edOf x3 e = d) :=
    Finset.filter_congr fun e _ => (docOf_eq_iff (x3 (ix1 e)) (hd _).1 (hd _).2 d).symm
  rw [val_main_v44_apply, val_main_v41_apply, word_dense, word_ri_rows, word_bias, hf]
  rfl

end Word

/-! ## The topic relation (topic nodes → docs): the same chain -/

section Topic

variable (x1 : IVec S1600 32) (x4 x5 : IVec S200000 32)
  (x8 : FVec Ideal S50x128 .f32) (x11 : FVec Ideal S128x128 .f32) (x12 : FVec Ideal S128 .f32)

/-- The start-index column of the table gather is the node ids normalised. -/
theorem topic_ids (n : Fin 1600) :
    val_main_v12 (F := Ideal) x1 (ix2 n (0 : Fin 1)) = wrapW 50#32 (x1 (ix1 n)) := by
  rw [val_main_v12_apply, show idx_main_v12 (ix2 n (0 : Fin 1)) = ix1 n from idx1_ext _ _ rfl,
    val_main_v11_apply, val_main_v8_apply, val_main_v10_apply, val_main_v7_apply, val_main_v9_apply,
    val_main_c_1_apply, val_main_c_2_apply]
  rfl

/-- The node rows: the table row of the node. -/
theorem topic_rows (n : Fin 1600) (k : Fin 128) :
    val_main_v13 (F := Ideal) x1 x8 (ix2 n k) = x8 (ix2 (nvOf (nV := 50) (by decide) x1 n) k) := by
  unfold val_main_v13
  rw [gather_rows_apply (by decide) _ rfl rfl rfl rfl rfl rfl, topic_ids]
  rfl

/-- The source-side scale of a node: the reciprocal root of its out-degree, at least one. -/
theorem topic_ro (n : Fin 1600) :
    val_main_v54 (F := Ideal) x4 (ix1 n) = roOf (nN := 1600) x4 n := by
  rw [val_main_v54_apply, val_main_v49_apply, val_main_call2_v1_apply, val_main_call2_v0_apply,
    val_main_cst_12_apply]
  unfold val_main_v48
  rw [scatterAdd_vec_apply _ rfl rfl rfl rfl, val_main_v46_apply, val_main_cst_11_apply]
  simp only [val_main_v45_apply, val_main_cst_10_apply, val_main_v47_apply,
    show ∀ j : Fin 200000, idx_main_v47 (ix2 j (0 : Fin 1)) = ix1 j from fun j => idx1_ext _ _ rfl]
  unfold roOf degScale
  simp only [Ideal.ofBits_def, Ideal.hostUnary_rsqrt_def, Ideal.maximumf_def]

/-- The source-side scale broadcast along the node rows. -/
theorem topic_ro_rows (n : Fin 1600) (k : Fin 128) :
    val_main_v56 (F := Ideal) x4 (ix2 n k) = roOf (nN := 1600) x4 n := by
  rw [val_main_v56_apply, show idx_main_v56 (ix2 n k) = ix2 n (0 : Fin 1) from idx2_ext _ _ rfl rfl,
    val_main_v55_apply, show idx_main_v55 (ix2 n (0 : Fin 1)) = ix1 n from idx1_ext _ _ rfl, topic_ro]

/-- The scaled node rows. -/
theorem topic_scaled (n : Fin 1600) (k : Fin 128) :
    val_main_v57 (F := Ideal) x1 x4 x8 (ix2 n k)
      = x8 (ix2 (nvOf (nV := 50) (by decide) x1 n) k) * roOf (nN := 1600) x4 n := by
  rw [val_main_v57_apply, topic_rows, topic_ro_rows]
  rfl

/-- The start-index column of the edge gather is the source ids normalised. -/
theorem topic_src (e : Fin 200000) :
    val_main_v63 (F := Ideal) x4 (ix2 e (0 : Fin 1)) = wrapW 1600#32 (x4 (ix1 e)) := by
  rw [val_main_v63_apply, show idx_main_v63 (ix2 e (0 : Fin 1)) = ix1 e from idx1_ext _ _ rfl,
    val_main_v62_apply, val_main_v59_apply, val_main_v61_apply, val_main_v58_apply, val_main_v60_apply,
    val_main_c_15_apply, val_main_c_16_apply]
  rfl

/-- The edge rows: the scaled row of the edge's source node. -/
theorem topic_edges (e : Fin 200000) (k : Fin 128) :
    val_main_v64 (F := Ideal) x1 x4 x8 (ix2 e k)
      = x8 (ix2 (nvOf (nV := 50) (by decide) x1 (esOf (nN := 1600) (by decide) x4 e)) k)
          * roOf (nN := 1600) x4 (esOf (nN := 1600) (by decide) x4 e) := by
  unfold val_main_v64
  rw [gather_rows_apply (by decide) _ rfl rfl rfl rfl rfl rfl, topic_src]
  exact topic_scaled x1 x4 x8 (esOf (nN := 1600) (by decide) x4 e) k

/-- The edge rows summed per destination row: the edges whose destination id is exactly the row. -/
theorem topic_summed (d : Fin 16384) (k : Fin 128) :
    val_main_v67 (F := Ideal) x1 x4 x5 x8 (ix2 d k)
      = ∑ e ∈ Finset.univ.filter (fun e : Fin 200000 => (x5 (ix1 e)).toInt = (d.val : Int)),
          x8 (ix2 (nvOf (nV := 50) (by decide) x1 (esOf (nN := 1600) (by decide) x4 e)) k)
            * roOf (nN := 1600) x4 (esOf (nN := 1600) (by decide) x4 e) := by
  unfold val_main_v67
  rw [scatterAdd_rows_apply _ rfl rfl rfl rfl, val_main_v65_apply, val_main_cst_17_apply]
  simp only [val_main_v66_apply,
    show ∀ j : Fin 200000, idx_main_v66 (ix2 j (0 : Fin 1)) = ix1 j from fun j => idx1_ext _ _ rfl, topic_edges]
  rw [Ideal.ofBits_def, ofBits_zero, zero_add]

/-- The dense layer on the summed rows. -/
theorem topic_dense (d : Fin 16384) (h : Fin 128) :
    val_main_v68 (F := Ideal) x1 x4 x5 x8 x11 (ix2 d h)
      = ∑ k : Fin 128, (∑ e ∈ Finset.univ.filter (fun e : Fin 200000 => (x5 (ix1 e)).toInt = (d.val : Int)),
          x8 (ix2 (nvOf (nV := 50) (by decide) x1 (esOf (nN := 1600) (by decide) x4 e)) k)
            * roOf (nN := 1600) x4 (esOf (nN := 1600) (by decide) x4 e)) * x11 (ix2 k h) := by
  rw [val_main_v68_apply]
  refine Finset.sum_congr rfl fun k _ => ?_
  rw [show lidx_main_v68 (ix2 d h) k = ix2 d k from idx2_ext _ _ rfl rfl,
    show ridx_main_v68 (ix2 d h) k = ix2 k h from idx2_ext _ _ rfl rfl, topic_summed]

/-- The destination-side scale of a row: the reciprocal root of its in-degree, at least one. -/
theorem topic_ri (d : Fin 16384) :
    val_main_v69 (F := Ideal) x5 (ix1 d) = degScale 16384 (fun j : Fin 200000 => x5 (ix1 j)) d := by
  rw [val_main_v69_apply, val_main_v53_apply, val_main_call3_v1_apply, val_main_call3_v0_apply,
    val_main_cst_14_apply]
  unfold val_main_v52
  rw [scatterAdd_vec_apply _ rfl rfl rfl rfl, val_main_v50_apply, val_main_cst_13_apply]
  simp only [val_main_v45_apply, val_main_cst_10_apply, val_main_v51_apply,
    show ∀ j : Fin 200000, idx_main_v51 (ix2 j (0 : Fin 1)) = ix1 j from fun j => idx1_ext _ _ rfl]
  unfold degScale
  simp only [Ideal.ofBits_def, Ideal.hostUnary_rsqrt_def, Ideal.maximumf_def]

/-- The destination-side scale broadcast along the rows. -/
theorem topic_ri_rows (d : Fin 16384) (h : Fin 128) :
    val_main_v71 (F := Ideal) x5 (ix2 d h) = degScale 16384 (fun j : Fin 200000 => x5 (ix1 j)) d := by
  rw [val_main_v71_apply, show idx_main_v71 (ix2 d h) = ix2 d (0 : Fin 1) from idx2_ext _ _ rfl rfl,
    val_main_v70_apply, show idx_main_v70 (ix2 d (0 : Fin 1)) = ix1 d from idx1_ext _ _ rfl, topic_ri]

/-- The bias broadcast along the rows. -/
theorem topic_bias (d : Fin 16384) (h : Fin 128) :
    val_main_v74 (F := Ideal) x12 (ix2 d h) = x12 (ix1 h) := by
  rw [val_main_v74_apply, show idx_main_v74 (ix2 d h) = ix2 (0 : Fin 1) h from idx2_ext _ _ rfl rfl,
    val_main_v73_apply, show idx_main_v73 (ix2 (0 : Fin 1) h) = ix1 h from idx1_ext _ _ rfl]

/-- The relation's row of a doc is the reference's arrangement at the doc, the destination ids being in range. -/
theorem topic_rel (hd : ∀ i, 0 ≤ (x5 i).toInt ∧ (x5 i).toInt < 16384) (d : Fin 32 × Fin 512) (h : Fin 128) :
    val_main_v75 (F := Ideal) x1 x4 x5 x8 x11 x12 (ix2 (docIx d) h)
      = rRel (nN := 1600) (nV := 50) (by decide) (by decide) x1 x4 x5 x8 x11 x12 d h := by
  have hf : Finset.univ.filter (fun e : Fin 200000 => (x5 (ix1 e)).toInt = ((docIx d).val : Int))
      = Finset.univ.filter (fun e : Fin 200000 => edOf x5 e = d) :=
    Finset.filter_congr fun e _ => (docOf_eq_iff (x5 (ix1 e)) (hd _).1 (hd _).2 d).symm
  rw [val_main_v75_apply, val_main_v72_apply, topic_dense, topic_ri_rows, topic_bias, hf]
  rfl

end Topic

/-! ## The pooled docs -/

/-- The pooled docs at graph `g`, column `h`: the mean over the graph's docs of the two relations at the doc, in the
    reference's arrangement. The destination ids are in range (an id outside `0 … 16383` lands in no doc). -/
theorem rpool_apply
    (x0 : IVec S100000 32) (x1 : IVec S1600 32) (x2 x3 : IVec S1000000 32) (x4 x5 : IVec S200000 32)
    (x7 : FVec Ideal S15000x128 .f32) (x8 : FVec Ideal S50x128 .f32) (x9 : FVec Ideal S128x128 .f32) (x10 : FVec Ideal S128 .f32)
    (x11 : FVec Ideal S128x128 .f32) (x12 : FVec Ideal S128 .f32)
    (h3 : ∀ i, 0 ≤ (x3 i).toInt ∧ (x3 i).toInt < 16384) (h5 : ∀ i, 0 ≤ (x5 i).toInt ∧ (x5 i).toInt < 16384)
    (g : Fin 32) (h : Fin 128) :
    val_main_v80 (F := Ideal) x0 x1 x2 x3 x4 x5 x7 x8 x9 x10 x11 x12 (ix2 g h)
      = Ideal.div (∑ j : Fin 512,
          (rRel (nN := 100000) (nV := 15000) (by decide) (by decide) x0 x2 x3 x7 x9 x10 (g, j) h
            + rRel (nN := 1600) (nV := 50) (by decide) (by decide) x1 x4 x5 x8 x11 x12 (g, j) h)) n512 := by
  -- the quotient by 512 of zero plus the sum over the graph's 512 docs
  rw [val_main_v80_apply, val_main_v78_apply, val_main_v79_apply, val_main_cst_19_apply, val_main_cst_18_apply]
  simp only [Ideal.hostDivf_def, Ideal.ofBits_def]
  rw [ofBits_zero, zero_add]
  unfold n512
  refine congrArg (fun s : EReal => Ideal.div s (Ideal.ofBits .f32 0x44000000#32)) (Finset.sum_congr rfl fun j _ => ?_)
  -- doc `j` of graph `g` is row `g * 512 + j` of the per-doc array: the two relations' rows added
  have hi : idx_main_v77 (idx_main_v78 (ix2 g h) j) = ix2 (docIx (g, j)) h :=
    idx2_ext _ _
      (by
        show ((g.val * 512 + j.val) * 128 + h.val) / 128 = g.val * 512 + j.val
        have := h.isLt
        omega)
      (by
        show ((g.val * 512 + j.val) * 128 + h.val) % 128 = h.val
        have := h.isLt
        omega)
  rw [val_main_v77_apply, hi, val_main_v76_apply, word_rel x0 x2 x3 x7 x9 x10 h3, topic_rel x1 x4 x5 x8 x11 x12 h5]
  exact Ideal.addf_def _ _

/-! ## The results as functions of the pooled docs -/

/-- The loss as a function of the pooled docs: the output layer `pool · W_out + b_out` gives one logit per graph, and the
    loss is the mean over the graphs of `max x 0 − x · y + log1p (exp (−|x|))`. -/
def tailLoss (pool : FVec Ideal S32x128 .f32) (x6 : FVec Ideal S32 .f32) (x13 : FVec Ideal S128x1 .f32) (x14 : FVec Ideal S1 .f32) :
    FVec Ideal S_ .f32 :=
  Host.divf (F := Ideal)
    (Host.reduceAdd (F := Ideal)
      (addf
        (subf
          (maximumf
            (shapeCast _ (addf (Host.dotGeneral (F := Ideal) dot_S32x128_S128x1_S32x1_1_0_0_1_n_n none pool x13) (val_main_v83 (F := Ideal) x14)) shapeCasts_S32x1_S32)
            (val_main_v86 (F := Ideal)))
          (mulf
            (shapeCast _ (addf (Host.dotGeneral (F := Ideal) dot_S32x128_S128x1_S32x1_1_0_0_1_n_n none pool x13) (val_main_v83 (F := Ideal) x14)) shapeCasts_S32x1_S32)
            x6))
        (Host.log1p (F := Ideal) (Host.exp (F := Ideal) (Host.negf (F := Ideal) (Host.absf (F := Ideal)
          (shapeCast _ (addf (Host.dotGeneral (F := Ideal) dot_S32x128_S128x1_S32x1_1_0_0_1_n_n none pool x13) (val_main_v83 (F := Ideal) x14)) shapeCasts_S32x1_S32))))))
      (val_main_cst_21 (F := Ideal)) reducesTo_S32_S_d0 h_S_)
    (val_main_cst_22 (F := Ideal))

/-- The prediction as a function of the pooled docs: `1 / (1 + exp (−logit))`. -/
def tailPred (pool : FVec Ideal S32x128 .f32) (x13 : FVec Ideal S128x1 .f32) (x14 : FVec Ideal S1 .f32) : FVec Ideal S32x1 .f32 :=
  Host.divf (F := Ideal) (val_main_v101 (F := Ideal))
    (addf (val_main_v99 (F := Ideal)) (Host.exp (F := Ideal) (Host.negf (F := Ideal)
      (addf (Host.dotGeneral (F := Ideal) dot_S32x128_S128x1_S32x1_1_0_0_1_n_n none pool x13) (val_main_v83 (F := Ideal) x14)))))

theorem loss_eq
    (x0 : IVec S100000 32) (x1 : IVec S1600 32) (x2 x3 : IVec S1000000 32) (x4 x5 : IVec S200000 32) (x6 : FVec Ideal S32 .f32)
    (x7 : FVec Ideal S15000x128 .f32) (x8 : FVec Ideal S50x128 .f32) (x9 : FVec Ideal S128x128 .f32) (x10 : FVec Ideal S128 .f32)
    (x11 : FVec Ideal S128x128 .f32) (x12 : FVec Ideal S128 .f32) (x13 : FVec Ideal S128x1 .f32) (x14 : FVec Ideal S1 .f32) :
    val_main_v96 (F := Ideal) x0 x1 x2 x3 x4 x5 x6 x7 x8 x9 x10 x11 x12 x13 x14
      = tailLoss (val_main_v80 (F := Ideal) x0 x1 x2 x3 x4 x5 x7 x8 x9 x10 x11 x12) x6 x13 x14 := by
  rfl

theorem pred_eq
    (x0 : IVec S100000 32) (x1 : IVec S1600 32) (x2 x3 : IVec S1000000 32) (x4 x5 : IVec S200000 32)
    (x7 : FVec Ideal S15000x128 .f32) (x8 : FVec Ideal S50x128 .f32) (x9 : FVec Ideal S128x128 .f32) (x10 : FVec Ideal S128 .f32)
    (x11 : FVec Ideal S128x128 .f32) (x12 : FVec Ideal S128 .f32) (x13 : FVec Ideal S128x1 .f32) (x14 : FVec Ideal S1 .f32) :
    val_main_v102 (F := Ideal) x0 x1 x2 x3 x4 x5 x7 x8 x9 x10 x11 x12 x13 x14
      = tailPred (val_main_v80 (F := Ideal) x0 x1 x2 x3 x4 x5 x7 x8 x9 x10 x11 x12) x13 x14 := by
  rfl

end Cert.RefSide

end
-- ==== Proof.PoolBridge.lean ====
/-
  The two arrangements of the two relations over the argument arrays agree when the float arrays hold real numbers:
  every entry that enters the sums — table rows, dense layers, biases, and the degree scales, which are real whatever
  the ids are — is then a real number, the docs per graph are the real 512, and the identity of PoolAlgebra applies.
-/
import proofs.«404497_j45732811768428_3_alg».proof.Proof.GraphData

noncomputable section

namespace Cert.Graph

open Idealize.ShloMosaic Idealize.ShloMosaic.ValueIdx Cert.Reads
open scoped BigOperators

/-- An extended real that is a coerced real is the coercion of its own real part. -/
theorem coe_toReal_of_real {x : EReal} (hx : ∃ r : ℝ, x = ((r : ℝ) : EReal)) : ((EReal.toReal x : ℝ) : EReal) = x := by
  obtain ⟨r, rfl⟩ := hx
  rw [EReal.toReal_coe]

/-- A function into the extended reals that is pointwise a coerced real is the coercion of its real part. -/
theorem fun_coe_toReal {α : Type} (f : α → EReal) (hf : ∀ a, ∃ r : ℝ, f a = ((r : ℝ) : EReal)) :
    f = fun a => ((EReal.toReal (f a) : ℝ) : EReal) :=
  funext fun a => (coe_toReal_of_real (hf a)).symm

/-- The source-side scale is a real number. -/
theorem roOf_coe {nE nN : Nat} (src : IVec ⟨1, ![nE]⟩ 32) (n : Fin nN) :
    ((EReal.toReal (roOf src n) : ℝ) : EReal) = roOf src n :=
  coe_toReal_of_real (degScale_real _ _ _)

/-- The destination-side scale is a real number. -/
theorem riOf_coe {nE : Nat} (dst : IVec ⟨1, ![nE]⟩ 32) (d : Fin 32 × Fin 512) :
    ((EReal.toReal (riOf dst d) : ℝ) : EReal) = riOf dst d :=
  coe_toReal_of_real (degScale_real _ _ _)

/-- The two programs' pooled docs agree: the kernel's two relations added are the reference's per-doc sum of the two
    relations averaged over the 512 docs of the graph, when the float arrays hold real numbers. -/
theorem kRel_add_eq_mean
    {nE₁ nN₁ nV₁ nE₂ nN₂ nV₂ : Nat} (hN₁ : 0 < nN₁) (hV₁ : 0 < nV₁) (hN₂ : 0 < nN₂) (hV₂ : 0 < nV₂)
    (ids₁ : IVec ⟨1, ![nN₁]⟩ 32) (src₁ dst₁ : IVec ⟨1, ![nE₁]⟩ 32)
    (T₁ : FVec Ideal ⟨2, ![nV₁, 128]⟩ .f32) (W₁ : FVec Ideal ⟨2, ![128, 128]⟩ .f32) (b₁ : FVec Ideal ⟨1, ![128]⟩ .f32)
    (ids₂ : IVec ⟨1, ![nN₂]⟩ 32) (src₂ dst₂ : IVec ⟨1, ![nE₂]⟩ 32)
    (T₂ : FVec Ideal ⟨2, ![nV₂, 128]⟩ .f32) (W₂ : FVec Ideal ⟨2, ![128, 128]⟩ .f32) (b₂ : FVec Ideal ⟨1, ![128]⟩ .f32)
    (hT₁ : ∀ i, ∃ r : ℝ, T₁ i = ((r : ℝ) : EReal)) (hW₁ : ∀ i, ∃ r : ℝ, W₁ i = ((r : ℝ) : EReal)) (hb₁ : ∀ i, ∃ r : ℝ, b₁ i = ((r : ℝ) : EReal))
    (hT₂ : ∀ i, ∃ r : ℝ, T₂ i = ((r : ℝ) : EReal)) (hW₂ : ∀ i, ∃ r : ℝ, W₂ i = ((r : ℝ) : EReal)) (hb₂ : ∀ i, ∃ r : ℝ, b₂ i = ((r : ℝ) : EReal))
    (g : Fin 32) (h : Fin 128) :
    kRel hN₁ hV₁ ids₁ src₁ dst₁ T₁ W₁ b₁ g h + kRel hN₂ hV₂ ids₂ src₂ dst₂ T₂ W₂ b₂ g h
      = Ideal.div (∑ j : Fin 512, (rRel hN₁ hV₁ ids₁ src₁ dst₁ T₁ W₁ b₁ (g, j) h + rRel hN₂ hV₂ ids₂ src₂ dst₂ T₂ W₂ b₂ (g, j) h)) n512 := by
  have hT₁c : ∀ i, ((EReal.toReal (T₁ i) : ℝ) : EReal) = T₁ i := fun i => coe_toReal_of_real (hT₁ i)
  have hW₁c : ∀ i, ((EReal.toReal (W₁ i) : ℝ) : EReal) = W₁ i := fun i => coe_toReal_of_real (hW₁ i)
  have hb₁c : ∀ i, ((EReal.toReal (b₁ i) : ℝ) : EReal) = b₁ i := fun i => coe_toReal_of_real (hb₁ i)
  have hT₂c : ∀ i, ((EReal.toReal (T₂ i) : ℝ) : EReal) = T₂ i := fun i => coe_toReal_of_real (hT₂ i)
  have hW₂c : ∀ i, ((EReal.toReal (W₂ i) : ℝ) : EReal) = W₂ i := fun i => coe_toReal_of_real (hW₂ i)
  have hb₂c : ∀ i, ((EReal.toReal (b₂ i) : ℝ) : EReal) = b₂ i := fun i => coe_toReal_of_real (hb₂ i)
  have key := Cert.Pool.pool_eq (G := Fin 32) (J := Fin 512) (H := Fin 128)
    (esOf hN₁ src₁) (edOf dst₁) (nvOf hV₁ ids₁)
    (fun n => EReal.toReal (roOf src₁ n)) (fun d => EReal.toReal (riOf dst₁ d))
    (fun v k => EReal.toReal (T₁ (ix2 v k))) (fun k h => EReal.toReal (W₁ (ix2 k h))) (fun h => EReal.toReal (b₁ (ix1 h)))
    (esOf hN₂ src₂) (edOf dst₂) (nvOf hV₂ ids₂)
    (fun n => EReal.toReal (roOf src₂ n)) (fun d => EReal.toReal (riOf dst₂ d))
    (fun v k => EReal.toReal (T₂ (ix2 v k))) (fun k h => EReal.toReal (W₂ (ix2 k h))) (fun h => EReal.toReal (b₂ (ix1 h)))
    (512 : ℝ) (by rw [Fintype.card_fin]; norm_num) (by norm_num) g h
  simp only [hT₁c, hW₁c, hb₁c, hT₂c, hW₂c, hb₂c, roOf_coe, riOf_coe] at key
  unfold kRel rRel
  rw [n512_eq]
  exact key

end Cert.Graph

end
-- ==== Proof.PreFacts.lean ====
/-
  What the precondition says, entry by entry: every float argument holds real numbers, and the four integer arguments
  that index an array are in its range (word ids and topic ids name a row of their embedding table; the destination
  ids of both relations name a doc).
-/
import proofs.«404497_j45732811768428_3_alg».proof.Pre_finite_inputs
import Idealize.ShloMosaic.PureOps.Ideal
import Idealize.ShloMosaic.Lib.ReduceAll
import Idealize.ShloMosaic.Lib.ValueIdx

noncomputable section

namespace Cert.PreFacts

open Idealize.ShloMosaic Cert.Pre_finite_inputs

/-- Every entry of a float array at the ideal instance is a real number (neither infinity). -/
def AllReal {s : Shape} (x : FVec Ideal s .f32) : Prop := ∀ i, ∃ r : ℝ, x i = ((r : ℝ) : EReal)

/-- Every word of an integer array, read signed, lies in `0 … N − 1`. -/
def InRange {s : Shape} (N : Int) (x : IVec s 32) : Prop := ∀ i, 0 ≤ (x i).toInt ∧ (x i).toInt < N

/-- The scalar shape has exactly one index. -/
local instance : Subsingleton S_.Idx := ⟨fun a b => funext fun d => d.elim0⟩

/-- A one-bit word built from a Boolean is 1 exactly when the Boolean is true. -/
theorem ofBool_eq_one (b : Bool) : BitVec.ofBool b = 1#1 ↔ b = true := by cases b <;> decide

/-- The f32 pattern `0x7F800000` denotes +∞. -/
theorem inf_bits : Ideal.ofBits .f32 0x7F800000#32 = (⊤ : EReal) := by simp [Ideal.ofBits, Ideal.ieee]

/-- An extended real whose absolute value `max x (−x)` is below +∞ is a real number: −∞ has absolute value +∞, and so does +∞. -/
theorem real_of_abs_lt_top (x : EReal) (h : max x (-x) < ⊤) : ∃ r : ℝ, x = ((r : ℝ) : EReal) := by
  induction x using EReal.rec with
  | bot => simp at h
  | coe r => exact ⟨r, rfl⟩
  | top => simp at h

/-- `all(|x| < +∞)` being 1 says every entry of `x` is a real number, at any shape. -/
theorem allReal_of_all {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi (cmpf .olt (Host.absf x) (broadcastInDim s ![] hb (constant S_ .f32 0x7F800000#32)))
          (constantI S_ 1 1#1) hr h0 ValueIdx.ix0 = 1#1) : AllReal x := by
  intro i
  have hi := Host.reduce_andi_all _ _ hr h0 _ e i
  apply real_of_abs_lt_top
  simp only [cmpf, Host.absf, broadcastInDim, constant, Ideal.ofBits_def, inf_bits] at hi
  change Ideal.cmp .olt (max (x i) (-x i)) ⊤ = 1#1 at hi
  simpa only [Ideal.cmp, ofBool_eq_one, decide_eq_true_eq] using hi

/-- `all(x ≥ 0 ∧ x < c)` being 1, for a word `c` that reads `N` signed, says every word of `x` reads in `0 … N − 1`, at any shape. -/
theorem inRange_of_all {s : Shape} {axes : List (Fin s.rank)} (N : Int) (c : BitVec 32) (hc : c.toInt = N) (x : IVec s 32)
    (hb : S_.BroadcastsInDim s (![] : Fin 0 → Fin s.rank)) (hr : s.ReducesTo axes S_) (h0 : 0 < S_.numel)
    (e : Host.reduce IntOp.andi
          (andi (cmpi .sge x (broadcastInDim s ![] hb (constantI S_ 32 0#32)))
                (cmpi .slt x (broadcastInDim s ![] hb (constantI S_ 32 c))))
          (constantI S_ 1 1#1) hr h0 ValueIdx.ix0 = 1#1) : InRange N x := by
  intro i
  have hi := Host.reduce_andi_all _ _ hr h0 _ e i
  simp only [andi, cmpi, broadcastInDim, constantI] at hi
  rw [IntOp.andi_eq_one, IntOp.cmpi_sge, IntOp.cmpi_slt, hc, show (0#32 : BitVec 32).toInt = 0 from by decide] at hi
  exact hi

/-- A conjunction of two scalar bits that is 1 has both bits 1. -/
theorem andi_ix0 (a b : IVec S_ 1) (h : andi a b ValueIdx.ix0 = 1#1) : a ValueIdx.ix0 = 1#1 ∧ b ValueIdx.ix0 = 1#1 :=
  IntOp.andi_eq_one.1 h

/-- The precondition, decoded. -/
theorem decode [Cert.Pre_finite_inputs.Facts]
    (x0 : IVec S100000 32) (x1 : IVec S1600 32) (x2 x3 : IVec S1000000 32) (x4 x5 : IVec S200000 32)
    (x6 : FVec Ideal S32 .f32) (x7 : FVec Ideal S15000x128 .f32) (x8 : FVec Ideal S50x128 .f32)
    (x9 : FVec Ideal S128x128 .f32) (x10 : FVec Ideal S128 .f32) (x11 : FVec Ideal S128x128 .f32)
    (x12 : FVec Ideal S128 .f32) (x13 : FVec Ideal S128x1 .f32) (x14 : FVec Ideal S1 .f32)
    (h : Cert.Pre_finite_inputs.fn (F := Ideal) x0 x1 x2 x3 x4 x5 x6 x7 x8 x9 x10 x11 x12 x13 x14 = fun _ => 1#1) :
    AllReal x6 ∧ AllReal x7 ∧ AllReal x8 ∧ AllReal x9 ∧ AllReal x10 ∧ AllReal x11 ∧ AllReal x12 ∧ AllReal x13 ∧ AllReal x14
      ∧ InRange 15000 x0 ∧ InRange 50 x1 ∧ InRange 16384 x3 ∧ InRange 16384 x5 := by
  have e := congrFun h ValueIdx.ix0
  unfold Cert.Pre_finite_inputs.fn Cert.Pre_finite_inputs.fn_part1 Cert.Pre_finite_inputs.fn_part2
    Cert.Pre_finite_inputs.fn_part3 Cert.Pre_finite_inputs.fn_part4 at e
  dsimp only at e
  -- the thirteen conjuncts, peeled off the chain from the last to the first
  obtain ⟨e, c13⟩ := andi_ix0 _ _ e
  obtain ⟨e, c12⟩ := andi_ix0 _ _ e
  obtain ⟨e, c11⟩ := andi_ix0 _ _ e
  obtain ⟨e, c10⟩ := andi_ix0 _ _ e
  obtain ⟨e, c9⟩ := andi_ix0 _ _ e
  obtain ⟨e, c8⟩ := andi_ix0 _ _ e
  obtain ⟨e, c7⟩ := andi_ix0 _ _ e
  obtain ⟨e, c6⟩ := andi_ix0 _ _ e
  obtain ⟨e, c5⟩ := andi_ix0 _ _ e
  obtain ⟨e, c4⟩ := andi_ix0 _ _ e
  obtain ⟨e, c3⟩ := andi_ix0 _ _ e
  obtain ⟨c1, c2⟩ := andi_ix0 _ _ e
  exact ⟨allReal_of_all x6 _ _ _ c1, allReal_of_all x7 _ _ _ c2, allReal_of_all x8 _ _ _ c3, allReal_of_all x9 _ _ _ c4,
    allReal_of_all x10 _ _ _ c5, allReal_of_all x11 _ _ _ c6, allReal_of_all x12 _ _ _ c7, allReal_of_all x13 _ _ _ c8,
    allReal_of_all x14 _ _ _ c9, inRange_of_all 15000 15000#32 (by decide) x0 _ _ _ c10,
    inRange_of_all 50 50#32 (by decide) x1 _ _ _ c11, inRange_of_all 16384 16384#32 (by decide) x3 _ _ _ c12,
    inRange_of_all 16384 16384#32 (by decide) x5 _ _ _ c13⟩

end Cert.PreFacts

end
-- ==== Proof.Bridge.lean ====
/-
  The two idealized programs compute the same pooled docs, and from them the same two results.

  Under the precondition's facts (real float entries; destination ids, word ids and topic ids in range) the kernel's
  pooled docs read, at every graph and column, as the two relations in the kernel's arrangement, the reference's as the
  mean over the graph's docs of the two relations in the reference's arrangement, and these agree. Both programs then
  apply the same output layer, loss and sigmoid to the pooled docs.
-/
import proofs.«404497_j45732811768428_3_alg».proof.Proof.KernelPool
import proofs.«404497_j45732811768428_3_alg».proof.Proof.RefSide
import proofs.«404497_j45732811768428_3_alg».proof.Proof.PoolBridge
import proofs.«404497_j45732811768428_3_alg».proof.Proof.PreFacts
import proofs.«404497_j45732811768428_3_alg».proof.Proof.Gen.KernelIdeal

noncomputable section

namespace Cert.Bridge

open Idealize.ShloMosaic Idealize.ShloMosaic.ValueIdx Cert.KStage Cert.Graph Cert.PreFacts

/-- The pooled docs agree. -/
theorem pooled_eq
    (x0 : IVec Cert.KernelIdeal.S100000 32) (x1 : IVec Cert.KernelIdeal.S1600 32) (x2 x3 : IVec Cert.KernelIdeal.S1000000 32)
    (x4 x5 : IVec Cert.KernelIdeal.S200000 32)
    (x7 : FVec Ideal Cert.KernelIdeal.S15000x128 .f32) (x8 : FVec Ideal Cert.KernelIdeal.S50x128 .f32)
    (x9 : FVec Ideal Cert.KernelIdeal.S128x128 .f32) (x10 : FVec Ideal Cert.KernelIdeal.S128 .f32)
    (x11 : FVec Ideal Cert.KernelIdeal.S128x128 .f32) (x12 : FVec Ideal Cert.KernelIdeal.S128 .f32)
    (h0 : InRange 15000 x0) (h1 : InRange 50 x1) (h3 : InRange 16384 x3) (h5 : InRange 16384 x5)
    (r7 : AllReal x7) (r8 : AllReal x8) (r9 : AllReal x9) (r10 : AllReal x10) (r11 : AllReal x11) (r12 : AllReal x12) :
    kPool (F := Ideal) (kOut (kA x0 x2 x3) (kB x7)) x1 x4 x5 x8 x9 x10 x11 x12
      = Cert.ReferenceIdeal.Read.val_main_v80 (F := Ideal) x0 x1 x2 x3 x4 x5 x7 x8 x9 x10 x11 x12 := by
  funext i
  obtain ⟨g, h, rfl⟩ : ∃ (g : Fin 32) (h : Fin 128), i = ix2 g h := ⟨i 0, i 1, eq_ix2 i⟩
  rw [kpool_apply x0 x1 x2 x3 x4 x5 x7 x8 x9 x10 x11 x12 h0 h1 h3 h5 g h]
  refine Eq.trans ?_ (Cert.RefSide.rpool_apply x0 x1 x2 x3 x4 x5 x7 x8 x9 x10 x11 x12 h3 h5 g h).symm
  exact kRel_add_eq_mean _ _ _ _ x0 x2 x3 x7 x9 x10 x1 x4 x5 x8 x11 x12 r7 r9 r10 r8 r11 r12 g h

/-- The loss is one function of the pooled docs in both programs. -/
theorem loss_tail (pool : FVec Ideal Cert.KernelIdeal.S32x128 .f32) (x6 : FVec Ideal Cert.KernelIdeal.S32 .f32)
    (x13 : FVec Ideal Cert.KernelIdeal.S128x1 .f32) (x14 : FVec Ideal Cert.KernelIdeal.S1 .f32) :
    kLossOf (F := Ideal) pool x6 x13 x14 = Cert.RefSide.tailLoss pool x6 x13 x14 := rfl

/-- And so is the prediction. -/
theorem pred_tail (pool : FVec Ideal Cert.KernelIdeal.S32x128 .f32)
    (x13 : FVec Ideal Cert.KernelIdeal.S128x1 .f32) (x14 : FVec Ideal Cert.KernelIdeal.S1 .f32) :
    kPredOf (F := Ideal) pool x13 x14 = Cert.RefSide.tailPred pool x13 x14 := rfl

end Cert.Bridge

end
-- ==== Proof.lean ====
/-
  The certificate: the kernel's program and its idealization run to the end without fault and leave their arguments
  unchanged; so does the idealized reference; the idealization rewrote nothing; and, over the extended reals, from
  memories agreeing on the arguments, the idealized kernel and the idealized reference end with equal results.

  The kernel pools the two graph relations per graph BEFORE the dense layers — a coefficient matrix per relation,
  contracted with the embedding table (for the word relation inside the launch) and divided by the 512 docs per graph
  — where the reference applies the layers per doc and averages over the docs of a graph afterwards. With every float
  entry a real number and the word ids, topic ids and destination ids in range, both are the same finite real sum
  (Proof/PoolAlgebra.lean); the output layer, the loss and the sigmoid that follow are the same operations in both
  programs.
-/
import proofs.«404497_j45732811768428_3_alg».proof.Defs
import proofs.«404497_j45732811768428_3_alg».proof.Proof.Gen.Kernel
import proofs.«404497_j45732811768428_3_alg».proof.Proof.Gen.KernelIdeal
import proofs.«404497_j45732811768428_3_alg».proof.Proof.Gen.ReferenceIdeal
import proofs.«404497_j45732811768428_3_alg».proof.Proof.Gen.Pre_finite_inputs
import proofs.«404497_j45732811768428_3_alg».proof.Proof.KernelRun
import proofs.«404497_j45732811768428_3_alg».proof.Proof.KernelIdealResult
import proofs.«404497_j45732811768428_3_alg».proof.Proof.Bridge
import Idealize.ShloMosaic.Adequacy
import Idealize.ShloMosaic.Init

set_option maxRecDepth 16384

noncomputable section

namespace Cert.Proof

open Idealize.ShloMosaic Idealize.SL.Sem

/-- The word-level kernel's frame. -/
theorem frame_k : Cert.frame_Kernel := fun m ρ _ => Cert.Kernel.Fr.frame m ρ

/-- The idealized kernel's frame. -/
theorem frame_ki : Cert.frame_KernelIdeal := fun m ρ _ => Cert.KernelIdeal.Fr.frame m ρ

/-- The idealized reference's frame: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Equal results: the kernel's named run, the reference's run, and the pooled docs equal under the precondition. -/
theorem algebraic : Cert.algebraic_KernelIdeal_ReferenceIdeal := by
  intro m ρ m' ρ' hpre hagree
  refine ⟨_, _, Cert.KernelIdeal.Fr.run_results (F := Ideal) m ρ, ?_⟩
  refine (θ_run Cert.ReferenceIdeal.defs _ _).mono (fun r h c => ?_) (Cert.ReferenceIdeal.Value.run (F := Ideal) m' ρ')
  obtain ⟨hl, hp, hargs⟩ := h c
  obtain ⟨a0, a1, a2, a3, a4, a5, a6, a7, a8, a9, a10, a11, a12, a13, a14⟩ := hagree c
  obtain ⟨r6, r7, r8, r9, r10, r11, r12, r13, r14, i0, i1, i3, i5⟩ :=
    Cert.PreFacts.decode (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (hpre c)
  have hpool := Cert.Bridge.pooled_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))
    i0 i1 i3 i5 r7 r8 r9 r10 r11 r12
  refine ⟨hl.trans ?_, hp.trans ?_, hargs⟩
  · rw [Cert.ReferenceIdeal.Read.val_main_v96_eq, Cert.RefSide.loss_eq, a0, a1, a2, a3, a4, a5, a6, a7, a8, a9, a10, a11, a12, a13, a14,
      ← hpool, ← Cert.Bridge.loss_tail]
    rfl
  · rw [Cert.ReferenceIdeal.Read.val_main_v102_eq, Cert.RefSide.pred_eq, a0, a1, a2, a3, a4, a5, a7, a8, a9, a10, a11, a12, a13, a14,
      ← hpool, ← Cert.Bridge.pred_tail]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
